-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S2x600000 : Shape := ⟨2, ![2, 600000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg4 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S50000x128 .f32) (main_arg1 : FVec F S3x128x128 .f32) (main_arg2 : FVec F S3x128 .f32) (main_arg3 : FVec F S3x128x128 .f32) (main_arg4 : FVec F S3x128 .f32) (main_arg5 : IVec S2x600000 32) (main_arg6 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S50000x1 : Shape := ⟨2, ![50000, 1]⟩
abbrev S5000x1 : Shape := ⟨2, ![5000, 1]⟩
abbrev S128x1 : Shape := ⟨2, ![128, 1]⟩

abbrev nBuf : Space → Nat
  | .hbm => 79
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S3x128x128, .f32⟩
  | .hbm, ⟨2, _⟩ => ⟨S3x128, .f32⟩
  | .hbm, ⟨3, _⟩ => ⟨S3x128x128, .f32⟩
  | .hbm, ⟨4, _⟩ => ⟨S3x128, .f32⟩
  | .hbm, ⟨5, _⟩ => ⟨S2x600000, .i32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S1x128x128, .f32⟩
  | .hbm, ⟨25, _⟩ => ⟨S128x128, .f32⟩
  | .hbm, ⟨26, _⟩ => ⟨S1x128, .f32⟩
  | .hbm, ⟨27, _⟩ => ⟨S128, .f32⟩
  | .hbm, ⟨28, _⟩ => ⟨S1x128x128, .f32⟩
  | .hbm, ⟨29, _⟩ => ⟨S128x128, .f32⟩
  | .hbm, ⟨30, _⟩ => ⟨S1x128, .f32⟩
  | .hbm, ⟨31, _⟩ => ⟨S128, .f32⟩
  | .hbm, ⟨32, _⟩ => ⟨S50000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S1x128x128, .f32⟩
  | .hbm, ⟨47, _⟩ => ⟨S128x128, .f32⟩
  | .hbm, ⟨48, _⟩ => ⟨S1x128, .f32⟩
  | .hbm, ⟨49, _⟩ => ⟨S128, .f32⟩
  | .hbm, ⟨50, _⟩ => ⟨S1x128x128, .f32⟩
  | .hbm, ⟨51, _⟩ => ⟨S128x128, .f32⟩
  | .hbm, ⟨52, _⟩ => ⟨S1x128, .f32⟩
  | .hbm, ⟨53, _⟩ => ⟨S128, .f32⟩
  | .hbm, ⟨54, _⟩ => ⟨S50000x128, .f32⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x128, .f32⟩
  | .hbm, ⟨64, _⟩ => ⟨S_, .f32⟩
  | .hbm, ⟨65, _⟩ => ⟨S50000x128, .f32⟩
  | .hbm, ⟨66, _⟩ => ⟨S600000x1, .i32⟩
  | .hbm, ⟨67, _⟩ => ⟨S50000x128, .f32⟩
  | .hbm, ⟨68, _⟩ => ⟨S1x128x128, .f32⟩
  | .hbm, ⟨69, _⟩ => ⟨S128x128, .f32⟩
  | .hbm, ⟨70, _⟩ => ⟨S1x128, .f32⟩
  | .hbm, ⟨71, _⟩ => ⟨S128, .f32⟩
  | .hbm, ⟨72, _⟩ => ⟨S1x128x128, .f32⟩
  | .hbm, ⟨73, _⟩ => ⟨S128x128, .f32⟩
  | .hbm, ⟨74, _⟩ => ⟨S1x128, .f32⟩
  | .hbm, ⟨75, _⟩ => ⟨S128, .f32⟩
  | .hbm, ⟨76, _⟩ => ⟨S50000x128, .f32⟩
  | .hbm, ⟨77, _⟩ => ⟨S50000x1, .i32⟩
  | .hbm, ⟨78, _⟩ => ⟨S128x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .i32⟩
  | .local _ .vmem, ⟨33, _⟩ => ⟨S5000x1, .i32⟩
  | .local _ .vmem, ⟨34, _⟩ => ⟨S128x128, .f32⟩
  | .local _ .vmem, ⟨35, _⟩ => ⟨S128x128, .f32⟩
  | .local _ .vmem, ⟨36, _⟩ => ⟨S128x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_1 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_4 : Ref sig .tc := ⟨.hbm, 55, rfl⟩
abbrev main_v42 : Ref sig .tc := ⟨.hbm, 56, rfl⟩
abbrev main_v43 : Ref sig .tc := ⟨.hbm, 57, rfl⟩
abbrev main_c_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_scratch0 : Ref sig .tc := ⟨.vmem, 35, rfl⟩
abbrev cc3_scratch1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S50000_S50000x1 : S50000.ShapeCasts S50000x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S5000x128_d1_w32 : S5000x128.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  natLt_1_32 : 1 < 32
  broadcasts_S128x1_S128x128 : S128x1.Broadcasts S128x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S5000x128_S128x128_0_0_1_1_n_n_wf : DotDims.WF S5000x128 S5000x128 S128x128 [0] [0] [1] [1] [] []
  dot_S5000x128_S5000x1_S128x1_0_0_1_1_n_n_wf : DotDims.WF S5000x128 S5000x1 S128x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .i32 = 32 ∨ (Rect.block (s := S50000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S5000x128_S5000x1_S128x1_0_0_1_1_n_n : DotDims S5000x128 S5000x1 S128x1 where
  lhsContracting := [0]
  rhsContracting := [0]
  lhsNonContracting := [1]
  rhsNonContracting := [1]
  lhsBatch := []
  rhsBatch := []
  wf := dot_S5000x128_S5000x1_S128x1_0_0_1_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S128x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x1 : Shape := ⟨2, ![50000, 1]⟩
abbrev S128x1 : Shape := ⟨2, ![128, 1]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S3x128x128, .f32⟩
  | .hbm, ⟨2, _⟩ => ⟨S3x128, .f32⟩
  | .hbm, ⟨3, _⟩ => ⟨S3x128x128, .f32⟩
  | .hbm, ⟨4, _⟩ => ⟨S3x128, .f32⟩
  | .hbm, ⟨5, _⟩ => ⟨S2x600000, .i32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S50000x128, .f32⟩
  | .hbm, ⟨25, _⟩ => ⟨S1x128x128, .f32⟩
  | .hbm, ⟨26, _⟩ => ⟨S128x128, .f32⟩
  | .hbm, ⟨27, _⟩ => ⟨S50000x128, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S1x128x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S50000x128, .f32⟩
  | .hbm, ⟨58, _⟩ => ⟨S1x128x128, .f32⟩
  | .hbm, ⟨59, _⟩ => ⟨S128x128, .f32⟩
  | .hbm, ⟨60, _⟩ => ⟨S50000x128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S1x128x128, .f32⟩
  | .hbm, ⟨70, _⟩ => ⟨S128x128, .f32⟩
  | .hbm, ⟨71, _⟩ => ⟨S50000x128, .f32⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S600000, .i32⟩
  | .hbm, ⟨79, _⟩ => ⟨S600000, .i1⟩
  | .hbm, ⟨80, _⟩ => ⟨S_, .i32⟩
  | .hbm, ⟨81, _⟩ => ⟨S600000, .i32⟩
  | .hbm, ⟨82, _⟩ => ⟨S600000, .i32⟩
  | .hbm, ⟨83, _⟩ => ⟨S600000, .i32⟩
  | .hbm, ⟨84, _⟩ => ⟨S600000x1, .i32⟩
  | .hbm, ⟨85, _⟩ => ⟨S600000x128, .f32⟩
  | .hbm, ⟨86, _⟩ => ⟨S_, .f32⟩
  | .hbm, ⟨87, _⟩ => ⟨S50000x128, .f32⟩
  | .hbm, ⟨88, _⟩ => ⟨S600000x1, .i32⟩
  | .hbm, ⟨89, _⟩ => ⟨S50000x128, .f32⟩
  | .hbm, ⟨90, _⟩ => ⟨S50000x128, .f32⟩
  | .hbm, ⟨91, _⟩ => ⟨S1x128x128, .f32⟩
  | .hbm, ⟨92, _⟩ => ⟨S128x128, .f32⟩
  | .hbm, ⟨93, _⟩ => ⟨S50000x128, .f32⟩
  | .hbm, ⟨94, _⟩ => ⟨S1x128, .f32⟩
  | .hbm, ⟨95, _⟩ => ⟨S128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000x128, .f32⟩
  | .hbm, ⟨101, _⟩ => ⟨S50000x128, .f32⟩
  | .hbm, ⟨102, _⟩ => ⟨S1x128x128, .f32⟩
  | .hbm, ⟨103, _⟩ => ⟨S128x128, .f32⟩
  | .hbm, ⟨104, _⟩ => ⟨S50000x128, .f32⟩
  | .hbm, ⟨105, _⟩ => ⟨S1x128, .f32⟩
  | .hbm, ⟨106, _⟩ => ⟨S128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S128x128, .f32⟩
  | .hbm, ⟨112, _⟩ => ⟨S50000x1, .i32⟩
  | .hbm, ⟨113, _⟩ => ⟨S128x128, .f32⟩
  | .hbm, ⟨114, _⟩ => ⟨S_, .f32⟩
  | .hbm, ⟨115, _⟩ => ⟨S50000x1, .f32⟩
  | .hbm, ⟨116, _⟩ => ⟨S_, .f32⟩
  | .hbm, ⟨117, _⟩ => ⟨S128x1, .f32⟩
  | .hbm, ⟨118, _⟩ => ⟨S50000x1, .i32⟩
  | .hbm, ⟨119, _⟩ => ⟨S128x1, .f32⟩
  | .hbm, ⟨120, _⟩ => ⟨S_, .f32⟩
  | .hbm, ⟨121, _⟩ => ⟨S128x1, .f32⟩
  | .hbm, ⟨122, _⟩ => ⟨S128x1, .f32⟩
  | .hbm, ⟨123, _⟩ => ⟨S128x128, .f32⟩
  | .hbm, ⟨124, _⟩ => ⟨S128x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_2 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c_6 : Ref sig .tc := ⟨.hbm, 77, rfl⟩
abbrev main_v62 : Ref sig .tc := ⟨.hbm, 78, rfl⟩
abbrev main_v63 : Ref sig .tc := ⟨.hbm, 79, rfl⟩
abbrev main_c_7 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_8 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_9 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_10 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_11 : Ref sig .tc := ⟨.hbm, 114, rfl⟩
abbrev main_v94 : Ref sig .tc := ⟨.hbm, 115, rfl⟩
abbrev main_cst_12 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_13 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  scatter_S128x1_S50000x1_S50000x1_1_0_0_1_wf : ScatterDims.WF S128x1 S50000x1 S50000x1 [1] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128x1_S50000x1_S50000x1_1_0_0_1 : ScatterDims S128x1 S50000x1 S50000x1 where
  updateWindowDims := [1]
  insertedWindowDims := [0]
  scatterDimsToOperandDims := [0]
  indexVectorDim := 1
  wf := scatter_S128x1_S50000x1_S50000x1_1_0_0_1_wf

class Facts : Prop extends Facts₀ where

variable [Facts]
-- ==== Proof.K.Mlp0.lean ====
/- Region 0 of the layer pipeline (the dense two-matmul update of one 5000-row tile), at the contents `V` the region is entered with:
   what each window's block is, what the body leaves in the output tile, the proof data and the body obligation. -/
import proofs.«430098_j70454643523874_1_alg».proof.Proof.Gen.Kernel.Launch
import proofs.«430098_j70454643523874_1_alg».proof.Proof.Gen.Kernel.Skeleton
import proofs.«430098_j70454643523874_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole output tile as a rectangle: zero offsets, the tile's own sizes. -/
abbrev r0_0 : Rect S5000x128 := Rect.unit (s := S5000x128) ![0, 0] S5000x128.size inb_S5000x128_S5000x128_0_0

theorem hz0_2 : (![0, 0] : Fin 2 → Nat) = fun _ => 0 := funext fun a => by fin_cases a <;> rfl
theorem hz0_1 : (![0] : Fin 1 → Nat) = fun _ => 0 := funext fun a => by fin_cases a <;> rfl

/-- The output tile after the body: the layer's payload of the six input blocks. -/
def out0_6 (x0 x1 : Vec F S5000x128 .f32) (x2 : Vec F S128x128 .f32) (x3 : Vec F S128 .f32) (x4 : Vec F S128x128 .f32) (x5 : Vec F S128 .f32) : Vec F S5000x128 .f32 :=
  k0_pay1 x0 x1 x2 x3 x4 x5

/-- The one store of the body tiles the output tile, so it covers it. -/
theorem cover0_6 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
/-- The kernel body on whole staging memrefs, the inputs' at read contents `xW` and the output's at anything, runs to
    the continuation holding the inputs' as they were and the output's at `out0_6` of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (cover0_6 _), View.canon_unit_zero hz0_2]
  unfold out0_6
  simp only [View.readAt_eq_ld, View.ld_unit_zero (S := S5000x128) hz0_2, View.ld_unit_zero (S := S128x128) hz0_2,
    View.ld_unit_zero (S := S128) hz0_1]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end
end Cert.Kernel.Fr

end
-- ==== Proof.K.Mlp1.lean ====
/- Region 1 of the layer pipeline (the dense two-matmul update of one 5000-row tile), at the contents `V` the region is entered with:
   what each window's block is, what the body leaves in the output tile, the proof data and the body obligation. -/
import proofs.«430098_j70454643523874_1_alg».proof.Proof.Gen.Kernel.Launch
import proofs.«430098_j70454643523874_1_alg».proof.Proof.Gen.Kernel.Skeleton
import proofs.«430098_j70454643523874_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole output tile as a rectangle: zero offsets, the tile's own sizes. -/
abbrev r1_0 : Rect S5000x128 := Rect.unit (s := S5000x128) ![0, 0] S5000x128.size inb_S5000x128_S5000x128_0_0

theorem hz1_2 : (![0, 0] : Fin 2 → Nat) = fun _ => 0 := funext fun a => by fin_cases a <;> rfl
theorem hz1_1 : (![0] : Fin 1 → Nat) = fun _ => 0 := funext fun a => by fin_cases a <;> rfl

/-- The output tile after the body: the layer's payload of the six input blocks. -/
def out1_6 (x0 x1 : Vec F S5000x128 .f32) (x2 : Vec F S128x128 .f32) (x3 : Vec F S128 .f32) (x4 : Vec F S128x128 .f32) (x5 : Vec F S128 .f32) : Vec F S5000x128 .f32 :=
  k1_pay1 x0 x1 x2 x3 x4 x5

/-- The one store of the body tiles the output tile, so it covers it. -/
theorem cover1_6 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in
/-- The kernel body on whole staging memrefs, the inputs' at read contents `xW` and the output's at anything, runs to
    the continuation holding the inputs' as they were and the output's at `out1_6` of the inputs'. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__mlp_kernel i arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (cover1_6 _), View.canon_unit_zero hz1_2]
  unfold out1_6
  simp only [View.readAt_eq_ld, View.ld_unit_zero (S := S5000x128) hz1_2, View.ld_unit_zero (S := S128x128) hz1_2,
    View.ld_unit_zero (S := S128) hz1_1]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end
end Cert.Kernel.Fr

end
-- ==== Proof.K.Mlp2.lean ====
/- Region 2 of the layer pipeline (the dense two-matmul update of one 5000-row tile), at the contents `V` the region is entered with:
   what each window's block is, what the body leaves in the output tile, the proof data and the body obligation. -/
import proofs.«430098_j70454643523874_1_alg».proof.Proof.Gen.Kernel.Launch
import proofs.«430098_j70454643523874_1_alg».proof.Proof.Gen.Kernel.Skeleton
import proofs.«430098_j70454643523874_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole output tile as a rectangle: zero offsets, the tile's own sizes. -/
abbrev r2_0 : Rect S5000x128 := Rect.unit (s := S5000x128) ![0, 0] S5000x128.size inb_S5000x128_S5000x128_0_0

theorem hz2_2 : (![0, 0] : Fin 2 → Nat) = fun _ => 0 := funext fun a => by fin_cases a <;> rfl
theorem hz2_1 : (![0] : Fin 1 → Nat) = fun _ => 0 := funext fun a => by fin_cases a <;> rfl

/-- The output tile after the body: the layer's payload of the six input blocks. -/
def out2_6 (x0 x1 : Vec F S5000x128 .f32) (x2 : Vec F S128x128 .f32) (x3 : Vec F S128 .f32) (x4 : Vec F S128x128 .f32) (x5 : Vec F S128 .f32) : Vec F S5000x128 .f32 :=
  k2_pay1 x0 x1 x2 x3 x4 x5

/-- The one store of the body tiles the output tile, so it covers it. -/
theorem cover2_6 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 1000000 in
/-- The kernel body on whole staging memrefs, the inputs' at read contents `xW` and the output's at anything, runs to
    the continuation holding the inputs' as they were and the output's at `out2_6` of the inputs'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__mlp_kernel i arg1 harg1 arg2 harg2 arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (cover2_6 _), View.canon_unit_zero hz2_2]
  unfold out2_6
  simp only [View.readAt_eq_ld, View.ld_unit_zero (S := S5000x128) hz2_2, View.ld_unit_zero (S := S128x128) hz2_2,
    View.ld_unit_zero (S := S128) hz2_1]

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the kernel's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end
end Cert.Kernel.Fr

end
-- ==== Proof.K.PoolRuns.lean ====
/- Region 3, the pooling pipeline: what the runs of its body share — the two branch conditions of the body in closed form over the
   grid, where the output window is idle and where it is written back, the staging and carried memrefs, and the class's invariant
   with the two carried arrays split off. -/
import proofs.«430098_j70454643523874_1_alg».proof.Proof.Gen.Kernel.Launch
import proofs.«430098_j70454643523874_1_alg».proof.Proof.Gen.Kernel.Skeleton
import proofs.«430098_j70454643523874_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The condition of the body's first conditional (the reset of the carried arrays), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 10 = 0 :=
  (by decide +kernel : ∀ t : Fin grid3.N, cond3_0 (grid3.coords t) ↔ t.val % 10 = 0)

/-- The condition of the body's second conditional (the store of the quotient), from the grid coordinates. -/
abbrev cond3_1 (i : grid3.Coords) : Prop := k3_cond2 i = 1#1
/-- It holds at the last point only. -/
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

/-- The two input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- Where the quotient is not stored the output window is idle and is not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- Where it is stored the window is live. -/
theorem liveAt3_2 : ∀ t : Fin cfg3.N, cond3_1 (grid3.coords t) → cfg3.idle 2 (grid3.coords t) = false := by decide +kernel

/-! ## The memrefs the body is called with -/

/-- Each window's current staging memref at point `t`, and its wholeness. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x128 .f32 := win3_2.stage (cfg3.slots t 2)
abbrev hs3_2 (t : Fin cfg3.N) : (ms3_2 t).IsWhole := hstage3_2 ((cfg3.slots t 2).cast nbuf3_2)
/-- The two carried arrays: whole scoped buffers of the kernel's own. -/
abbrev scM3_0 : Memref sig .tc .vmem S128x128 .f32 := Memref.whole cc3_scratch0
abbrev scM3_1 : Memref sig .tc .vmem S128x1 .f32 := Memref.whole cc3_scratch1
/-- Views through which the contents of the output tile and of the carried arrays are stated. -/
abbrev VO3_2 : View sig .tc .vmem S128x128 .f32 := (Memref.whole cc3_scratch0 : Memref sig .tc .vmem S128x128 .f32).view
abbrev VS3_0 : View sig .tc .vmem S128x128 .f32 := scM3_0.view
abbrev VS3_1 : View sig .tc .vmem S128x1 .f32 := scM3_1.view

/-- The class's invariant with the two carried arrays as memrefs owned at some contents, the other scoped buffers unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.Kernel.Fr

end
-- ==== Proof.K.PoolRun.lean ====
/- Region 3, the pooling pipeline: the run of its body in each of its three control cases (the first point, a middle point, the last
   point), each with the pieces its stores leave in the output tile and in the two carried arrays. -/
import proofs.«430098_j70454643523874_1_alg».proof.Proof.K.PoolRuns

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at the first point (reset, no store of the quotient): on whole memrefs — the two input tiles at their contents, the
    output tile at contents handed back untouched, the two carried arrays at anything — it runs to the continuation holding the inputs
    and the output tile as they were and each carried array with its pieces written. -/
noncomputable def kernelRun3_A (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : cond3_0 i) (hc1 : ¬cond3_1 i)
    (x0 : Vec F S5000x128 .f32) (x1 : Vec F S5000x1 .i32) :
    Σ' (L2 : List (View.Piece (Elt F) S128x128 .f32)) (LS0 : List (View.Piece (Elt F) S128x128 .f32)), { LS1 : List (View.Piece (Elt F) S128x1 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc3__pool_kernel i arg1 harg1 arg2 harg2 arg3 harg3 arg4 harg4 arg5 harg5) K } := by
  refine ⟨[], ?_, ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The body's run at a middle point (no reset, no store of the quotient): on whole memrefs — the two input tiles at their contents, the
    output tile at contents handed back untouched, the two carried arrays at what the point before left — it runs to the continuation
    holding the inputs and the output tile as they were and each carried array with its pieces written. -/
noncomputable def kernelRun3_B (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : ¬cond3_1 i)
    (x0 : Vec F S5000x128 .f32) (x1 : Vec F S5000x1 .i32) (xs0 : Vec F S128x128 .f32) (xs1 : Vec F S128x1 .f32) :
    Σ' (L2 : List (View.Piece (Elt F) S128x128 .f32)) (LS0 : List (View.Piece (Elt F) S128x128 .f32)), { LS1 : List (View.Piece (Elt F) S128x1 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc3__pool_kernel i arg1 harg1 arg2 harg2 arg3 harg3 arg4 harg4 arg5 harg5) K } := by
  refine ⟨[], ?_, ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The body's run at the last point (no reset, the quotient stored): on whole memrefs — the two input tiles at their contents, the
    output tile at anything, the two carried arrays at what the point before left — it runs to the continuation holding the inputs as
    they were and the output tile and each carried array with its pieces written. -/
noncomputable def kernelRun3_C (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : cond3_1 i)
    (x0 : Vec F S5000x128 .f32) (x1 : Vec F S5000x1 .i32) (xs0 : Vec F S128x128 .f32) (xs1 : Vec F S128x1 .f32) :
    Σ' (L2 : List (View.Piece (Elt F) S128x128 .f32)) (LS0 : List (View.Piece (Elt F) S128x128 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc3__pool_kernel i arg1 harg1 arg2 harg2 arg3 harg3 arg4 harg4 arg5 harg5) K } := by
  refine ⟨?_, ?_, ?_, fun E K => ?run⟩
  case run =>
    simp only [cc3__pool_kernel_eq_skeleton]; unfold cc3__pool_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.Kernel.Fr

end
-- ==== Proof.K.Pool.lean ====
/- Region 3, the pooling pipeline (a one-hot matmul accumulated over the ten row tiles into two carried scratch arrays, divided at the
   last tile), at the contents `V` the region is entered with: the blocks, what the output tile and the two carried arrays hold after
   each point, the proof data, the body obligation, and the invariant's two ends. -/
import proofs.«430098_j70454643523874_1_alg».proof.Proof.K.PoolRun
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The pieces each case leaves cover the arrays they are stored into -/

theorem scover3_A_0 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : cond3_0 i) (hc1 : ¬cond3_1 i)
    (x0 : Vec F S5000x128 .f32) (x1 : Vec F S5000x1 .i32) (y : S128x128.Idx) :
    ∃ pc ∈ (kernelRun3_A c i arg1 harg1 arg2 harg2 arg3 harg3 arg4 harg4 arg5 harg5 hc0 hc1 x0 x1).2.1, y ∈ pc.1.set :=
  View.cover_of_tiledL (kernelRun3_A c i arg1 harg1 arg2 harg2 arg3 harg3 arg4 harg4 arg5 harg5 hc0 hc1 x0 x1).2.1 S128x128.size (by sl_kernel_rfl) y

theorem scover3_A_1 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : cond3_0 i) (hc1 : ¬cond3_1 i)
    (x0 : Vec F S5000x128 .f32) (x1 : Vec F S5000x1 .i32) (y : S128x1.Idx) :
    ∃ pc ∈ (kernelRun3_A c i arg1 harg1 arg2 harg2 arg3 harg3 arg4 harg4 arg5 harg5 hc0 hc1 x0 x1).2.2.1, y ∈ pc.1.set :=
  View.cover_of_tiledL (kernelRun3_A c i arg1 harg1 arg2 harg2 arg3 harg3 arg4 harg4 arg5 harg5 hc0 hc1 x0 x1).2.2.1 S128x1.size (by sl_kernel_rfl) y

theorem scover3_B_0 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : ¬cond3_1 i)
    (x0 : Vec F S5000x128 .f32) (x1 : Vec F S5000x1 .i32) (xs0 : Vec F S128x128 .f32) (xs1 : Vec F S128x1 .f32) (y : S128x128.Idx) :
    ∃ pc ∈ (kernelRun3_B c i arg1 harg1 arg2 harg2 arg3 harg3 arg4 harg4 arg5 harg5 hc0 hc1 x0 x1 xs0 xs1).2.1, y ∈ pc.1.set :=
  View.cover_of_tiledL (kernelRun3_B c i arg1 harg1 arg2 harg2 arg3 harg3 arg4 harg4 arg5 harg5 hc0 hc1 x0 x1 xs0 xs1).2.1 S128x128.size (by sl_kernel_rfl) y

theorem scover3_B_1 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : ¬cond3_1 i)
    (x0 : Vec F S5000x128 .f32) (x1 : Vec F S5000x1 .i32) (xs0 : Vec F S128x128 .f32) (xs1 : Vec F S128x1 .f32) (y : S128x1.Idx) :
    ∃ pc ∈ (kernelRun3_B c i arg1 harg1 arg2 harg2 arg3 harg3 arg4 harg4 arg5 harg5 hc0 hc1 x0 x1 xs0 xs1).2.2.1, y ∈ pc.1.set :=
  View.cover_of_tiledL (kernelRun3_B c i arg1 harg1 arg2 harg2 arg3 harg3 arg4 harg4 arg5 harg5 hc0 hc1 x0 x1 xs0 xs1).2.2.1 S128x1.size (by sl_kernel_rfl) y

theorem scover3_C_0 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : cond3_1 i)
    (x0 : Vec F S5000x128 .f32) (x1 : Vec F S5000x1 .i32) (xs0 : Vec F S128x128 .f32) (xs1 : Vec F S128x1 .f32) (y : S128x128.Idx) :
    ∃ pc ∈ (kernelRun3_C c i arg1 harg1 arg2 harg2 arg3 harg3 arg4 harg4 arg5 harg5 hc0 hc1 x0 x1 xs0 xs1).2.1, y ∈ pc.1.set :=
  View.cover_of_tiledL (kernelRun3_C c i arg1 harg1 arg2 harg2 arg3 harg3 arg4 harg4 arg5 harg5 hc0 hc1 x0 x1 xs0 xs1).2.1 S128x128.size (by sl_kernel_rfl) y

theorem scover3_C_1 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : cond3_1 i)
    (x0 : Vec F S5000x128 .f32) (x1 : Vec F S5000x1 .i32) (xs0 : Vec F S128x128 .f32) (xs1 : Vec F S128x1 .f32) (y : S128x1.Idx) :
    ∃ pc ∈ (kernelRun3_C c i arg1 harg1 arg2 harg2 arg3 harg3 arg4 harg4 arg5 harg5 hc0 hc1 x0 x1 xs0 xs1).2.2.1, y ∈ pc.1.set :=
  View.cover_of_tiledL (kernelRun3_C c i arg1 harg1 arg2 harg2 arg3 harg3 arg4 harg4 arg5 harg5 hc0 hc1 x0 x1 xs0 xs1).2.2.1 S128x1.size (by sl_kernel_rfl) y

theorem cover3_C_2 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : cond3_1 i)
    (x0 : Vec F S5000x128 .f32) (x1 : Vec F S5000x1 .i32) (xs0 : Vec F S128x128 .f32) (xs1 : Vec F S128x1 .f32) (y : S128x128.Idx) :
    ∃ pc ∈ (kernelRun3_C c i arg1 harg1 arg2 harg2 arg3 harg3 arg4 harg4 arg5 harg5 hc0 hc1 x0 x1 xs0 xs1).1, y ∈ pc.1.set :=
  View.cover_of_tiledL (kernelRun3_C c i arg1 harg1 arg2 harg2 arg3 harg3 arg4 harg4 arg5 harg5 hc0 hc1 x0 x1 xs0 xs1).1 S128x128.size (by sl_kernel_rfl) y

/-! ## What the pieces are: the named payloads of the blocks and of what the carried arrays held -/

theorem hz2 : (![0, 0] : Fin 2 → Nat) = fun _ => 0 := funext fun a => by fin_cases a <;> rfl

/-- At the first point the carried arrays end at the accumulation payloads over the zero arrays the reset stored. -/
theorem canon3_A_0 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : cond3_0 i) (hc1 : ¬cond3_1 i)
    (x0 : Vec F S5000x128 .f32) (x1 : Vec F S5000x1 .i32) :
    View.canon (kernelRun3_A c i arg1 harg1 arg2 harg2 arg3 harg3 arg4 harg4 arg5 harg5 hc0 hc1 x0 x1).2.1 = k3_pay4 x1 x0 (k3_pay1 (F := F)) := by
  unfold kernelRun3_A
  dsimp only
  sl_unfold_words
  rw [View.canon_cons_unit_zero (S := S128x128) hz2]
  simp only [View.readCov_unit_zero (S := S128x128) _ hz2, View.readCov_unit_zero (S := S128x1) _ hz2, View.readAt_eq_ld, harg1.read_unread, harg2.read_unread, harg4.read_unread, harg5.read_unread, View.ld_unit_zero (S := S5000x128) hz2, View.ld_unit_zero (S := S5000x1) hz2, View.ld_unit_zero (S := S128x128) hz2, View.ld_unit_zero (S := S128x1) hz2]

theorem canon3_A_1 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : cond3_0 i) (hc1 : ¬cond3_1 i)
    (x0 : Vec F S5000x128 .f32) (x1 : Vec F S5000x1 .i32) :
    View.canon (kernelRun3_A c i arg1 harg1 arg2 harg2 arg3 harg3 arg4 harg4 arg5 harg5 hc0 hc1 x0 x1).2.2.1 = k3_pay5 x1 (k3_pay2 (F := F)) := by
  unfold kernelRun3_A
  dsimp only
  sl_unfold_words
  rw [View.canon_cons_unit_zero (S := S128x1) hz2]
  simp only [View.readCov_unit_zero (S := S128x128) _ hz2, View.readCov_unit_zero (S := S128x1) _ hz2, View.readAt_eq_ld, harg1.read_unread, harg2.read_unread, harg4.read_unread, harg5.read_unread, View.ld_unit_zero (S := S5000x128) hz2, View.ld_unit_zero (S := S5000x1) hz2, View.ld_unit_zero (S := S128x128) hz2, View.ld_unit_zero (S := S128x1) hz2]

/-- At a middle point they end at the accumulation payloads over what they held. -/
theorem canon3_B_0 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : ¬cond3_1 i)
    (x0 : Vec F S5000x128 .f32) (x1 : Vec F S5000x1 .i32) (xs0 : Vec F S128x128 .f32) (xs1 : Vec F S128x1 .f32) :
    View.canon (kernelRun3_B c i arg1 harg1 arg2 harg2 arg3 harg3 arg4 harg4 arg5 harg5 hc0 hc1 x0 x1 xs0 xs1).2.1 = k3_pay4 x1 x0 xs0 := by
  unfold kernelRun3_B
  dsimp only
  sl_unfold_words
  rw [View.canon_unit_zero hz2]
  simp only [View.readAt_eq_ld, harg1.read_unread, harg2.read_unread, harg4.read_unread, harg5.read_unread, View.ld_unit_zero (S := S5000x128) hz2, View.ld_unit_zero (S := S5000x1) hz2, View.ld_unit_zero (S := S128x128) hz2, View.ld_unit_zero (S := S128x1) hz2]

theorem canon3_B_1 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : ¬cond3_1 i)
    (x0 : Vec F S5000x128 .f32) (x1 : Vec F S5000x1 .i32) (xs0 : Vec F S128x128 .f32) (xs1 : Vec F S128x1 .f32) :
    View.canon (kernelRun3_B c i arg1 harg1 arg2 harg2 arg3 harg3 arg4 harg4 arg5 harg5 hc0 hc1 x0 x1 xs0 xs1).2.2.1 = k3_pay5 x1 xs1 := by
  unfold kernelRun3_B
  dsimp only
  sl_unfold_words
  rw [View.canon_unit_zero hz2]
  simp only [View.readAt_eq_ld, harg1.read_unread, harg2.read_unread, harg4.read_unread, harg5.read_unread, View.ld_unit_zero (S := S5000x128) hz2, View.ld_unit_zero (S := S5000x1) hz2, View.ld_unit_zero (S := S128x128) hz2, View.ld_unit_zero (S := S128x1) hz2]

/-- At the last point likewise, and the output tile ends at the quotient payload of the two. -/
theorem canon3_C_0 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : cond3_1 i)
    (x0 : Vec F S5000x128 .f32) (x1 : Vec F S5000x1 .i32) (xs0 : Vec F S128x128 .f32) (xs1 : Vec F S128x1 .f32) :
    View.canon (kernelRun3_C c i arg1 harg1 arg2 harg2 arg3 harg3 arg4 harg4 arg5 harg5 hc0 hc1 x0 x1 xs0 xs1).2.1 = k3_pay4 x1 x0 xs0 := by
  unfold kernelRun3_C
  dsimp only
  sl_unfold_words
  rw [View.canon_unit_zero hz2]
  simp only [View.readAt_eq_ld, harg1.read_unread, harg2.read_unread, harg4.read_unread, harg5.read_unread, View.ld_unit_zero (S := S5000x128) hz2, View.ld_unit_zero (S := S5000x1) hz2, View.ld_unit_zero (S := S128x128) hz2, View.ld_unit_zero (S := S128x1) hz2]

theorem canon3_C_1 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : cond3_1 i)
    (x0 : Vec F S5000x128 .f32) (x1 : Vec F S5000x1 .i32) (xs0 : Vec F S128x128 .f32) (xs1 : Vec F S128x1 .f32) :
    View.canon (kernelRun3_C c i arg1 harg1 arg2 harg2 arg3 harg3 arg4 harg4 arg5 harg5 hc0 hc1 x0 x1 xs0 xs1).2.2.1 = k3_pay5 x1 xs1 := by
  unfold kernelRun3_C
  dsimp only
  sl_unfold_words
  rw [View.canon_unit_zero hz2]
  simp only [View.readAt_eq_ld, harg1.read_unread, harg2.read_unread, harg4.read_unread, harg5.read_unread, View.ld_unit_zero (S := S5000x128) hz2, View.ld_unit_zero (S := S5000x1) hz2, View.ld_unit_zero (S := S128x128) hz2, View.ld_unit_zero (S := S128x1) hz2]

theorem canon3_C_2 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : cond3_1 i)
    (x0 : Vec F S5000x128 .f32) (x1 : Vec F S5000x1 .i32) (xs0 : Vec F S128x128 .f32) (xs1 : Vec F S128x1 .f32) :
    View.canon (kernelRun3_C c i arg1 harg1 arg2 harg2 arg3 harg3 arg4 harg4 arg5 harg5 hc0 hc1 x0 x1 xs0 xs1).1 = k3_pay6 (k3_pay5 x1 xs1) (k3_pay4 x1 x0 xs0) := by
  unfold kernelRun3_C
  dsimp only
  sl_unfold_words
  rw [View.canon_unit_zero hz2]
  simp only [View.readCov_unit_zero (S := S128x128) _ hz2, View.readCov_unit_zero (S := S128x1) _ hz2, View.readAt_eq_ld, harg1.read_unread, harg2.read_unread, harg4.read_unread, harg5.read_unread, View.ld_unit_zero (S := S5000x128) hz2, View.ld_unit_zero (S := S5000x1) hz2, View.ld_unit_zero (S := S128x128) hz2, View.ld_unit_zero (S := S128x1) hz2]

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row tile of the features and of the graph ids at point `n`, at their literal types. -/
abbrev xblk3 (c : Dev nD) (t : Fin cfg3.N) : Vec F S5000x128 .f32 := iblk3 V c 0 t
abbrev bblk3 (c : Dev nD) (t : Fin cfg3.N) : Vec F S5000x1 .i32 := iblk3 V c 1 t

/-- The carried sums and counts after point `n`: the accumulation payloads folded over the tiles from the zero arrays. -/
def acc3 (c : Dev nD) : (n : ℕ) → n < cfg3.N → Vec F S128x128 .f32 × Vec F S128x1 .f32
  | 0, hn => (k3_pay4 (bblk3 V c ⟨0, hn⟩) (xblk3 V c ⟨0, hn⟩) (k3_pay1 (F := F)), k3_pay5 (bblk3 V c ⟨0, hn⟩) (k3_pay2 (F := F)))
  | n + 1, hn => (k3_pay4 (bblk3 V c ⟨n + 1, hn⟩) (xblk3 V c ⟨n + 1, hn⟩) (acc3 c n (Nat.lt_of_succ_lt hn)).1,
      k3_pay5 (bblk3 V c ⟨n + 1, hn⟩) (acc3 c n (Nat.lt_of_succ_lt hn)).2)

/-- What the output tile holds after point `n`: the quotient payload of the carried arrays (consulted at the last point only,
    the one point where the body stores it and the pipeline writes it back). -/
def outAt3 (c : Dev nD) (n : ℕ) (hn : n < cfg3.N) : Vec F S128x128 .f32 :=
  k3_pay6 (acc3 V c n hn).2 (acc3 V c n hn).1

/-- The region invariant before position `n`: before the first point the class's (every scratch at anything); afterwards the scoped
    rest with the two carried arrays at what the point before left in them, and the generator register at some state. -/
def PhiS3 (c : Dev nD) : (n : ℕ) → n ≤ cfg3.N → sProp 𝕄
  | 0, _ => Pipeline.ΦA spec3 c
  | n + 1, hn => iprop(iprop(owns (c : Thread nD τ) (Memref.whole cc3_scratch0 : Memref sig .tc .vmem S128x128 .f32) fullShare (acc3 V c n hn).1
      ∗ owns (c : Thread nD τ) (Memref.whole cc3_scratch1 : Memref sig .tc .vmem S128x1 .f32) fullShare (acc3 V c n hn).2
      ∗ Pipeline.scopedRestBut (Ix := Unit) (Name := ℕ) (U := UR sig nD τ) (Lvl := ℕ) (Val := Elt F) spec3 c [cc3_scratch0, cc3_scratch1]) ∗ (∃ r, prngReg c r))

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outAt3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = outAt3 V c t.val t.isLt := by dsimp only [dat3]

/-! ## The carried arrays and the invariant, point by point -/

/-- The carried arrays after the first point. -/
theorem acc3_zero_1 (c : Dev nD) (t : Fin cfg3.N) (hz : t.val = 0) :
    (acc3 V c t.val t.isLt).1 = k3_pay4 (bblk3 V c t) (xblk3 V c t) (k3_pay1 (F := F)) := by
  obtain ⟨n, hn⟩ := t
  cases n with
  | zero => rfl
  | succ n => exact absurd hz (Nat.succ_ne_zero n)
theorem acc3_zero_2 (c : Dev nD) (t : Fin cfg3.N) (hz : t.val = 0) :
    (acc3 V c t.val t.isLt).2 = k3_pay5 (bblk3 V c t) (k3_pay2 (F := F)) := by
  obtain ⟨n, hn⟩ := t
  cases n with
  | zero => rfl
  | succ n => exact absurd hz (Nat.succ_ne_zero n)

/-- The carried arrays after a later point: the accumulation payloads over what the point before left. -/
theorem acc3_pos_1 (c : Dev nD) (t : Fin cfg3.N) (hz : t.val ≠ 0) :
    (acc3 V c t.val t.isLt).1 = k3_pay4 (bblk3 V c t) (xblk3 V c t) (acc3 V c (t.val - 1) (Nat.lt_of_le_of_lt (Nat.sub_le _ _) t.isLt)).1 := by
  obtain ⟨n, hn⟩ := t
  cases n with
  | zero => exact absurd rfl hz
  | succ n => rfl
theorem acc3_pos_2 (c : Dev nD) (t : Fin cfg3.N) (hz : t.val ≠ 0) :
    (acc3 V c t.val t.isLt).2 = k3_pay5 (bblk3 V c t) (acc3 V c (t.val - 1) (Nat.lt_of_le_of_lt (Nat.sub_le _ _) t.isLt)).2 := by
  obtain ⟨n, hn⟩ := t
  cases n with
  | zero => exact absurd rfl hz
  | succ n => rfl

/-- The output tile after a later point, over what the point before left in the carried arrays. -/
theorem outAt3_pos (c : Dev nD) (t : Fin cfg3.N) (hz : t.val ≠ 0) :
    outAt3 V c t.val t.isLt = k3_pay6 (k3_pay5 (bblk3 V c t) (acc3 V c (t.val - 1) (Nat.lt_of_le_of_lt (Nat.sub_le _ _) t.isLt)).2)
      (k3_pay4 (bblk3 V c t) (xblk3 V c t) (acc3 V c (t.val - 1) (Nat.lt_of_le_of_lt (Nat.sub_le _ _) t.isLt)).1) := by
  unfold outAt3; rw [acc3_pos_1 V c t hz, acc3_pos_2 V c t hz]

theorem PhiS3_zero (c : Dev nD) (n : ℕ) (h : n ≤ cfg3.N) (hz : n = 0) : PhiS3 V c n h = Pipeline.ΦA spec3 c := by
  subst hz; rfl

/-- After point `n`: the carried arrays at that point's contents. -/
theorem PhiS3_succ (c : Dev nD) (n : ℕ) (hn : n < cfg3.N) :
    PhiS3 V c (n + 1) hn = iprop(iprop(owns (c : Thread nD τ) scM3_0 fullShare (acc3 V c n hn).1
      ∗ owns (c : Thread nD τ) scM3_1 fullShare (acc3 V c n hn).2
      ∗ Pipeline.scopedRestBut (Ix := Unit) (Name := ℕ) (U := UR sig nD τ) (Lvl := ℕ) (Val := Elt F) spec3 c [cc3_scratch0, cc3_scratch1]) ∗ (∃ r, prngReg c r)) := rfl

/-- Before a point that is not the first: the carried arrays at what the point before left. -/
theorem PhiS3_pos (c : Dev nD) (n : ℕ) (h : n ≤ cfg3.N) (hz : n ≠ 0) :
    PhiS3 V c n h = iprop(iprop(owns (c : Thread nD τ) scM3_0 fullShare (acc3 V c (n - 1) (by omega)).1
      ∗ owns (c : Thread nD τ) scM3_1 fullShare (acc3 V c (n - 1) (by omega)).2
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves in the two input windows: their blocks. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the closed forms of the two conditions say which case the point is in;
    that case's run applies, the invariant handing it the carried arrays (at anything at the first point, at what the point before left
    afterwards) and taking them back at this point's contents; the output tile is handed back untouched where it is idle and holds the
    quotient payload at the last point; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h0 : t.val % 10 = 0
  · have hz : t.val = 0 := by omega
    have h1 : ¬t.val % 10 = 9 := by omega
    rw [Dat.leavesExact_idle (dat3 V c) 2 t (idleAt3_2 t (fun h => h1 ((hcond3_1 t).mp h))) (noFlush3_2 t (fun h => h1 ((hcond3_1 t).mp h)))]
    rw [PhiS3_castSucc V c t, PhiS3_zero V c _ _ hz, PhiA3_eq]
    iintro ⟨⟨⟨⟨HS0, HS1⟩, HR⟩, Hg⟩, Ho, ⟨%d0, H0⟩, ⟨%d1, H1⟩, ⟨%d2, H2⟩⟩
    iapply ((kernelRun3_A c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t)).2.2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0]
        · unfold owns; iexists _; isplitr
          swap; · iexact HS0
          ipureintro
          exact (View.read_writes_eq_canon _ _ _ (scover3_A_0 c _ _ _ _ _ _ _ _ _ _ _ _ _ _ _)).trans ((canon3_A_0 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t)).trans (acc3_zero_1 V c t hz).symm)
        isplitl [HS1]
        · unfold owns; iexists _; isplitr
          swap; · iexact HS1
          ipureintro
          exact (View.read_writes_eq_canon _ _ _ (scover3_A_1 c _ _ _ _ _ _ _ _ _ _ _ _ _ _ _)).trans ((canon3_A_1 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t)).trans (acc3_zero_2 V c t hz).symm)
        iexact HR
      iexact Hg
    isplitl [Ho]; · iexact Ho
    isplitl [H0]; · iexact H0
    isplitl [H1]; · iexact H1
    iexists _; iexact H2
  · have hz : t.val ≠ 0 := fun h => h0 (by rw [h])
    by_cases h1 : t.val % 10 = 9
    · rw [show (dat3 V c).leavesExact 2 t = owns (c : Thread nD τ) (ms3_2 t) fullShare ((dat3 V c).after 2 t) from by
        unfold Dat.leavesExact; rw [liveAt3_2 t ((hcond3_1 t).mpr h1)]]
      rw [PhiS3_castSucc V c t, PhiS3_pos V c _ _ hz]
      iintro ⟨⟨⟨HS0, HS1, HR⟩, Hg⟩, Ho, ⟨%d0, H0⟩, ⟨%d1, H1⟩, ⟨%d2, H2⟩⟩
      iapply ((kernelRun3_C c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (acc3 V c (t.val - 1) (Nat.lt_of_le_of_lt (Nat.sub_le _ _) t.isLt)).1 (acc3 V c (t.val - 1) (Nat.lt_of_le_of_lt (Nat.sub_le _ _) t.isLt)).2).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro
            exact (View.read_writes_eq_canon _ _ _ (scover3_C_0 c _ _ _ _ _ _ _ _ _ _ _ _ _ _ _ _ _)).trans ((canon3_C_0 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (acc3 V c (t.val - 1) (Nat.lt_of_le_of_lt (Nat.sub_le _ _) t.isLt)).1 (acc3 V c (t.val - 1) (Nat.lt_of_le_of_lt (Nat.sub_le _ _) t.isLt)).2).trans (acc3_pos_1 V c t hz).symm)
          isplitl [HS1]
          · unfold owns; iexists _; isplitr
            swap; · iexact HS1
            ipureintro
            exact (View.read_writes_eq_canon _ _ _ (scover3_C_1 c _ _ _ _ _ _ _ _ _ _ _ _ _ _ _ _ _)).trans ((canon3_C_1 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (acc3 V c (t.val - 1) (Nat.lt_of_le_of_lt (Nat.sub_le _ _) t.isLt)).1 (acc3 V c (t.val - 1) (Nat.lt_of_le_of_lt (Nat.sub_le _ _) t.isLt)).2).trans (acc3_pos_2 V c t hz).symm)
          iexact HR
        iexact Hg
      isplitl [Ho]; · iexact Ho
      isplitl [H0]; · iexact H0
      isplitl [H1]; · iexact H1
      unfold owns; iexists _; isplitr
      swap; · iexact H2
      ipureintro
      exact (View.read_writes_eq_canon _ _ _ (cover3_C_2 c _ _ _ _ _ _ _ _ _ _ _ _ _ _ _ _ _)).trans ((canon3_C_2 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (acc3 V c (t.val - 1) (Nat.lt_of_le_of_lt (Nat.sub_le _ _) t.isLt)).1 (acc3 V c (t.val - 1) (Nat.lt_of_le_of_lt (Nat.sub_le _ _) t.isLt)).2).trans ((after3_2 V c t).trans (outAt3_pos V c t hz)).symm)
    · rw [Dat.leavesExact_idle (dat3 V c) 2 t (idleAt3_2 t (fun h => h1 ((hcond3_1 t).mp h))) (noFlush3_2 t (fun h => h1 ((hcond3_1 t).mp h)))]
      rw [PhiS3_castSucc V c t, PhiS3_pos V c _ _ hz]
      iintro ⟨⟨⟨HS0, HS1, HR⟩, Hg⟩, Ho, ⟨%d0, H0⟩, ⟨%d1, H1⟩, ⟨%d2, H2⟩⟩
      iapply ((kernelRun3_B c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (acc3 V c (t.val - 1) (Nat.lt_of_le_of_lt (Nat.sub_le _ _) t.isLt)).1 (acc3 V c (t.val - 1) (Nat.lt_of_le_of_lt (Nat.sub_le _ _) t.isLt)).2).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro
            exact (View.read_writes_eq_canon _ _ _ (scover3_B_0 c _ _ _ _ _ _ _ _ _ _ _ _ _ _ _ _ _)).trans ((canon3_B_0 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (acc3 V c (t.val - 1) (Nat.lt_of_le_of_lt (Nat.sub_le _ _) t.isLt)).1 (acc3 V c (t.val - 1) (Nat.lt_of_le_of_lt (Nat.sub_le _ _) t.isLt)).2).trans (acc3_pos_1 V c t hz).symm)
          isplitl [HS1]
          · unfold owns; iexists _; isplitr
            swap; · iexact HS1
            ipureintro
            exact (View.read_writes_eq_canon _ _ _ (scover3_B_1 c _ _ _ _ _ _ _ _ _ _ _ _ _ _ _ _ _)).trans ((canon3_B_1 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (acc3 V c (t.val - 1) (Nat.lt_of_le_of_lt (Nat.sub_le _ _) t.isLt)).1 (acc3 V c (t.val - 1) (Nat.lt_of_le_of_lt (Nat.sub_le _ _) t.isLt)).2).trans (acc3_pos_2 V c t hz).symm)
          iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the carried arrays' named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, HS1, HR⟩, Hg⟩
  isplitl [HS0 HS1 HR]
  · isplitl [HS0 HS1]
    · isplitl [HS0]
      · iexists _; iexact HS0
      iexists _; iexact HS1
    iexact HR
  iexact Hg

/-- After the last point the invariant gives the class's back: the carried arrays' named contents are forgotten. -/
theorem hout3 (c : Dev nD) : (dat3 V c).Φ (Fin.last cfg3.N) ⊢ (Pipeline.ΦA spec3 c : sProp 𝕄) :=
  Phi_out3 V c _ (by rw [Fin.val_last]; have : cfg3.N = 10 := N_3; omega)

end
end Cert.Kernel.Fr

end
-- ==== Proof.K.Run.lean ====
/- The run of the whole program. The buffer contents at each boundary between a host stretch and a region, a fold from the launch
   memory (a stretch applies its operations; a region leaves its arrays at what its write-backs fold to and every other buffer as
   entered); each region as a segment over the thread state "every unscoped buffer at the boundary's contents, the generator register
   at some state, nothing owed"; the launch over the eight segments; and what every final memory holds: each argument as launched, the
   result array at what the last region's write-backs leave. -/
import proofs.«430098_j70454643523874_1_alg».proof.Proof.Gen.Kernel.Launch
import proofs.«430098_j70454643523874_1_alg».proof.Proof.Gen.Kernel.Skeleton
import proofs.«430098_j70454643523874_1_alg».proof.Proof.Gen.Kernel.Points
import proofs.«430098_j70454643523874_1_alg».proof.Proof.Gen.Kernel.Regions
import proofs.«430098_j70454643523874_1_alg».proof.Proof.K.Mlp0
import proofs.«430098_j70454643523874_1_alg».proof.Proof.K.Mlp1
import proofs.«430098_j70454643523874_1_alg».proof.Proof.K.Mlp2
import proofs.«430098_j70454643523874_1_alg».proof.Proof.K.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the host stretch before region 0 (region 0's entry). -/
abbrev W1 : Dev nD → Valuation τ sig (Elt F) := fun c => StableHlo.after hostOps0 (W0 m ρ c)
/-- The same read at the TensorCore's references: the contents region 0 is entered with. -/
abbrev V1 : (c : Dev nD) → (b : Ref sig .tc) → Buf (Elt F) ((c : Thread nD τ).loc b) := fun c b => W1 m ρ c b
/-- At region 0's exit: its arrays at what the pipeline leaves (the inputs as entered, each output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1 (region 1's entry). -/
abbrev W3 : Dev nD → Valuation τ sig (Elt F) := fun c => StableHlo.after hostOps1 (W2 m ρ c)
/-- The same read at the TensorCore's references: the contents region 1 is entered with. -/
abbrev V3 : (c : Dev nD) → (b : Ref sig .tc) → Buf (Elt F) ((c : Thread nD τ).loc b) := fun c b => W3 m ρ c b
/-- At region 1's exit: its arrays at what the pipeline leaves (the inputs as entered, each output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2 (region 2's entry). -/
abbrev W5 : Dev nD → Valuation τ sig (Elt F) := fun c => StableHlo.after hostOps2 (W4 m ρ c)
/-- The same read at the TensorCore's references: the contents region 2 is entered with. -/
abbrev V5 : (c : Dev nD) → (b : Ref sig .tc) → Buf (Elt F) ((c : Thread nD τ).loc b) := fun c b => W5 m ρ c b
/-- At region 2's exit: its arrays at what the pipeline leaves (the inputs as entered, each output's write-backs folded), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before region 3 (region 3's entry). -/
abbrev W7 : Dev nD → Valuation τ sig (Elt F) := fun c => StableHlo.after hostOps3 (W6 m ρ c)
/-- The same read at the TensorCore's references: the contents region 3 is entered with. -/
abbrev V7 : (c : Dev nD) → (b : Ref sig .tc) → Buf (Elt F) ((c : Thread nD τ).loc b) := fun c b => W7 m ρ c b
/-- At region 3's exit: its arrays at what the pipeline leaves (the inputs as entered, each output's write-backs folded), every
    other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ### The arguments end as launched: no host stretch writes one and no region writes one (a region reads it through an input
    window or bypasses it), so the fold at an argument's buffer walks back to the launch memory -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- The result array ends at what the last region's write-backs leave in its output window's array. -/
theorem W8_main_v62 (c : Dev nD) : W8 m ρ c (Proc.devRef .tc main_v62) = (dat3 (V7 m ρ) c).arrAt 2 cfg3.N :=
  W8_arr m ρ c 2

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at the stretch applied to `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some
    state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W1`, left at `W2`. Its arrays split out of the unscoped
    buffers and put back at the exit contents; the generator register into the class invariant and out; nothing owed; no semaphore
    of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays split out of the unscoped
    buffers and put back at the exit contents; the generator register into the class invariant and out; nothing owed; no semaphore
    of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays split out of the unscoped
    buffers and put back at the exit contents; the generator register into the class invariant and out; nothing owed; no semaphore
    of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8` beside the core owing nothing. Its arrays
    split out of the unscoped buffers and put back at the exit contents; the generator register and the scoped buffers into the
    region's invariant at its first point (the class's, by `hin3`) and out of it at its last (`hout3`); nothing owed; no semaphore of
    the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec3 c : sProp 𝕄) ⊢ (pdats m ρ 3 c).Φ 0 from hin3 (V7 m ρ) c)
    unfold Pipeline.ΦA
    iintro ⟨Hp, -, Hr⟩
    isplitl [Hr]; · iexact Hr
    iexact Hp
  hout c := by
    rw [Pipeline.ownSems0_none]
    refine .trans (show (pdats m ρ 3 c).Φ (Fin.last _) ⊢ (Pipeline.ΦA spec3 c : sProp 𝕄) from hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 8 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

set_option backward.isDefEq.respectTransparency.types false in
/-- THE RUN. At the compiled mesh, from any memory with zero counters, every weakly fair execution of the program on the TensorCores
    terminates, nothing faulting, and every final memory holds, on every core, each unscoped buffer at the last boundary's contents
    `W8`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: every final memory has the argument arrays as launched, each read off the last boundary's contents and walked back
    through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c)⟩) (run_all m ρ)

/-- THE RUN'S VALUE: every final memory has the result array at what the last region's write-backs leave, and the argument arrays
    as launched. -/
theorem run_value : θ_run defs (onTc (τ := τ) (main (F := F))) ⟨m, fun _ => 0, ρ⟩ (fun r => ∀ c : Dev nD,
      r.2.mem ((c.tc : Thread nD τ).loc main_v62) = (dat3 (V7 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v62 (by decide))).trans (W8_main_v62 m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c)⟩) (run_all m ρ)

end Cert.Kernel.Fr

end
-- ==== Proof.KI.Mlp0.lean ====
/- Region 0 of the layer pipeline (the dense two-matmul update of one 5000-row tile), at the contents `V` the region is entered with:
   what each window's block is, what the body leaves in the output tile, the proof data and the body obligation. -/
import proofs.«430098_j70454643523874_1_alg».proof.Proof.Gen.KernelIdeal.Launch
import proofs.«430098_j70454643523874_1_alg».proof.Proof.Gen.KernelIdeal.Skeleton
import proofs.«430098_j70454643523874_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole output tile as a rectangle: zero offsets, the tile's own sizes. -/
abbrev r0_0 : Rect S5000x128 := Rect.unit (s := S5000x128) ![0, 0] S5000x128.size inb_S5000x128_S5000x128_0_0

theorem hz0_2 : (![0, 0] : Fin 2 → Nat) = fun _ => 0 := funext fun a => by fin_cases a <;> rfl
theorem hz0_1 : (![0] : Fin 1 → Nat) = fun _ => 0 := funext fun a => by fin_cases a <;> rfl

/-- The output tile after the body: the layer's payload of the six input blocks. -/
def out0_6 (x0 x1 : Vec F S5000x128 .f32) (x2 : Vec F S128x128 .f32) (x3 : Vec F S128 .f32) (x4 : Vec F S128x128 .f32) (x5 : Vec F S128 .f32) : Vec F S5000x128 .f32 :=
  k0_pay1 x0 x1 x2 x3 x4 x5

/-- The one store of the body tiles the output tile, so it covers it. -/
theorem cover0_6 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
/-- The kernel body on whole staging memrefs, the inputs' at read contents `xW` and the output's at anything, runs to
    the continuation holding the inputs' as they were and the output's at `out0_6` of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (cover0_6 _), View.canon_unit_zero hz0_2]
  unfold out0_6
  simp only [View.readAt_eq_ld, View.ld_unit_zero (S := S5000x128) hz0_2, View.ld_unit_zero (S := S128x128) hz0_2,
    View.ld_unit_zero (S := S128) hz0_1]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end
end Cert.KernelIdeal.Fr

end
-- ==== Proof.KI.Mlp1.lean ====
/- Region 1 of the layer pipeline (the dense two-matmul update of one 5000-row tile), at the contents `V` the region is entered with:
   what each window's block is, what the body leaves in the output tile, the proof data and the body obligation. -/
import proofs.«430098_j70454643523874_1_alg».proof.Proof.Gen.KernelIdeal.Launch
import proofs.«430098_j70454643523874_1_alg».proof.Proof.Gen.KernelIdeal.Skeleton
import proofs.«430098_j70454643523874_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole output tile as a rectangle: zero offsets, the tile's own sizes. -/
abbrev r1_0 : Rect S5000x128 := Rect.unit (s := S5000x128) ![0, 0] S5000x128.size inb_S5000x128_S5000x128_0_0

theorem hz1_2 : (![0, 0] : Fin 2 → Nat) = fun _ => 0 := funext fun a => by fin_cases a <;> rfl
theorem hz1_1 : (![0] : Fin 1 → Nat) = fun _ => 0 := funext fun a => by fin_cases a <;> rfl

/-- The output tile after the body: the layer's payload of the six input blocks. -/
def out1_6 (x0 x1 : Vec F S5000x128 .f32) (x2 : Vec F S128x128 .f32) (x3 : Vec F S128 .f32) (x4 : Vec F S128x128 .f32) (x5 : Vec F S128 .f32) : Vec F S5000x128 .f32 :=
  k1_pay1 x0 x1 x2 x3 x4 x5

/-- The one store of the body tiles the output tile, so it covers it. -/
theorem cover1_6 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in
/-- The kernel body on whole staging memrefs, the inputs' at read contents `xW` and the output's at anything, runs to
    the continuation holding the inputs' as they were and the output's at `out1_6` of the inputs'. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__mlp_kernel i arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (cover1_6 _), View.canon_unit_zero hz1_2]
  unfold out1_6
  simp only [View.readAt_eq_ld, View.ld_unit_zero (S := S5000x128) hz1_2, View.ld_unit_zero (S := S128x128) hz1_2,
    View.ld_unit_zero (S := S128) hz1_1]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end
end Cert.KernelIdeal.Fr

end
-- ==== Proof.KI.Mlp2.lean ====
/- Region 2 of the layer pipeline (the dense two-matmul update of one 5000-row tile), at the contents `V` the region is entered with:
   what each window's block is, what the body leaves in the output tile, the proof data and the body obligation. -/
import proofs.«430098_j70454643523874_1_alg».proof.Proof.Gen.KernelIdeal.Launch
import proofs.«430098_j70454643523874_1_alg».proof.Proof.Gen.KernelIdeal.Skeleton
import proofs.«430098_j70454643523874_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole output tile as a rectangle: zero offsets, the tile's own sizes. -/
abbrev r2_0 : Rect S5000x128 := Rect.unit (s := S5000x128) ![0, 0] S5000x128.size inb_S5000x128_S5000x128_0_0

theorem hz2_2 : (![0, 0] : Fin 2 → Nat) = fun _ => 0 := funext fun a => by fin_cases a <;> rfl
theorem hz2_1 : (![0] : Fin 1 → Nat) = fun _ => 0 := funext fun a => by fin_cases a <;> rfl

/-- The output tile after the body: the layer's payload of the six input blocks. -/
def out2_6 (x0 x1 : Vec F S5000x128 .f32) (x2 : Vec F S128x128 .f32) (x3 : Vec F S128 .f32) (x4 : Vec F S128x128 .f32) (x5 : Vec F S128 .f32) : Vec F S5000x128 .f32 :=
  k2_pay1 x0 x1 x2 x3 x4 x5

/-- The one store of the body tiles the output tile, so it covers it. -/
theorem cover2_6 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 1000000 in
/-- The kernel body on whole staging memrefs, the inputs' at read contents `xW` and the output's at anything, runs to
    the continuation holding the inputs' as they were and the output's at `out2_6` of the inputs'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__mlp_kernel i arg1 harg1 arg2 harg2 arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (cover2_6 _), View.canon_unit_zero hz2_2]
  unfold out2_6
  simp only [View.readAt_eq_ld, View.ld_unit_zero (S := S5000x128) hz2_2, View.ld_unit_zero (S := S128x128) hz2_2,
    View.ld_unit_zero (S := S128) hz2_1]

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the kernel's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end
end Cert.KernelIdeal.Fr

end
-- ==== Proof.KI.PoolRuns.lean ====
/- Region 3, the pooling pipeline: what the runs of its body share — the two branch conditions of the body in closed form over the
   grid, where the output window is idle and where it is written back, the staging and carried memrefs, and the class's invariant
   with the two carried arrays split off. -/
import proofs.«430098_j70454643523874_1_alg».proof.Proof.Gen.KernelIdeal.Launch
import proofs.«430098_j70454643523874_1_alg».proof.Proof.Gen.KernelIdeal.Skeleton
import proofs.«430098_j70454643523874_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's first conditional (the reset of the carried arrays), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 10 = 0 :=
  (by decide +kernel : ∀ t : Fin grid3.N, cond3_0 (grid3.coords t) ↔ t.val % 10 = 0)

/-- The condition of the body's second conditional (the store of the quotient), from the grid coordinates. -/
abbrev cond3_1 (i : grid3.Coords) : Prop := k3_cond2 i = 1#1
/-- It holds at the last point only. -/
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

/-- The two input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- Where the quotient is not stored the output window is idle and is not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- Where it is stored the window is live. -/
theorem liveAt3_2 : ∀ t : Fin cfg3.N, cond3_1 (grid3.coords t) → cfg3.idle 2 (grid3.coords t) = false := by decide +kernel

/-! ## The memrefs the body is called with -/

/-- Each window's current staging memref at point `t`, and its wholeness. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x128 .f32 := win3_2.stage (cfg3.slots t 2)
abbrev hs3_2 (t : Fin cfg3.N) : (ms3_2 t).IsWhole := hstage3_2 ((cfg3.slots t 2).cast nbuf3_2)
/-- The two carried arrays: whole scoped buffers of the kernel's own. -/
abbrev scM3_0 : Memref sig .tc .vmem S128x128 .f32 := Memref.whole cc3_scratch0
abbrev scM3_1 : Memref sig .tc .vmem S128x1 .f32 := Memref.whole cc3_scratch1
/-- Views through which the contents of the output tile and of the carried arrays are stated. -/
abbrev VO3_2 : View sig .tc .vmem S128x128 .f32 := (Memref.whole cc3_scratch0 : Memref sig .tc .vmem S128x128 .f32).view
abbrev VS3_0 : View sig .tc .vmem S128x128 .f32 := scM3_0.view
abbrev VS3_1 : View sig .tc .vmem S128x1 .f32 := scM3_1.view

/-- The class's invariant with the two carried arrays as memrefs owned at some contents, the other scoped buffers unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.KernelIdeal.Fr

end
-- ==== Proof.KI.PoolRun.lean ====
/- Region 3, the pooling pipeline: the run of its body in each of its three control cases (the first point, a middle point, the last
   point), each with the pieces its stores leave in the output tile and in the two carried arrays. -/
import proofs.«430098_j70454643523874_1_alg».proof.Proof.KI.PoolRuns

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at the first point (reset, no store of the quotient): on whole memrefs — the two input tiles at their contents, the
    output tile at contents handed back untouched, the two carried arrays at anything — it runs to the continuation holding the inputs
    and the output tile as they were and each carried array with its pieces written. -/
noncomputable def kernelRun3_A (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : cond3_0 i) (hc1 : ¬cond3_1 i)
    (x0 : Vec F S5000x128 .f32) (x1 : Vec F S5000x1 .i32) :
    Σ' (L2 : List (View.Piece (Elt F) S128x128 .f32)) (LS0 : List (View.Piece (Elt F) S128x128 .f32)), { LS1 : List (View.Piece (Elt F) S128x1 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc3__pool_kernel i arg1 harg1 arg2 harg2 arg3 harg3 arg4 harg4 arg5 harg5) K } := by
  refine ⟨[], ?_, ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The body's run at a middle point (no reset, no store of the quotient): on whole memrefs — the two input tiles at their contents, the
    output tile at contents handed back untouched, the two carried arrays at what the point before left — it runs to the continuation
    holding the inputs and the output tile as they were and each carried array with its pieces written. -/
noncomputable def kernelRun3_B (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : ¬cond3_1 i)
    (x0 : Vec F S5000x128 .f32) (x1 : Vec F S5000x1 .i32) (xs0 : Vec F S128x128 .f32) (xs1 : Vec F S128x1 .f32) :
    Σ' (L2 : List (View.Piece (Elt F) S128x128 .f32)) (LS0 : List (View.Piece (Elt F) S128x128 .f32)), { LS1 : List (View.Piece (Elt F) S128x1 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc3__pool_kernel i arg1 harg1 arg2 harg2 arg3 harg3 arg4 harg4 arg5 harg5) K } := by
  refine ⟨[], ?_, ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The body's run at the last point (no reset, the quotient stored): on whole memrefs — the two input tiles at their contents, the
    output tile at anything, the two carried arrays at what the point before left — it runs to the continuation holding the inputs as
    they were and the output tile and each carried array with its pieces written. -/
noncomputable def kernelRun3_C (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : cond3_1 i)
    (x0 : Vec F S5000x128 .f32) (x1 : Vec F S5000x1 .i32) (xs0 : Vec F S128x128 .f32) (xs1 : Vec F S128x1 .f32) :
    Σ' (L2 : List (View.Piece (Elt F) S128x128 .f32)) (LS0 : List (View.Piece (Elt F) S128x128 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc3__pool_kernel i arg1 harg1 arg2 harg2 arg3 harg3 arg4 harg4 arg5 harg5) K } := by
  refine ⟨?_, ?_, ?_, fun E K => ?run⟩
  case run =>
    simp only [cc3__pool_kernel_eq_skeleton]; unfold cc3__pool_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.KernelIdeal.Fr

end
-- ==== Proof.KI.Pool.lean ====
/- Region 3, the pooling pipeline (a one-hot matmul accumulated over the ten row tiles into two carried scratch arrays, divided at the
   last tile), at the contents `V` the region is entered with: the blocks, what the output tile and the two carried arrays hold after
   each point, the proof data, the body obligation, and the invariant's two ends. -/
import proofs.«430098_j70454643523874_1_alg».proof.Proof.KI.PoolRun
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The pieces each case leaves cover the arrays they are stored into -/

theorem scover3_A_0 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : cond3_0 i) (hc1 : ¬cond3_1 i)
    (x0 : Vec F S5000x128 .f32) (x1 : Vec F S5000x1 .i32) (y : S128x128.Idx) :
    ∃ pc ∈ (kernelRun3_A c i arg1 harg1 arg2 harg2 arg3 harg3 arg4 harg4 arg5 harg5 hc0 hc1 x0 x1).2.1, y ∈ pc.1.set :=
  View.cover_of_tiledL (kernelRun3_A c i arg1 harg1 arg2 harg2 arg3 harg3 arg4 harg4 arg5 harg5 hc0 hc1 x0 x1).2.1 S128x128.size (by sl_kernel_rfl) y

theorem scover3_A_1 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : cond3_0 i) (hc1 : ¬cond3_1 i)
    (x0 : Vec F S5000x128 .f32) (x1 : Vec F S5000x1 .i32) (y : S128x1.Idx) :
    ∃ pc ∈ (kernelRun3_A c i arg1 harg1 arg2 harg2 arg3 harg3 arg4 harg4 arg5 harg5 hc0 hc1 x0 x1).2.2.1, y ∈ pc.1.set :=
  View.cover_of_tiledL (kernelRun3_A c i arg1 harg1 arg2 harg2 arg3 harg3 arg4 harg4 arg5 harg5 hc0 hc1 x0 x1).2.2.1 S128x1.size (by sl_kernel_rfl) y

theorem scover3_B_0 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : ¬cond3_1 i)
    (x0 : Vec F S5000x128 .f32) (x1 : Vec F S5000x1 .i32) (xs0 : Vec F S128x128 .f32) (xs1 : Vec F S128x1 .f32) (y : S128x128.Idx) :
    ∃ pc ∈ (kernelRun3_B c i arg1 harg1 arg2 harg2 arg3 harg3 arg4 harg4 arg5 harg5 hc0 hc1 x0 x1 xs0 xs1).2.1, y ∈ pc.1.set :=
  View.cover_of_tiledL (kernelRun3_B c i arg1 harg1 arg2 harg2 arg3 harg3 arg4 harg4 arg5 harg5 hc0 hc1 x0 x1 xs0 xs1).2.1 S128x128.size (by sl_kernel_rfl) y

theorem scover3_B_1 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : ¬cond3_1 i)
    (x0 : Vec F S5000x128 .f32) (x1 : Vec F S5000x1 .i32) (xs0 : Vec F S128x128 .f32) (xs1 : Vec F S128x1 .f32) (y : S128x1.Idx) :
    ∃ pc ∈ (kernelRun3_B c i arg1 harg1 arg2 harg2 arg3 harg3 arg4 harg4 arg5 harg5 hc0 hc1 x0 x1 xs0 xs1).2.2.1, y ∈ pc.1.set :=
  View.cover_of_tiledL (kernelRun3_B c i arg1 harg1 arg2 harg2 arg3 harg3 arg4 harg4 arg5 harg5 hc0 hc1 x0 x1 xs0 xs1).2.2.1 S128x1.size (by sl_kernel_rfl) y

theorem scover3_C_0 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : cond3_1 i)
    (x0 : Vec F S5000x128 .f32) (x1 : Vec F S5000x1 .i32) (xs0 : Vec F S128x128 .f32) (xs1 : Vec F S128x1 .f32) (y : S128x128.Idx) :
    ∃ pc ∈ (kernelRun3_C c i arg1 harg1 arg2 harg2 arg3 harg3 arg4 harg4 arg5 harg5 hc0 hc1 x0 x1 xs0 xs1).2.1, y ∈ pc.1.set :=
  View.cover_of_tiledL (kernelRun3_C c i arg1 harg1 arg2 harg2 arg3 harg3 arg4 harg4 arg5 harg5 hc0 hc1 x0 x1 xs0 xs1).2.1 S128x128.size (by sl_kernel_rfl) y

theorem scover3_C_1 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : cond3_1 i)
    (x0 : Vec F S5000x128 .f32) (x1 : Vec F S5000x1 .i32) (xs0 : Vec F S128x128 .f32) (xs1 : Vec F S128x1 .f32) (y : S128x1.Idx) :
    ∃ pc ∈ (kernelRun3_C c i arg1 harg1 arg2 harg2 arg3 harg3 arg4 harg4 arg5 harg5 hc0 hc1 x0 x1 xs0 xs1).2.2.1, y ∈ pc.1.set :=
  View.cover_of_tiledL (kernelRun3_C c i arg1 harg1 arg2 harg2 arg3 harg3 arg4 harg4 arg5 harg5 hc0 hc1 x0 x1 xs0 xs1).2.2.1 S128x1.size (by sl_kernel_rfl) y

theorem cover3_C_2 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : cond3_1 i)
    (x0 : Vec F S5000x128 .f32) (x1 : Vec F S5000x1 .i32) (xs0 : Vec F S128x128 .f32) (xs1 : Vec F S128x1 .f32) (y : S128x128.Idx) :
    ∃ pc ∈ (kernelRun3_C c i arg1 harg1 arg2 harg2 arg3 harg3 arg4 harg4 arg5 harg5 hc0 hc1 x0 x1 xs0 xs1).1, y ∈ pc.1.set :=
  View.cover_of_tiledL (kernelRun3_C c i arg1 harg1 arg2 harg2 arg3 harg3 arg4 harg4 arg5 harg5 hc0 hc1 x0 x1 xs0 xs1).1 S128x128.size (by sl_kernel_rfl) y

/-! ## What the pieces are: the named payloads of the blocks and of what the carried arrays held -/

theorem hz2 : (![0, 0] : Fin 2 → Nat) = fun _ => 0 := funext fun a => by fin_cases a <;> rfl

/-- At the first point the carried arrays end at the accumulation payloads over the zero arrays the reset stored. -/
theorem canon3_A_0 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : cond3_0 i) (hc1 : ¬cond3_1 i)
    (x0 : Vec F S5000x128 .f32) (x1 : Vec F S5000x1 .i32) :
    View.canon (kernelRun3_A c i arg1 harg1 arg2 harg2 arg3 harg3 arg4 harg4 arg5 harg5 hc0 hc1 x0 x1).2.1 = k3_pay4 x1 x0 (k3_pay1 (F := F)) := by
  unfold kernelRun3_A
  dsimp only
  sl_unfold_words
  rw [View.canon_cons_unit_zero (S := S128x128) hz2]
  simp only [View.readCov_unit_zero (S := S128x128) _ hz2, View.readCov_unit_zero (S := S128x1) _ hz2, View.readAt_eq_ld, harg1.read_unread, harg2.read_unread, harg4.read_unread, harg5.read_unread, View.ld_unit_zero (S := S5000x128) hz2, View.ld_unit_zero (S := S5000x1) hz2, View.ld_unit_zero (S := S128x128) hz2, View.ld_unit_zero (S := S128x1) hz2]

theorem canon3_A_1 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : cond3_0 i) (hc1 : ¬cond3_1 i)
    (x0 : Vec F S5000x128 .f32) (x1 : Vec F S5000x1 .i32) :
    View.canon (kernelRun3_A c i arg1 harg1 arg2 harg2 arg3 harg3 arg4 harg4 arg5 harg5 hc0 hc1 x0 x1).2.2.1 = k3_pay5 x1 (k3_pay2 (F := F)) := by
  unfold kernelRun3_A
  dsimp only
  sl_unfold_words
  rw [View.canon_cons_unit_zero (S := S128x1) hz2]
  simp only [View.readCov_unit_zero (S := S128x128) _ hz2, View.readCov_unit_zero (S := S128x1) _ hz2, View.readAt_eq_ld, harg1.read_unread, harg2.read_unread, harg4.read_unread, harg5.read_unread, View.ld_unit_zero (S := S5000x128) hz2, View.ld_unit_zero (S := S5000x1) hz2, View.ld_unit_zero (S := S128x128) hz2, View.ld_unit_zero (S := S128x1) hz2]

/-- At a middle point they end at the accumulation payloads over what they held. -/
theorem canon3_B_0 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : ¬cond3_1 i)
    (x0 : Vec F S5000x128 .f32) (x1 : Vec F S5000x1 .i32) (xs0 : Vec F S128x128 .f32) (xs1 : Vec F S128x1 .f32) :
    View.canon (kernelRun3_B c i arg1 harg1 arg2 harg2 arg3 harg3 arg4 harg4 arg5 harg5 hc0 hc1 x0 x1 xs0 xs1).2.1 = k3_pay4 x1 x0 xs0 := by
  unfold kernelRun3_B
  dsimp only
  sl_unfold_words
  rw [View.canon_unit_zero hz2]
  simp only [View.readAt_eq_ld, harg1.read_unread, harg2.read_unread, harg4.read_unread, harg5.read_unread, View.ld_unit_zero (S := S5000x128) hz2, View.ld_unit_zero (S := S5000x1) hz2, View.ld_unit_zero (S := S128x128) hz2, View.ld_unit_zero (S := S128x1) hz2]

theorem canon3_B_1 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : ¬cond3_1 i)
    (x0 : Vec F S5000x128 .f32) (x1 : Vec F S5000x1 .i32) (xs0 : Vec F S128x128 .f32) (xs1 : Vec F S128x1 .f32) :
    View.canon (kernelRun3_B c i arg1 harg1 arg2 harg2 arg3 harg3 arg4 harg4 arg5 harg5 hc0 hc1 x0 x1 xs0 xs1).2.2.1 = k3_pay5 x1 xs1 := by
  unfold kernelRun3_B
  dsimp only
  sl_unfold_words
  rw [View.canon_unit_zero hz2]
  simp only [View.readAt_eq_ld, harg1.read_unread, harg2.read_unread, harg4.read_unread, harg5.read_unread, View.ld_unit_zero (S := S5000x128) hz2, View.ld_unit_zero (S := S5000x1) hz2, View.ld_unit_zero (S := S128x128) hz2, View.ld_unit_zero (S := S128x1) hz2]

/-- At the last point likewise, and the output tile ends at the quotient payload of the two. -/
theorem canon3_C_0 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : cond3_1 i)
    (x0 : Vec F S5000x128 .f32) (x1 : Vec F S5000x1 .i32) (xs0 : Vec F S128x128 .f32) (xs1 : Vec F S128x1 .f32) :
    View.canon (kernelRun3_C c i arg1 harg1 arg2 harg2 arg3 harg3 arg4 harg4 arg5 harg5 hc0 hc1 x0 x1 xs0 xs1).2.1 = k3_pay4 x1 x0 xs0 := by
  unfold kernelRun3_C
  dsimp only
  sl_unfold_words
  rw [View.canon_unit_zero hz2]
  simp only [View.readAt_eq_ld, harg1.read_unread, harg2.read_unread, harg4.read_unread, harg5.read_unread, View.ld_unit_zero (S := S5000x128) hz2, View.ld_unit_zero (S := S5000x1) hz2, View.ld_unit_zero (S := S128x128) hz2, View.ld_unit_zero (S := S128x1) hz2]

theorem canon3_C_1 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : cond3_1 i)
    (x0 : Vec F S5000x128 .f32) (x1 : Vec F S5000x1 .i32) (xs0 : Vec F S128x128 .f32) (xs1 : Vec F S128x1 .f32) :
    View.canon (kernelRun3_C c i arg1 harg1 arg2 harg2 arg3 harg3 arg4 harg4 arg5 harg5 hc0 hc1 x0 x1 xs0 xs1).2.2.1 = k3_pay5 x1 xs1 := by
  unfold kernelRun3_C
  dsimp only
  sl_unfold_words
  rw [View.canon_unit_zero hz2]
  simp only [View.readAt_eq_ld, harg1.read_unread, harg2.read_unread, harg4.read_unread, harg5.read_unread, View.ld_unit_zero (S := S5000x128) hz2, View.ld_unit_zero (S := S5000x1) hz2, View.ld_unit_zero (S := S128x128) hz2, View.ld_unit_zero (S := S128x1) hz2]

theorem canon3_C_2 (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (hc0 : ¬cond3_0 i) (hc1 : cond3_1 i)
    (x0 : Vec F S5000x128 .f32) (x1 : Vec F S5000x1 .i32) (xs0 : Vec F S128x128 .f32) (xs1 : Vec F S128x1 .f32) :
    View.canon (kernelRun3_C c i arg1 harg1 arg2 harg2 arg3 harg3 arg4 harg4 arg5 harg5 hc0 hc1 x0 x1 xs0 xs1).1 = k3_pay6 (k3_pay5 x1 xs1) (k3_pay4 x1 x0 xs0) := by
  unfold kernelRun3_C
  dsimp only
  sl_unfold_words
  rw [View.canon_unit_zero hz2]
  simp only [View.readCov_unit_zero (S := S128x128) _ hz2, View.readCov_unit_zero (S := S128x1) _ hz2, View.readAt_eq_ld, harg1.read_unread, harg2.read_unread, harg4.read_unread, harg5.read_unread, View.ld_unit_zero (S := S5000x128) hz2, View.ld_unit_zero (S := S5000x1) hz2, View.ld_unit_zero (S := S128x128) hz2, View.ld_unit_zero (S := S128x1) hz2]

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row tile of the features and of the graph ids at point `n`, at their literal types. -/
abbrev xblk3 (c : Dev nD) (t : Fin cfg3.N) : Vec F S5000x128 .f32 := iblk3 V c 0 t
abbrev bblk3 (c : Dev nD) (t : Fin cfg3.N) : Vec F S5000x1 .i32 := iblk3 V c 1 t

/-- The carried sums and counts after point `n`: the accumulation payloads folded over the tiles from the zero arrays. -/
def acc3 (c : Dev nD) : (n : ℕ) → n < cfg3.N → Vec F S128x128 .f32 × Vec F S128x1 .f32
  | 0, hn => (k3_pay4 (bblk3 V c ⟨0, hn⟩) (xblk3 V c ⟨0, hn⟩) (k3_pay1 (F := F)), k3_pay5 (bblk3 V c ⟨0, hn⟩) (k3_pay2 (F := F)))
  | n + 1, hn => (k3_pay4 (bblk3 V c ⟨n + 1, hn⟩) (xblk3 V c ⟨n + 1, hn⟩) (acc3 c n (Nat.lt_of_succ_lt hn)).1,
      k3_pay5 (bblk3 V c ⟨n + 1, hn⟩) (acc3 c n (Nat.lt_of_succ_lt hn)).2)

/-- What the output tile holds after point `n`: the quotient payload of the carried arrays (consulted at the last point only,
    the one point where the body stores it and the pipeline writes it back). -/
def outAt3 (c : Dev nD) (n : ℕ) (hn : n < cfg3.N) : Vec F S128x128 .f32 :=
  k3_pay6 (acc3 V c n hn).2 (acc3 V c n hn).1

/-- The region invariant before position `n`: before the first point the class's (every scratch at anything); afterwards the scoped
    rest with the two carried arrays at what the point before left in them, and the generator register at some state. -/
def PhiS3 (c : Dev nD) : (n : ℕ) → n ≤ cfg3.N → sProp 𝕄
  | 0, _ => Pipeline.ΦA spec3 c
  | n + 1, hn => iprop(iprop(owns (c : Thread nD τ) (Memref.whole cc3_scratch0 : Memref sig .tc .vmem S128x128 .f32) fullShare (acc3 V c n hn).1
      ∗ owns (c : Thread nD τ) (Memref.whole cc3_scratch1 : Memref sig .tc .vmem S128x1 .f32) fullShare (acc3 V c n hn).2
      ∗ Pipeline.scopedRestBut (Ix := Unit) (Name := ℕ) (U := UR sig nD τ) (Lvl := ℕ) (Val := Elt F) spec3 c [cc3_scratch0, cc3_scratch1]) ∗ (∃ r, prngReg c r))

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outAt3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = outAt3 V c t.val t.isLt := by dsimp only [dat3]

/-! ## The carried arrays and the invariant, point by point -/

/-- The carried arrays after the first point. -/
theorem acc3_zero_1 (c : Dev nD) (t : Fin cfg3.N) (hz : t.val = 0) :
    (acc3 V c t.val t.isLt).1 = k3_pay4 (bblk3 V c t) (xblk3 V c t) (k3_pay1 (F := F)) := by
  obtain ⟨n, hn⟩ := t
  cases n with
  | zero => rfl
  | succ n => exact absurd hz (Nat.succ_ne_zero n)
theorem acc3_zero_2 (c : Dev nD) (t : Fin cfg3.N) (hz : t.val = 0) :
    (acc3 V c t.val t.isLt).2 = k3_pay5 (bblk3 V c t) (k3_pay2 (F := F)) := by
  obtain ⟨n, hn⟩ := t
  cases n with
  | zero => rfl
  | succ n => exact absurd hz (Nat.succ_ne_zero n)

/-- The carried arrays after a later point: the accumulation payloads over what the point before left. -/
theorem acc3_pos_1 (c : Dev nD) (t : Fin cfg3.N) (hz : t.val ≠ 0) :
    (acc3 V c t.val t.isLt).1 = k3_pay4 (bblk3 V c t) (xblk3 V c t) (acc3 V c (t.val - 1) (Nat.lt_of_le_of_lt (Nat.sub_le _ _) t.isLt)).1 := by
  obtain ⟨n, hn⟩ := t
  cases n with
  | zero => exact absurd rfl hz
  | succ n => rfl
theorem acc3_pos_2 (c : Dev nD) (t : Fin cfg3.N) (hz : t.val ≠ 0) :
    (acc3 V c t.val t.isLt).2 = k3_pay5 (bblk3 V c t) (acc3 V c (t.val - 1) (Nat.lt_of_le_of_lt (Nat.sub_le _ _) t.isLt)).2 := by
  obtain ⟨n, hn⟩ := t
  cases n with
  | zero => exact absurd rfl hz
  | succ n => rfl

/-- The output tile after a later point, over what the point before left in the carried arrays. -/
theorem outAt3_pos (c : Dev nD) (t : Fin cfg3.N) (hz : t.val ≠ 0) :
    outAt3 V c t.val t.isLt = k3_pay6 (k3_pay5 (bblk3 V c t) (acc3 V c (t.val - 1) (Nat.lt_of_le_of_lt (Nat.sub_le _ _) t.isLt)).2)
      (k3_pay4 (bblk3 V c t) (xblk3 V c t) (acc3 V c (t.val - 1) (Nat.lt_of_le_of_lt (Nat.sub_le _ _) t.isLt)).1) := by
  unfold outAt3; rw [acc3_pos_1 V c t hz, acc3_pos_2 V c t hz]

theorem PhiS3_zero (c : Dev nD) (n : ℕ) (h : n ≤ cfg3.N) (hz : n = 0) : PhiS3 V c n h = Pipeline.ΦA spec3 c := by
  subst hz; rfl

/-- After point `n`: the carried arrays at that point's contents. -/
theorem PhiS3_succ (c : Dev nD) (n : ℕ) (hn : n < cfg3.N) :
    PhiS3 V c (n + 1) hn = iprop(iprop(owns (c : Thread nD τ) scM3_0 fullShare (acc3 V c n hn).1
      ∗ owns (c : Thread nD τ) scM3_1 fullShare (acc3 V c n hn).2
      ∗ Pipeline.scopedRestBut (Ix := Unit) (Name := ℕ) (U := UR sig nD τ) (Lvl := ℕ) (Val := Elt F) spec3 c [cc3_scratch0, cc3_scratch1]) ∗ (∃ r, prngReg c r)) := rfl

/-- Before a point that is not the first: the carried arrays at what the point before left. -/
theorem PhiS3_pos (c : Dev nD) (n : ℕ) (h : n ≤ cfg3.N) (hz : n ≠ 0) :
    PhiS3 V c n h = iprop(iprop(owns (c : Thread nD τ) scM3_0 fullShare (acc3 V c (n - 1) (by omega)).1
      ∗ owns (c : Thread nD τ) scM3_1 fullShare (acc3 V c (n - 1) (by omega)).2
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves in the two input windows: their blocks. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the closed forms of the two conditions say which case the point is in;
    that case's run applies, the invariant handing it the carried arrays (at anything at the first point, at what the point before left
    afterwards) and taking them back at this point's contents; the output tile is handed back untouched where it is idle and holds the
    quotient payload at the last point; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h0 : t.val % 10 = 0
  · have hz : t.val = 0 := by omega
    have h1 : ¬t.val % 10 = 9 := by omega
    rw [Dat.leavesExact_idle (dat3 V c) 2 t (idleAt3_2 t (fun h => h1 ((hcond3_1 t).mp h))) (noFlush3_2 t (fun h => h1 ((hcond3_1 t).mp h)))]
    rw [PhiS3_castSucc V c t, PhiS3_zero V c _ _ hz, PhiA3_eq]
    iintro ⟨⟨⟨⟨HS0, HS1⟩, HR⟩, Hg⟩, Ho, ⟨%d0, H0⟩, ⟨%d1, H1⟩, ⟨%d2, H2⟩⟩
    iapply ((kernelRun3_A c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t)).2.2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0]
        · unfold owns; iexists _; isplitr
          swap; · iexact HS0
          ipureintro
          exact (View.read_writes_eq_canon _ _ _ (scover3_A_0 c _ _ _ _ _ _ _ _ _ _ _ _ _ _ _)).trans ((canon3_A_0 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t)).trans (acc3_zero_1 V c t hz).symm)
        isplitl [HS1]
        · unfold owns; iexists _; isplitr
          swap; · iexact HS1
          ipureintro
          exact (View.read_writes_eq_canon _ _ _ (scover3_A_1 c _ _ _ _ _ _ _ _ _ _ _ _ _ _ _)).trans ((canon3_A_1 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t)).trans (acc3_zero_2 V c t hz).symm)
        iexact HR
      iexact Hg
    isplitl [Ho]; · iexact Ho
    isplitl [H0]; · iexact H0
    isplitl [H1]; · iexact H1
    iexists _; iexact H2
  · have hz : t.val ≠ 0 := fun h => h0 (by rw [h])
    by_cases h1 : t.val % 10 = 9
    · rw [show (dat3 V c).leavesExact 2 t = owns (c : Thread nD τ) (ms3_2 t) fullShare ((dat3 V c).after 2 t) from by
        unfold Dat.leavesExact; rw [liveAt3_2 t ((hcond3_1 t).mpr h1)]]
      rw [PhiS3_castSucc V c t, PhiS3_pos V c _ _ hz]
      iintro ⟨⟨⟨HS0, HS1, HR⟩, Hg⟩, Ho, ⟨%d0, H0⟩, ⟨%d1, H1⟩, ⟨%d2, H2⟩⟩
      iapply ((kernelRun3_C c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (acc3 V c (t.val - 1) (Nat.lt_of_le_of_lt (Nat.sub_le _ _) t.isLt)).1 (acc3 V c (t.val - 1) (Nat.lt_of_le_of_lt (Nat.sub_le _ _) t.isLt)).2).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro
            exact (View.read_writes_eq_canon _ _ _ (scover3_C_0 c _ _ _ _ _ _ _ _ _ _ _ _ _ _ _ _ _)).trans ((canon3_C_0 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (acc3 V c (t.val - 1) (Nat.lt_of_le_of_lt (Nat.sub_le _ _) t.isLt)).1 (acc3 V c (t.val - 1) (Nat.lt_of_le_of_lt (Nat.sub_le _ _) t.isLt)).2).trans (acc3_pos_1 V c t hz).symm)
          isplitl [HS1]
          · unfold owns; iexists _; isplitr
            swap; · iexact HS1
            ipureintro
            exact (View.read_writes_eq_canon _ _ _ (scover3_C_1 c _ _ _ _ _ _ _ _ _ _ _ _ _ _ _ _ _)).trans ((canon3_C_1 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (acc3 V c (t.val - 1) (Nat.lt_of_le_of_lt (Nat.sub_le _ _) t.isLt)).1 (acc3 V c (t.val - 1) (Nat.lt_of_le_of_lt (Nat.sub_le _ _) t.isLt)).2).trans (acc3_pos_2 V c t hz).symm)
          iexact HR
        iexact Hg
      isplitl [Ho]; · iexact Ho
      isplitl [H0]; · iexact H0
      isplitl [H1]; · iexact H1
      unfold owns; iexists _; isplitr
      swap; · iexact H2
      ipureintro
      exact (View.read_writes_eq_canon _ _ _ (cover3_C_2 c _ _ _ _ _ _ _ _ _ _ _ _ _ _ _ _ _)).trans ((canon3_C_2 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (acc3 V c (t.val - 1) (Nat.lt_of_le_of_lt (Nat.sub_le _ _) t.isLt)).1 (acc3 V c (t.val - 1) (Nat.lt_of_le_of_lt (Nat.sub_le _ _) t.isLt)).2).trans ((after3_2 V c t).trans (outAt3_pos V c t hz)).symm)
    · rw [Dat.leavesExact_idle (dat3 V c) 2 t (idleAt3_2 t (fun h => h1 ((hcond3_1 t).mp h))) (noFlush3_2 t (fun h => h1 ((hcond3_1 t).mp h)))]
      rw [PhiS3_castSucc V c t, PhiS3_pos V c _ _ hz]
      iintro ⟨⟨⟨HS0, HS1, HR⟩, Hg⟩, Ho, ⟨%d0, H0⟩, ⟨%d1, H1⟩, ⟨%d2, H2⟩⟩
      iapply ((kernelRun3_B c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (acc3 V c (t.val - 1) (Nat.lt_of_le_of_lt (Nat.sub_le _ _) t.isLt)).1 (acc3 V c (t.val - 1) (Nat.lt_of_le_of_lt (Nat.sub_le _ _) t.isLt)).2).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro
            exact (View.read_writes_eq_canon _ _ _ (scover3_B_0 c _ _ _ _ _ _ _ _ _ _ _ _ _ _ _ _ _)).trans ((canon3_B_0 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (acc3 V c (t.val - 1) (Nat.lt_of_le_of_lt (Nat.sub_le _ _) t.isLt)).1 (acc3 V c (t.val - 1) (Nat.lt_of_le_of_lt (Nat.sub_le _ _) t.isLt)).2).trans (acc3_pos_1 V c t hz).symm)
          isplitl [HS1]
          · unfold owns; iexists _; isplitr
            swap; · iexact HS1
            ipureintro
            exact (View.read_writes_eq_canon _ _ _ (scover3_B_1 c _ _ _ _ _ _ _ _ _ _ _ _ _ _ _ _ _)).trans ((canon3_B_1 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (acc3 V c (t.val - 1) (Nat.lt_of_le_of_lt (Nat.sub_le _ _) t.isLt)).1 (acc3 V c (t.val - 1) (Nat.lt_of_le_of_lt (Nat.sub_le _ _) t.isLt)).2).trans (acc3_pos_2 V c t hz).symm)
          iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the carried arrays' named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, HS1, HR⟩, Hg⟩
  isplitl [HS0 HS1 HR]
  · isplitl [HS0 HS1]
    · isplitl [HS0]
      · iexists _; iexact HS0
      iexists _; iexact HS1
    iexact HR
  iexact Hg

/-- After the last point the invariant gives the class's back: the carried arrays' named contents are forgotten. -/
theorem hout3 (c : Dev nD) : (dat3 V c).Φ (Fin.last cfg3.N) ⊢ (Pipeline.ΦA spec3 c : sProp 𝕄) :=
  Phi_out3 V c _ (by rw [Fin.val_last]; have : cfg3.N = 10 := N_3; omega)

end
end Cert.KernelIdeal.Fr

end
-- ==== Proof.KI.Run.lean ====
/- The run of the whole program. The buffer contents at each boundary between a host stretch and a region, a fold from the launch
   memory (a stretch applies its operations; a region leaves its arrays at what its write-backs fold to and every other buffer as
   entered); each region as a segment over the thread state "every unscoped buffer at the boundary's contents, the generator register
   at some state, nothing owed"; the launch over the eight segments; and what every final memory holds: each argument as launched, the
   result array at what the last region's write-backs leave. -/
import proofs.«430098_j70454643523874_1_alg».proof.Proof.Gen.KernelIdeal.Launch
import proofs.«430098_j70454643523874_1_alg».proof.Proof.Gen.KernelIdeal.Skeleton
import proofs.«430098_j70454643523874_1_alg».proof.Proof.Gen.KernelIdeal.Points
import proofs.«430098_j70454643523874_1_alg».proof.Proof.Gen.KernelIdeal.Regions
import proofs.«430098_j70454643523874_1_alg».proof.Proof.KI.Mlp0
import proofs.«430098_j70454643523874_1_alg».proof.Proof.KI.Mlp1
import proofs.«430098_j70454643523874_1_alg».proof.Proof.KI.Mlp2
import proofs.«430098_j70454643523874_1_alg».proof.Proof.KI.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the host stretch before region 0 (region 0's entry). -/
abbrev W1 : Dev nD → Valuation τ sig (Elt F) := fun c => StableHlo.after hostOps0 (W0 m ρ c)
/-- The same read at the TensorCore's references: the contents region 0 is entered with. -/
abbrev V1 : (c : Dev nD) → (b : Ref sig .tc) → Buf (Elt F) ((c : Thread nD τ).loc b) := fun c b => W1 m ρ c b
/-- At region 0's exit: its arrays at what the pipeline leaves (the inputs as entered, each output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1 (region 1's entry). -/
abbrev W3 : Dev nD → Valuation τ sig (Elt F) := fun c => StableHlo.after hostOps1 (W2 m ρ c)
/-- The same read at the TensorCore's references: the contents region 1 is entered with. -/
abbrev V3 : (c : Dev nD) → (b : Ref sig .tc) → Buf (Elt F) ((c : Thread nD τ).loc b) := fun c b => W3 m ρ c b
/-- At region 1's exit: its arrays at what the pipeline leaves (the inputs as entered, each output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2 (region 2's entry). -/
abbrev W5 : Dev nD → Valuation τ sig (Elt F) := fun c => StableHlo.after hostOps2 (W4 m ρ c)
/-- The same read at the TensorCore's references: the contents region 2 is entered with. -/
abbrev V5 : (c : Dev nD) → (b : Ref sig .tc) → Buf (Elt F) ((c : Thread nD τ).loc b) := fun c b => W5 m ρ c b
/-- At region 2's exit: its arrays at what the pipeline leaves (the inputs as entered, each output's write-backs folded), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before region 3 (region 3's entry). -/
abbrev W7 : Dev nD → Valuation τ sig (Elt F) := fun c => StableHlo.after hostOps3 (W6 m ρ c)
/-- The same read at the TensorCore's references: the contents region 3 is entered with. -/
abbrev V7 : (c : Dev nD) → (b : Ref sig .tc) → Buf (Elt F) ((c : Thread nD τ).loc b) := fun c b => W7 m ρ c b
/-- At region 3's exit: its arrays at what the pipeline leaves (the inputs as entered, each output's write-backs folded), every
    other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ### The arguments end as launched: no host stretch writes one and no region writes one (a region reads it through an input
    window or bypasses it), so the fold at an argument's buffer walks back to the launch memory -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- The result array ends at what the last region's write-backs leave in its output window's array. -/
theorem W8_main_v62 (c : Dev nD) : W8 m ρ c (Proc.devRef .tc main_v62) = (dat3 (V7 m ρ) c).arrAt 2 cfg3.N :=
  W8_arr m ρ c 2

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at the stretch applied to `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some
    state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W1`, left at `W2`. Its arrays split out of the unscoped
    buffers and put back at the exit contents; the generator register into the class invariant and out; nothing owed; no semaphore
    of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays split out of the unscoped
    buffers and put back at the exit contents; the generator register into the class invariant and out; nothing owed; no semaphore
    of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays split out of the unscoped
    buffers and put back at the exit contents; the generator register into the class invariant and out; nothing owed; no semaphore
    of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8` beside the core owing nothing. Its arrays
    split out of the unscoped buffers and put back at the exit contents; the generator register and the scoped buffers into the
    region's invariant at its first point (the class's, by `hin3`) and out of it at its last (`hout3`); nothing owed; no semaphore of
    the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec3 c : sProp 𝕄) ⊢ (pdats m ρ 3 c).Φ 0 from hin3 (V7 m ρ) c)
    unfold Pipeline.ΦA
    iintro ⟨Hp, -, Hr⟩
    isplitl [Hr]; · iexact Hr
    iexact Hp
  hout c := by
    rw [Pipeline.ownSems0_none]
    refine .trans (show (pdats m ρ 3 c).Φ (Fin.last _) ⊢ (Pipeline.ΦA spec3 c : sProp 𝕄) from hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 8 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

set_option backward.isDefEq.respectTransparency.types false in
/-- THE RUN. At the compiled mesh, from any memory with zero counters, every weakly fair execution of the program on the TensorCores
    terminates, nothing faulting, and every final memory holds, on every core, each unscoped buffer at the last boundary's contents
    `W8`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: every final memory has the argument arrays as launched, each read off the last boundary's contents and walked back
    through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c)⟩) (run_all m ρ)

/-- THE RUN'S VALUE: every final memory has the result array at what the last region's write-backs leave, and the argument arrays
    as launched. -/
theorem run_value : θ_run defs (onTc (τ := τ) (main (F := F))) ⟨m, fun _ => 0, ρ⟩ (fun r => ∀ c : Dev nD,
      r.2.mem ((c.tc : Thread nD τ).loc main_v62) = (dat3 (V7 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v62 (by decide))).trans (W8_main_v62 m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c)⟩) (run_all m ρ)

end Cert.KernelIdeal.Fr

end
-- ==== Proof.KI.Host.lean ====
/- What the host stretches of the layered program leave in the buffers the four regions read, as functions of what they
   found: the edge columns (source ids wrapped once when negative, destination ids), the neighbour aggregate (gather the source
   rows, scatter-add them onto the destination rows), each layer's two weight matrices and two bias rows cut out of the
   stacked parameters, and the graph-id column. -/
import proofs.«430098_j70454643523874_1_alg».proof.Proof.Gen.KernelIdeal.Launch
import Idealize.ShloMosaic.Lib.StableHlo.Run

noncomputable section

namespace Cert.KernelIdeal.Fr

open Idealize.ShloMosaic Idealize.ShloMosaic.TcCoe Idealize.SL.Sem Idealize.ShloMosaic.StableHlo
open Cert.KernelIdeal Cert.KernelIdeal.Gen

variable {F : FTy → Type} [FloatOps F]

/-- Row `k` of the edge list, flat. -/
def edgeRow0 (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000
def edgeRow1 (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- The source ids as a column, a negative id moved up by the row count once. -/
def srcColOf (s : (⟨S600000, .i32⟩ : BufTy).Contents (Elt F)) : (⟨S600000x1, .i32⟩ : BufTy).Contents (Elt F) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- The neighbour aggregate of `x` along the edges: source rows gathered, added onto the destination rows of a zero array. -/
def aggOf (x : (⟨S50000x128, .f32⟩ : BufTy).Contents (Elt F)) (s d : (⟨S600000, .i32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 d)
    (Host.gather gather_S50000x128_S600000x1_S600000x128_1_0_n_n_0_1_1128 x (srcColOf s))

variable (W : Valuation τ sig (Elt F))

/-! ## The first stretch -/

theorem host0_v1 : StableHlo.after hostOps0 W (Proc.devRef .tc main_v1) = edgeRow0 (W (Proc.devRef .tc main_arg5)) := by
  after_results; rfl
theorem host0_v3 : StableHlo.after hostOps0 W (Proc.devRef .tc main_v3) = edgeRow1 (W (Proc.devRef .tc main_arg5)) := by
  after_results; rfl
theorem host0_v13 : StableHlo.after hostOps0 W (Proc.devRef .tc main_v13)
    = aggOf (W (Proc.devRef .tc main_arg0)) (edgeRow0 (W (Proc.devRef .tc main_arg5))) (edgeRow1 (W (Proc.devRef .tc main_arg5))) := by
  after_results; rfl
theorem host0_v15 : StableHlo.after hostOps0 W (Proc.devRef .tc main_v15)
    = shapeCast _ (extractStridedSlice S1x128x128 ![0, 0, 0] (W (Proc.devRef .tc main_arg1)) slices_S3x128x128_S1x128x128_0_0_0) shapeCasts_S1x128x128_S128x128 := by
  after_results; rfl
theorem host0_v17 : StableHlo.after hostOps0 W (Proc.devRef .tc main_v17)
    = shapeCast _ (extractStridedSlice S1x128 ![0, 0] (W (Proc.devRef .tc main_arg2)) slices_S3x128_S1x128_0_0) shapeCasts_S1x128_S128 := by
  after_results; rfl
theorem host0_v19 : StableHlo.after hostOps0 W (Proc.devRef .tc main_v19)
    = shapeCast _ (extractStridedSlice S1x128x128 ![0, 0, 0] (W (Proc.devRef .tc main_arg3)) slices_S3x128x128_S1x128x128_0_0_0) shapeCasts_S1x128x128_S128x128 := by
  after_results; rfl
theorem host0_v21 : StableHlo.after hostOps0 W (Proc.devRef .tc main_v21)
    = shapeCast _ (extractStridedSlice S1x128 ![0, 0] (W (Proc.devRef .tc main_arg4)) slices_S3x128_S1x128_0_0) shapeCasts_S1x128_S128 := by
  after_results; rfl

/-! ## The second stretch -/

set_option maxHeartbeats 2000000 in
theorem host1_v32 : StableHlo.after hostOps1 W (Proc.devRef .tc main_v32)
    = aggOf (W (Proc.devRef .tc main_v22)) (W (Proc.devRef .tc main_v1)) (W (Proc.devRef .tc main_v3)) := by
  after_results; rfl
theorem host1_v34 : StableHlo.after hostOps1 W (Proc.devRef .tc main_v34)
    = shapeCast _ (extractStridedSlice S1x128x128 ![1, 0, 0] (W (Proc.devRef .tc main_arg1)) slices_S3x128x128_S1x128x128_1_0_0) shapeCasts_S1x128x128_S128x128 := by
  after_results; rfl
theorem host1_v36 : StableHlo.after hostOps1 W (Proc.devRef .tc main_v36)
    = shapeCast _ (extractStridedSlice S1x128 ![1, 0] (W (Proc.devRef .tc main_arg2)) slices_S3x128_S1x128_1_0) shapeCasts_S1x128_S128 := by
  after_results; rfl
theorem host1_v38 : StableHlo.after hostOps1 W (Proc.devRef .tc main_v38)
    = shapeCast _ (extractStridedSlice S1x128x128 ![1, 0, 0] (W (Proc.devRef .tc main_arg3)) slices_S3x128x128_S1x128x128_1_0_0) shapeCasts_S1x128x128_S128x128 := by
  after_results; rfl
theorem host1_v40 : StableHlo.after hostOps1 W (Proc.devRef .tc main_v40)
    = shapeCast _ (extractStridedSlice S1x128 ![1, 0] (W (Proc.devRef .tc main_arg4)) slices_S3x128_S1x128_1_0) shapeCasts_S1x128_S128 := by
  after_results; rfl

/-! ## The third stretch -/

set_option maxHeartbeats 2000000 in
theorem host2_v51 : StableHlo.after hostOps2 W (Proc.devRef .tc main_v51)
    = aggOf (W (Proc.devRef .tc main_v41)) (W (Proc.devRef .tc main_v1)) (W (Proc.devRef .tc main_v3)) := by
  after_results; rfl
theorem host2_v53 : StableHlo.after hostOps2 W (Proc.devRef .tc main_v53)
    = shapeCast _ (extractStridedSlice S1x128x128 ![2, 0, 0] (W (Proc.devRef .tc main_arg1)) slices_S3x128x128_S1x128x128_2_0_0) shapeCasts_S1x128x128_S128x128 := by
  after_results; rfl
theorem host2_v55 : StableHlo.after hostOps2 W (Proc.devRef .tc main_v55)
    = shapeCast _ (extractStridedSlice S1x128 ![2, 0] (W (Proc.devRef .tc main_arg2)) slices_S3x128_S1x128_2_0) shapeCasts_S1x128_S128 := by
  after_results; rfl
theorem host2_v57 : StableHlo.after hostOps2 W (Proc.devRef .tc main_v57)
    = shapeCast _ (extractStridedSlice S1x128x128 ![2, 0, 0] (W (Proc.devRef .tc main_arg3)) slices_S3x128x128_S1x128x128_2_0_0) shapeCasts_S1x128x128_S128x128 := by
  after_results; rfl
theorem host2_v59 : StableHlo.after hostOps2 W (Proc.devRef .tc main_v59)
    = shapeCast _ (extractStridedSlice S1x128 ![2, 0] (W (Proc.devRef .tc main_arg4)) slices_S3x128_S1x128_2_0) shapeCasts_S1x128_S128 := by
  after_results; rfl

/-! ## The last stretch -/

theorem host3_v61 : StableHlo.after hostOps3 W (Proc.devRef .tc main_v61)
    = shapeCast _ (W (Proc.devRef .tc main_arg6)) shapeCasts_S50000_S50000x1 := by
  after_results; rfl

/-- A buffer no operation of a stretch writes is as it was. -/
theorem host1_keep (b : Ref sig .tc) (h : ∀ op ∈ (hostOps1 : List (HloOp τ sig (Elt F))), Proc.devRef .tc b ∉ op.writes) :
    StableHlo.after hostOps1 W (Proc.devRef .tc b) = W (Proc.devRef .tc b) :=
  StableHlo.after_of_forall_not_mem (b := Proc.devRef .tc b) _ _ h
theorem host2_keep (b : Ref sig .tc) (h : ∀ op ∈ (hostOps2 : List (HloOp τ sig (Elt F))), Proc.devRef .tc b ∉ op.writes) :
    StableHlo.after hostOps2 W (Proc.devRef .tc b) = W (Proc.devRef .tc b) :=
  StableHlo.after_of_forall_not_mem (b := Proc.devRef .tc b) _ _ h
theorem host3_keep (b : Ref sig .tc) (h : ∀ op ∈ (hostOps3 : List (HloOp τ sig (Elt F))), Proc.devRef .tc b ∉ op.writes) :
    StableHlo.after hostOps3 W (Proc.devRef .tc b) = W (Proc.devRef .tc b) :=
  StableHlo.after_of_forall_not_mem (b := Proc.devRef .tc b) _ _ h

end Cert.KernelIdeal.Fr

end
-- ==== Proof.KI.Arr0.lean ====
/- Region 0's output array as one function of the arrays the region is entered with (row R lies in tile R / 5000 at
   row R % 5000), and each input block read off its array. -/
import proofs.«430098_j70454643523874_1_alg».proof.Proof.Gen.KernelIdeal.Launch
import proofs.«430098_j70454643523874_1_alg».proof.Proof.Gen.KernelIdeal.Skeleton
import proofs.«430098_j70454643523874_1_alg».proof.Proof.Gen.KernelIdeal.Points
import proofs.«430098_j70454643523874_1_alg».proof.Proof.KI.Mlp0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The block indices of region 0's windows, decided over the ten points: the two row-tiled inputs and the output sit at tile
    `t` of the rows and column block 0; the four small arrays are one block each. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- A row of the [50000,128] array lies in one of the ten tiles. -/
theorem tile_lt0 (i : S50000x128.Idx) : (i 0).val / 5000 < cfg0.N := by
  rw [show cfg0.N = 10 from N_0]; have := ValueIdx.idx2_lt0 i; omega

/-- Row `r` of tile `t` is a row of the array. -/
theorem row_lt0 (t : Fin cfg0.N) (r : Fin 5000) : 5000 * t.val + r.val < 50000 := by
  have ht : t.val < 10 := lt_of_lt_of_eq t.isLt N_0; have := r.isLt; omega

section
variable (V : (c : Dev nD) → (b : Ref sig .tc) → Buf (Elt F) ((c : Thread nD τ).loc b))

/-- The output array as one function of the entry arrays: row `R` lies in tile `R / 5000` at row `R % 5000`. -/
def mlpArr0 (c : Dev nD) : Vec F S50000x128 .f32 := fun i =>
  out0_6 (iblk0 V c 0 ⟨(i 0).val / 5000, tile_lt0 i⟩) (iblk0 V c 1 ⟨(i 0).val / 5000, tile_lt0 i⟩)
    (iblk0 V c 2 ⟨(i 0).val / 5000, tile_lt0 i⟩) (iblk0 V c 3 ⟨(i 0).val / 5000, tile_lt0 i⟩)
    (iblk0 V c 4 ⟨(i 0).val / 5000, tile_lt0 i⟩) (iblk0 V c 5 ⟨(i 0).val / 5000, tile_lt0 i⟩)
    (ValueIdx.ix2 ⟨(i 0).val % 5000, Nat.mod_lt _ (by decide)⟩ (i 1))

/-- That function at row `y 0` of tile `t` is the payload of tile `t`'s blocks at `y`. -/
theorem mlpArr0_at (c : Dev nD) (t : Fin cfg0.N) (y : S5000x128.Idx) (i : S50000x128.Idx)
    (h0 : (i 0).val = t.val * 5000 + (y 0).val) (h1 : (i 1).val = (y 1).val) :
    mlpArr0 V c i = out0_6 (iblk0 V c 0 t) (iblk0 V c 1 t) (iblk0 V c 2 t) (iblk0 V c 3 t) (iblk0 V c 4 t) (iblk0 V c 5 t) y := by
  have hy0 : (y 0).val < 5000 := ValueIdx.idx2_lt0 y
  have ht : (⟨(i 0).val / 5000, tile_lt0 i⟩ : Fin cfg0.N) = t := Fin.ext (by show (i 0).val / 5000 = t.val; omega)
  have hy : (ValueIdx.ix2 ⟨(i 0).val % 5000, Nat.mod_lt _ (by decide)⟩ (i 1) : S5000x128.Idx) = y := by
    funext a
    apply Fin.ext
    match a with
    | ⟨0, _⟩ => show (i 0).val % 5000 = (y 0).val; omega
    | ⟨1, _⟩ => show (i 1).val = (y 1).val; exact h1
  unfold mlpArr0
  rw [ht, hy]

/-- What point `t` writes back is block `t` of that function. -/
theorem flushed0_6_eq (c : Dev nD) (t : Fin cfg0.N) :
    (dat0 V c).flushed 6 t = ((cfg0.win 6).blk t).view.read (Elt F) (mlpArr0 V c) := by
  show (cfg0.win 6).cut (grid0.coords t) ((dat0 V c).after 6 t) = _
  rw [after0_6]
  obtain ⟨-, -, -, -, -, -, -, -, -, -, e0, e1⟩ := idx0 t
  funext y
  rw [View.read_apply]
  show out0_6 (iblk0 V c 0 t) (iblk0 V c 1 t) (iblk0 V c 2 t) (iblk0 V c 3 t) (iblk0 V c 4 t) (iblk0 V c 5 t) y
    = mlpArr0 V c (((cfg0.win 6).blk t).view.emb y)
  refine (mlpArr0_at V c t y _ ?_ ?_).symm
  · show win0_6.index t (0 : Fin 2) * 5000 + 1 * (y 0).val = t.val * 5000 + (y 0).val; rw [e0]; omega
  · show win0_6.index t (1 : Fin 2) * 128 + 1 * (y 1).val = (y 1).val; rw [e1]; omega

/-- An index of the array is in point `t`'s block iff each coordinate is in the block's range on its axis. -/
theorem mem_blk0_6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v22).slice (win0_6.rect t)).set ↔ _
  rw [View.set_slice_whole, Rect.mem_set_unit]
  exact Iff.rfl

/-- Every row is in the block of the point of its tile. -/
theorem rows_cover0 (i : S50000x128.Idx) : ∃ t : Fin cfg0.N, (cfg0.win 6).flush t = true ∧ i ∈ ((cfg0.win 6).blk t).view.set := by
  have hi0 : (i 0).val < 50000 := ValueIdx.idx2_lt0 i
  have hi1 : (i 1).val < 128 := ValueIdx.idx2_lt1 i
  refine ⟨⟨(i 0).val / 5000, tile_lt0 i⟩, flush0_6 _, ?_⟩
  rw [mem_blk0_6]
  obtain ⟨-, -, -, -, -, -, -, -, -, -, e0, e1⟩ := idx0 ⟨(i 0).val / 5000, tile_lt0 i⟩
  have e0' : win0_6.index ⟨(i 0).val / 5000, tile_lt0 i⟩ (0 : Fin 2) = (i 0).val / 5000 := e0
  intro a
  match a with
  | ⟨0, _⟩ => show win0_6.index ⟨(i 0).val / 5000, tile_lt0 i⟩ (0 : Fin 2) * 5000 ≤ (i 0).val ∧ (i 0).val < win0_6.index ⟨(i 0).val / 5000, tile_lt0 i⟩ (0 : Fin 2) * 5000 + 5000; rw [e0']; omega
  | ⟨1, _⟩ => show win0_6.index ⟨(i 0).val / 5000, tile_lt0 i⟩ (1 : Fin 2) * 128 ≤ (i 1).val ∧ (i 1).val < win0_6.index ⟨(i 0).val / 5000, tile_lt0 i⟩ (1 : Fin 2) * 128 + 128; rw [e1]; omega

/-- The output array after the region is that function of the entry arrays. -/
theorem arr0 (c : Dev nD) : (dat0 V c).arrAt 6 cfg0.N = mlpArr0 V c :=
  (dat0 V c).arrAt_eq_of_cover 6 (mlpArr0 V c) (fun t _ => flushed0_6_eq V c t) rows_cover0

/-- Input window 0's block at point `t` is rows `5000 t … 5000 t + 4999` of its array. -/
theorem iblk0_0_apply (c : Dev nD) (t : Fin cfg0.N) (r : Fin 5000) (l : Fin 128) :
    (iblk0 V c 0 t : Vec F S5000x128 .f32) (ValueIdx.ix2 r l)
      = (V c main_v13 : Vec F S50000x128 .f32) (ValueIdx.ix2 ⟨5000 * t.val + r.val, row_lt0 t r⟩ l) := by
  obtain ⟨e0, e1, -⟩ := idx0 t
  unfold iblk0
  rw [View.read_apply]
  show V c main_v13 _ = V c main_v13 _
  congr 1
  funext a
  apply Fin.ext
  match a with
  | ⟨0, _⟩ => show win0_0.index t (0 : Fin 2) * 5000 + 1 * r.val = 5000 * t.val + r.val; rw [e0]; omega
  | ⟨1, _⟩ => show win0_0.index t (1 : Fin 2) * 128 + 1 * l.val = l.val; rw [e1]; omega

/-- Input window 1's block at point `t` is rows `5000 t … 5000 t + 4999` of its array. -/
theorem iblk0_1_apply (c : Dev nD) (t : Fin cfg0.N) (r : Fin 5000) (l : Fin 128) :
    (iblk0 V c 1 t : Vec F S5000x128 .f32) (ValueIdx.ix2 r l)
      = (V c main_arg0 : Vec F S50000x128 .f32) (ValueIdx.ix2 ⟨5000 * t.val + r.val, row_lt0 t r⟩ l) := by
  obtain ⟨-, -, e0, e1, -⟩ := idx0 t
  unfold iblk0
  rw [View.read_apply]
  show V c main_arg0 _ = V c main_arg0 _
  congr 1
  funext a
  apply Fin.ext
  match a with
  | ⟨0, _⟩ => show win0_1.index t (0 : Fin 2) * 5000 + 1 * r.val = 5000 * t.val + r.val; rw [e0]; omega
  | ⟨1, _⟩ => show win0_1.index t (1 : Fin 2) * 128 + 1 * l.val = l.val; rw [e1]; omega

/-- Input window 2's block is its whole array, at every point. -/
theorem iblk0_2_eq (c : Dev nD) (t : Fin cfg0.N) : (iblk0 V c 2 t : Vec F S128x128 .f32) = V c main_v15 := by
  obtain ⟨-, -, -, -, e0, e1, -⟩ := idx0 t
  funext y
  unfold iblk0
  rw [View.read_apply]
  show V c main_v15 _ = V c main_v15 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- Input window 3's block is its whole array, at every point. -/
theorem iblk0_3_eq (c : Dev nD) (t : Fin cfg0.N) : (iblk0 V c 3 t : Vec F S128 .f32) = V c main_v17 := by
  obtain ⟨-, -, -, -, -, -, e0, -⟩ := idx0 t
  funext y
  unfold iblk0
  rw [View.read_apply]
  show V c main_v17 _ = V c main_v17 y
  congr 1
  funext a
  apply Fin.ext
  match a with
  | ⟨0, _⟩ => show win0_3.index t (0 : Fin 1) * 128 + 1 * (y 0).val = (y 0).val; rw [e0]; omega

/-- Input window 4's block is its whole array, at every point. -/
theorem iblk0_4_eq (c : Dev nD) (t : Fin cfg0.N) : (iblk0 V c 4 t : Vec F S128x128 .f32) = V c main_v19 := by
  obtain ⟨-, -, -, -, -, -, -, e0, e1, -⟩ := idx0 t
  funext y
  unfold iblk0
  rw [View.read_apply]
  show V c main_v19 _ = V c main_v19 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Input window 5's block is its whole array, at every point. -/
theorem iblk0_5_eq (c : Dev nD) (t : Fin cfg0.N) : (iblk0 V c 5 t : Vec F S128 .f32) = V c main_v21 := by
  obtain ⟨-, -, -, -, -, -, -, -, -, e0, -⟩ := idx0 t
  funext y
  unfold iblk0
  rw [View.read_apply]
  show V c main_v21 _ = V c main_v21 y
  congr 1
  funext a
  apply Fin.ext
  match a with
  | ⟨0, _⟩ => show win0_5.index t (0 : Fin 1) * 128 + 1 * (y 0).val = (y 0).val; rw [e0]; omega

end
end Cert.KernelIdeal.Fr

end
-- ==== Proof.KI.Arr1.lean ====
/- Region 1's output array as one function of the arrays the region is entered with (row R lies in tile R / 5000 at
   row R % 5000), and each input block read off its array. -/
import proofs.«430098_j70454643523874_1_alg».proof.Proof.Gen.KernelIdeal.Launch
import proofs.«430098_j70454643523874_1_alg».proof.Proof.Gen.KernelIdeal.Skeleton
import proofs.«430098_j70454643523874_1_alg».proof.Proof.Gen.KernelIdeal.Points
import proofs.«430098_j70454643523874_1_alg».proof.Proof.KI.Mlp1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The block indices of region 1's windows, decided over the ten points: the two row-tiled inputs and the output sit at tile
    `t` of the rows and column block 0; the four small arrays are one block each. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- A row of the [50000,128] array lies in one of the ten tiles. -/
theorem tile_lt1 (i : S50000x128.Idx) : (i 0).val / 5000 < cfg1.N := by
  rw [show cfg1.N = 10 from N_1]; have := ValueIdx.idx2_lt0 i; omega

/-- Row `r` of tile `t` is a row of the array. -/
theorem row_lt1 (t : Fin cfg1.N) (r : Fin 5000) : 5000 * t.val + r.val < 50000 := by
  have ht : t.val < 10 := lt_of_lt_of_eq t.isLt N_1; have := r.isLt; omega

section
variable (V : (c : Dev nD) → (b : Ref sig .tc) → Buf (Elt F) ((c : Thread nD τ).loc b))

/-- The output array as one function of the entry arrays: row `R` lies in tile `R / 5000` at row `R % 5000`. -/
def mlpArr1 (c : Dev nD) : Vec F S50000x128 .f32 := fun i =>
  out1_6 (iblk1 V c 0 ⟨(i 0).val / 5000, tile_lt1 i⟩) (iblk1 V c 1 ⟨(i 0).val / 5000, tile_lt1 i⟩)
    (iblk1 V c 2 ⟨(i 0).val / 5000, tile_lt1 i⟩) (iblk1 V c 3 ⟨(i 0).val / 5000, tile_lt1 i⟩)
    (iblk1 V c 4 ⟨(i 0).val / 5000, tile_lt1 i⟩) (iblk1 V c 5 ⟨(i 0).val / 5000, tile_lt1 i⟩)
    (ValueIdx.ix2 ⟨(i 0).val % 5000, Nat.mod_lt _ (by decide)⟩ (i 1))

/-- That function at row `y 0` of tile `t` is the payload of tile `t`'s blocks at `y`. -/
theorem mlpArr1_at (c : Dev nD) (t : Fin cfg1.N) (y : S5000x128.Idx) (i : S50000x128.Idx)
    (h0 : (i 0).val = t.val * 5000 + (y 0).val) (h1 : (i 1).val = (y 1).val) :
    mlpArr1 V c i = out1_6 (iblk1 V c 0 t) (iblk1 V c 1 t) (iblk1 V c 2 t) (iblk1 V c 3 t) (iblk1 V c 4 t) (iblk1 V c 5 t) y := by
  have hy0 : (y 0).val < 5000 := ValueIdx.idx2_lt0 y
  have ht : (⟨(i 0).val / 5000, tile_lt1 i⟩ : Fin cfg1.N) = t := Fin.ext (by show (i 0).val / 5000 = t.val; omega)
  have hy : (ValueIdx.ix2 ⟨(i 0).val % 5000, Nat.mod_lt _ (by decide)⟩ (i 1) : S5000x128.Idx) = y := by
    funext a
    apply Fin.ext
    match a with
    | ⟨0, _⟩ => show (i 0).val % 5000 = (y 0).val; omega
    | ⟨1, _⟩ => show (i 1).val = (y 1).val; exact h1
  unfold mlpArr1
  rw [ht, hy]

/-- What point `t` writes back is block `t` of that function. -/
theorem flushed1_6_eq (c : Dev nD) (t : Fin cfg1.N) :
    (dat1 V c).flushed 6 t = ((cfg1.win 6).blk t).view.read (Elt F) (mlpArr1 V c) := by
  show (cfg1.win 6).cut (grid1.coords t) ((dat1 V c).after 6 t) = _
  rw [after1_6]
  obtain ⟨-, -, -, -, -, -, -, -, -, -, e0, e1⟩ := idx1 t
  funext y
  rw [View.read_apply]
  show out1_6 (iblk1 V c 0 t) (iblk1 V c 1 t) (iblk1 V c 2 t) (iblk1 V c 3 t) (iblk1 V c 4 t) (iblk1 V c 5 t) y
    = mlpArr1 V c (((cfg1.win 6).blk t).view.emb y)
  refine (mlpArr1_at V c t y _ ?_ ?_).symm
  · show win1_6.index t (0 : Fin 2) * 5000 + 1 * (y 0).val = t.val * 5000 + (y 0).val; rw [e0]; omega
  · show win1_6.index t (1 : Fin 2) * 128 + 1 * (y 1).val = (y 1).val; rw [e1]; omega

/-- An index of the array is in point `t`'s block iff each coordinate is in the block's range on its axis. -/
theorem mem_blk1_6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v41).slice (win1_6.rect t)).set ↔ _
  rw [View.set_slice_whole, Rect.mem_set_unit]
  exact Iff.rfl

/-- Every row is in the block of the point of its tile. -/
theorem rows_cover1 (i : S50000x128.Idx) : ∃ t : Fin cfg1.N, (cfg1.win 6).flush t = true ∧ i ∈ ((cfg1.win 6).blk t).view.set := by
  have hi0 : (i 0).val < 50000 := ValueIdx.idx2_lt0 i
  have hi1 : (i 1).val < 128 := ValueIdx.idx2_lt1 i
  refine ⟨⟨(i 0).val / 5000, tile_lt1 i⟩, flush1_6 _, ?_⟩
  rw [mem_blk1_6]
  obtain ⟨-, -, -, -, -, -, -, -, -, -, e0, e1⟩ := idx1 ⟨(i 0).val / 5000, tile_lt1 i⟩
  have e0' : win1_6.index ⟨(i 0).val / 5000, tile_lt1 i⟩ (0 : Fin 2) = (i 0).val / 5000 := e0
  intro a
  match a with
  | ⟨0, _⟩ => show win1_6.index ⟨(i 0).val / 5000, tile_lt1 i⟩ (0 : Fin 2) * 5000 ≤ (i 0).val ∧ (i 0).val < win1_6.index ⟨(i 0).val / 5000, tile_lt1 i⟩ (0 : Fin 2) * 5000 + 5000; rw [e0']; omega
  | ⟨1, _⟩ => show win1_6.index ⟨(i 0).val / 5000, tile_lt1 i⟩ (1 : Fin 2) * 128 ≤ (i 1).val ∧ (i 1).val < win1_6.index ⟨(i 0).val / 5000, tile_lt1 i⟩ (1 : Fin 2) * 128 + 128; rw [e1]; omega

/-- The output array after the region is that function of the entry arrays. -/
theorem arr1 (c : Dev nD) : (dat1 V c).arrAt 6 cfg1.N = mlpArr1 V c :=
  (dat1 V c).arrAt_eq_of_cover 6 (mlpArr1 V c) (fun t _ => flushed1_6_eq V c t) rows_cover1

/-- Input window 0's block at point `t` is rows `5000 t … 5000 t + 4999` of its array. -/
theorem iblk1_0_apply (c : Dev nD) (t : Fin cfg1.N) (r : Fin 5000) (l : Fin 128) :
    (iblk1 V c 0 t : Vec F S5000x128 .f32) (ValueIdx.ix2 r l)
      = (V c main_v32 : Vec F S50000x128 .f32) (ValueIdx.ix2 ⟨5000 * t.val + r.val, row_lt1 t r⟩ l) := by
  obtain ⟨e0, e1, -⟩ := idx1 t
  unfold iblk1
  rw [View.read_apply]
  show V c main_v32 _ = V c main_v32 _
  congr 1
  funext a
  apply Fin.ext
  match a with
  | ⟨0, _⟩ => show win1_0.index t (0 : Fin 2) * 5000 + 1 * r.val = 5000 * t.val + r.val; rw [e0]; omega
  | ⟨1, _⟩ => show win1_0.index t (1 : Fin 2) * 128 + 1 * l.val = l.val; rw [e1]; omega

/-- Input window 1's block at point `t` is rows `5000 t … 5000 t + 4999` of its array. -/
theorem iblk1_1_apply (c : Dev nD) (t : Fin cfg1.N) (r : Fin 5000) (l : Fin 128) :
    (iblk1 V c 1 t : Vec F S5000x128 .f32) (ValueIdx.ix2 r l)
      = (V c main_v22 : Vec F S50000x128 .f32) (ValueIdx.ix2 ⟨5000 * t.val + r.val, row_lt1 t r⟩ l) := by
  obtain ⟨-, -, e0, e1, -⟩ := idx1 t
  unfold iblk1
  rw [View.read_apply]
  show V c main_v22 _ = V c main_v22 _
  congr 1
  funext a
  apply Fin.ext
  match a with
  | ⟨0, _⟩ => show win1_1.index t (0 : Fin 2) * 5000 + 1 * r.val = 5000 * t.val + r.val; rw [e0]; omega
  | ⟨1, _⟩ => show win1_1.index t (1 : Fin 2) * 128 + 1 * l.val = l.val; rw [e1]; omega

/-- Input window 2's block is its whole array, at every point. -/
theorem iblk1_2_eq (c : Dev nD) (t : Fin cfg1.N) : (iblk1 V c 2 t : Vec F S128x128 .f32) = V c main_v34 := by
  obtain ⟨-, -, -, -, e0, e1, -⟩ := idx1 t
  funext y
  unfold iblk1
  rw [View.read_apply]
  show V c main_v34 _ = V c main_v34 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- Input window 3's block is its whole array, at every point. -/
theorem iblk1_3_eq (c : Dev nD) (t : Fin cfg1.N) : (iblk1 V c 3 t : Vec F S128 .f32) = V c main_v36 := by
  obtain ⟨-, -, -, -, -, -, e0, -⟩ := idx1 t
  funext y
  unfold iblk1
  rw [View.read_apply]
  show V c main_v36 _ = V c main_v36 y
  congr 1
  funext a
  apply Fin.ext
  match a with
  | ⟨0, _⟩ => show win1_3.index t (0 : Fin 1) * 128 + 1 * (y 0).val = (y 0).val; rw [e0]; omega

/-- Input window 4's block is its whole array, at every point. -/
theorem iblk1_4_eq (c : Dev nD) (t : Fin cfg1.N) : (iblk1 V c 4 t : Vec F S128x128 .f32) = V c main_v38 := by
  obtain ⟨-, -, -, -, -, -, -, e0, e1, -⟩ := idx1 t
  funext y
  unfold iblk1
  rw [View.read_apply]
  show V c main_v38 _ = V c main_v38 y
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Input window 5's block is its whole array, at every point. -/
theorem iblk1_5_eq (c : Dev nD) (t : Fin cfg1.N) : (iblk1 V c 5 t : Vec F S128 .f32) = V c main_v40 := by
  obtain ⟨-, -, -, -, -, -, -, -, -, e0, -⟩ := idx1 t
  funext y
  unfold iblk1
  rw [View.read_apply]
  show V c main_v40 _ = V c main_v40 y
  congr 1
  funext a
  apply Fin.ext
  match a with
  | ⟨0, _⟩ => show win1_5.index t (0 : Fin 1) * 128 + 1 * (y 0).val = (y 0).val; rw [e0]; omega

end
end Cert.KernelIdeal.Fr

end
-- ==== Proof.KI.Arr2.lean ====
/- Region 2's output array as one function of the arrays the region is entered with (row R lies in tile R / 5000 at
   row R % 5000), and each input block read off its array. -/
import proofs.«430098_j70454643523874_1_alg».proof.Proof.Gen.KernelIdeal.Launch
import proofs.«430098_j70454643523874_1_alg».proof.Proof.Gen.KernelIdeal.Skeleton
import proofs.«430098_j70454643523874_1_alg».proof.Proof.Gen.KernelIdeal.Points
import proofs.«430098_j70454643523874_1_alg».proof.Proof.KI.Mlp2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The block indices of region 2's windows, decided over the ten points: the two row-tiled inputs and the output sit at tile
    `t` of the rows and column block 0; the four small arrays are one block each. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- A row of the [50000,128] array lies in one of the ten tiles. -/
theorem tile_lt2 (i : S50000x128.Idx) : (i 0).val / 5000 < cfg2.N := by
  rw [show cfg2.N = 10 from N_2]; have := ValueIdx.idx2_lt0 i; omega

/-- Row `r` of tile `t` is a row of the array. -/
theorem row_lt2 (t : Fin cfg2.N) (r : Fin 5000) : 5000 * t.val + r.val < 50000 := by
  have ht : t.val < 10 := lt_of_lt_of_eq t.isLt N_2; have := r.isLt; omega

section
variable (V : (c : Dev nD) → (b : Ref sig .tc) → Buf (Elt F) ((c : Thread nD τ).loc b))

/-- The output array as one function of the entry arrays: row `R` lies in tile `R / 5000` at row `R % 5000`. -/
def mlpArr2 (c : Dev nD) : Vec F S50000x128 .f32 := fun i =>
  out2_6 (iblk2 V c 0 ⟨(i 0).val / 5000, tile_lt2 i⟩) (iblk2 V c 1 ⟨(i 0).val / 5000, tile_lt2 i⟩)
    (iblk2 V c 2 ⟨(i 0).val / 5000, tile_lt2 i⟩) (iblk2 V c 3 ⟨(i 0).val / 5000, tile_lt2 i⟩)
    (iblk2 V c 4 ⟨(i 0).val / 5000, tile_lt2 i⟩) (iblk2 V c 5 ⟨(i 0).val / 5000, tile_lt2 i⟩)
    (ValueIdx.ix2 ⟨(i 0).val % 5000, Nat.mod_lt _ (by decide)⟩ (i 1))

/-- That function at row `y 0` of tile `t` is the payload of tile `t`'s blocks at `y`. -/
theorem mlpArr2_at (c : Dev nD) (t : Fin cfg2.N) (y : S5000x128.Idx) (i : S50000x128.Idx)
    (h0 : (i 0).val = t.val * 5000 + (y 0).val) (h1 : (i 1).val = (y 1).val) :
    mlpArr2 V c i = out2_6 (iblk2 V c 0 t) (iblk2 V c 1 t) (iblk2 V c 2 t) (iblk2 V c 3 t) (iblk2 V c 4 t) (iblk2 V c 5 t) y := by
  have hy0 : (y 0).val < 5000 := ValueIdx.idx2_lt0 y
  have ht : (⟨(i 0).val / 5000, tile_lt2 i⟩ : Fin cfg2.N) = t := Fin.ext (by show (i 0).val / 5000 = t.val; omega)
  have hy : (ValueIdx.ix2 ⟨(i 0).val % 5000, Nat.mod_lt _ (by decide)⟩ (i 1) : S5000x128.Idx) = y := by
    funext a
    apply Fin.ext
    match a with
    | ⟨0, _⟩ => show (i 0).val % 5000 = (y 0).val; omega
    | ⟨1, _⟩ => show (i 1).val = (y 1).val; exact h1
  unfold mlpArr2
  rw [ht, hy]

/-- What point `t` writes back is block `t` of that function. -/
theorem flushed2_6_eq (c : Dev nD) (t : Fin cfg2.N) :
    (dat2 V c).flushed 6 t = ((cfg2.win 6).blk t).view.read (Elt F) (mlpArr2 V c) := by
  show (cfg2.win 6).cut (grid2.coords t) ((dat2 V c).after 6 t) = _
  rw [after2_6]
  obtain ⟨-, -, -, -, -, -, -, -, -, -, e0, e1⟩ := idx2 t
  funext y
  rw [View.read_apply]
  show out2_6 (iblk2 V c 0 t) (iblk2 V c 1 t) (iblk2 V c 2 t) (iblk2 V c 3 t) (iblk2 V c 4 t) (iblk2 V c 5 t) y
    = mlpArr2 V c (((cfg2.win 6).blk t).view.emb y)
  refine (mlpArr2_at V c t y _ ?_ ?_).symm
  · show win2_6.index t (0 : Fin 2) * 5000 + 1 * (y 0).val = t.val * 5000 + (y 0).val; rw [e0]; omega
  · show win2_6.index t (1 : Fin 2) * 128 + 1 * (y 1).val = (y 1).val; rw [e1]; omega

/-- An index of the array is in point `t`'s block iff each coordinate is in the block's range on its axis. -/
theorem mem_blk2_6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v60).slice (win2_6.rect t)).set ↔ _
  rw [View.set_slice_whole, Rect.mem_set_unit]
  exact Iff.rfl

/-- Every row is in the block of the point of its tile. -/
theorem rows_cover2 (i : S50000x128.Idx) : ∃ t : Fin cfg2.N, (cfg2.win 6).flush t = true ∧ i ∈ ((cfg2.win 6).blk t).view.set := by
  have hi0 : (i 0).val < 50000 := ValueIdx.idx2_lt0 i
  have hi1 : (i 1).val < 128 := ValueIdx.idx2_lt1 i
  refine ⟨⟨(i 0).val / 5000, tile_lt2 i⟩, flush2_6 _, ?_⟩
  rw [mem_blk2_6]
  obtain ⟨-, -, -, -, -, -, -, -, -, -, e0, e1⟩ := idx2 ⟨(i 0).val / 5000, tile_lt2 i⟩
  have e0' : win2_6.index ⟨(i 0).val / 5000, tile_lt2 i⟩ (0 : Fin 2) = (i 0).val / 5000 := e0
  intro a
  match a with
  | ⟨0, _⟩ => show win2_6.index ⟨(i 0).val / 5000, tile_lt2 i⟩ (0 : Fin 2) * 5000 ≤ (i 0).val ∧ (i 0).val < win2_6.index ⟨(i 0).val / 5000, tile_lt2 i⟩ (0 : Fin 2) * 5000 + 5000; rw [e0']; omega
  | ⟨1, _⟩ => show win2_6.index ⟨(i 0).val / 5000, tile_lt2 i⟩ (1 : Fin 2) * 128 ≤ (i 1).val ∧ (i 1).val < win2_6.index ⟨(i 0).val / 5000, tile_lt2 i⟩ (1 : Fin 2) * 128 + 128; rw [e1]; omega

/-- The output array after the region is that function of the entry arrays. -/
theorem arr2 (c : Dev nD) : (dat2 V c).arrAt 6 cfg2.N = mlpArr2 V c :=
  (dat2 V c).arrAt_eq_of_cover 6 (mlpArr2 V c) (fun t _ => flushed2_6_eq V c t) rows_cover2

/-- Input window 0's block at point `t` is rows `5000 t … 5000 t + 4999` of its array. -/
theorem iblk2_0_apply (c : Dev nD) (t : Fin cfg2.N) (r : Fin 5000) (l : Fin 128) :
    (iblk2 V c 0 t : Vec F S5000x128 .f32) (ValueIdx.ix2 r l)
      = (V c main_v51 : Vec F S50000x128 .f32) (ValueIdx.ix2 ⟨5000 * t.val + r.val, row_lt2 t r⟩ l) := by
  obtain ⟨e0, e1, -⟩ := idx2 t
  unfold iblk2
  rw [View.read_apply]
  show V c main_v51 _ = V c main_v51 _
  congr 1
  funext a
  apply Fin.ext
  match a with
  | ⟨0, _⟩ => show win2_0.index t (0 : Fin 2) * 5000 + 1 * r.val = 5000 * t.val + r.val; rw [e0]; omega
  | ⟨1, _⟩ => show win2_0.index t (1 : Fin 2) * 128 + 1 * l.val = l.val; rw [e1]; omega

/-- Input window 1's block at point `t` is rows `5000 t … 5000 t + 4999` of its array. -/
theorem iblk2_1_apply (c : Dev nD) (t : Fin cfg2.N) (r : Fin 5000) (l : Fin 128) :
    (iblk2 V c 1 t : Vec F S5000x128 .f32) (ValueIdx.ix2 r l)
      = (V c main_v41 : Vec F S50000x128 .f32) (ValueIdx.ix2 ⟨5000 * t.val + r.val, row_lt2 t r⟩ l) := by
  obtain ⟨-, -, e0, e1, -⟩ := idx2 t
  unfold iblk2
  rw [View.read_apply]
  show V c main_v41 _ = V c main_v41 _
  congr 1
  funext a
  apply Fin.ext
  match a with
  | ⟨0, _⟩ => show win2_1.index t (0 : Fin 2) * 5000 + 1 * r.val = 5000 * t.val + r.val; rw [e0]; omega
  | ⟨1, _⟩ => show win2_1.index t (1 : Fin 2) * 128 + 1 * l.val = l.val; rw [e1]; omega

/-- Input window 2's block is its whole array, at every point. -/
theorem iblk2_2_eq (c : Dev nD) (t : Fin cfg2.N) : (iblk2 V c 2 t : Vec F S128x128 .f32) = V c main_v53 := by
  obtain ⟨-, -, -, -, e0, e1, -⟩ := idx2 t
  funext y
  unfold iblk2
  rw [View.read_apply]
  show V c main_v53 _ = V c main_v53 y
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- Input window 3's block is its whole array, at every point. -/
theorem iblk2_3_eq (c : Dev nD) (t : Fin cfg2.N) : (iblk2 V c 3 t : Vec F S128 .f32) = V c main_v55 := by
  obtain ⟨-, -, -, -, -, -, e0, -⟩ := idx2 t
  funext y
  unfold iblk2
  rw [View.read_apply]
  show V c main_v55 _ = V c main_v55 y
  congr 1
  funext a
  apply Fin.ext
  match a with
  | ⟨0, _⟩ => show win2_3.index t (0 : Fin 1) * 128 + 1 * (y 0).val = (y 0).val; rw [e0]; omega

/-- Input window 4's block is its whole array, at every point. -/
theorem iblk2_4_eq (c : Dev nD) (t : Fin cfg2.N) : (iblk2 V c 4 t : Vec F S128x128 .f32) = V c main_v57 := by
  obtain ⟨-, -, -, -, -, -, -, e0, e1, -⟩ := idx2 t
  funext y
  unfold iblk2
  rw [View.read_apply]
  show V c main_v57 _ = V c main_v57 y
  congr 1
  funext a
  apply Fin.ext
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- Input window 5's block is its whole array, at every point. -/
theorem iblk2_5_eq (c : Dev nD) (t : Fin cfg2.N) : (iblk2 V c 5 t : Vec F S128 .f32) = V c main_v59 := by
  obtain ⟨-, -, -, -, -, -, -, -, -, e0, -⟩ := idx2 t
  funext y
  unfold iblk2
  rw [View.read_apply]
  show V c main_v59 _ = V c main_v59 y
  congr 1
  funext a
  apply Fin.ext
  match a with
  | ⟨0, _⟩ => show win2_5.index t (0 : Fin 1) * 128 + 1 * (y 0).val = (y 0).val; rw [e0]; omega

end
end Cert.KernelIdeal.Fr

end
-- ==== Proof.MlpMath.lean ====
/- The dense two-matrix layer, one row at a time. A row `h` of 128 extended reals goes to
   `max (h · W1 + b1) 0 · W2 + b2`: `mlpRow` is one entry of that row. The reference computes it on the whole
   [50000,128] array (`refMlp`), the kernel on one [5000,128] tile (the payloads `k0_pay1`, `k1_pay1`, `k2_pay1`);
   read at row `r` and column `j`, each is `mlpRow` of row `r` of the sum of its first two operands. At the ideal
   values every format change is the identity and a product into a zero accumulator is the plain sum. -/
import proofs.«430098_j70454643523874_1_alg».proof.Proof.Gen.KernelIdeal.Skeleton
import proofs.«430098_j70454643523874_1_alg».proof.ReferenceIdeal
import proofs.«430098_j70454643523874_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.Spec

/-- One output entry of the two-matrix update of a row `h`: the row times the first matrix plus the first bias,
    its positive part, times the second matrix, plus the second bias. -/
def mlpRow (h : Fin 128 → EReal) (W1 : Fin 128 → Fin 128 → EReal) (b1 : Fin 128 → EReal)
    (W2 : Fin 128 → Fin 128 → EReal) (b2 : Fin 128 → EReal) (j : Fin 128) : EReal :=
  (∑ k : Fin 128, max ((∑ l : Fin 128, h l * W1 l k) + b1 k) 0 * W2 k j) + b2 j

section Reference
open Cert.ReferenceIdeal Cert.ReferenceIdeal.Gen

/-- The reference's layer as host operations on whole arrays: the sum of the aggregate and the features, the
    product with the first matrix, the first bias broadcast over the rows, the maximum with zero, the product with
    the second matrix, the second bias broadcast over the rows. -/
def refMlp (a x : Vec Ideal S50000x128 .f32) (W1 : Vec Ideal S128x128 .f32) (b1 : Vec Ideal S128 .f32)
    (W2 : Vec Ideal S128x128 .f32) (b2 : Vec Ideal S128 .f32) : Vec Ideal S50000x128 .f32 :=
  addf (φ := .f32) (Host.dotGeneral (F := Ideal) (φ₁ := .f32) (φ₂ := .f32) dot_S50000x128_S128x128_S50000x128_1_0_0_1_n_n none
      (maximumf (φ := .f32) (addf (φ := .f32) (Host.dotGeneral (F := Ideal) (φ₁ := .f32) (φ₂ := .f32) dot_S50000x128_S128x128_S50000x128_1_0_0_1_n_n none (addf (φ := .f32) a x) W1)
          (broadcastInDim S50000x128 ![0, 1] bcast_S1x128_S50000x128_0_1 (broadcastInDim S1x128 ![1] bcast_S128_S1x128_1 b1)))
        (broadcastInDim S50000x128 ![] bcast_S_S50000x128 (constant (F := Ideal) S_ .f32 0x00000000#32))) W2)
    (broadcastInDim S50000x128 ![0, 1] bcast_S1x128_S50000x128_0_1 (broadcastInDim S1x128 ![1] bcast_S128_S1x128_1 b2))

/-! ### The reference's product read at an index -/

theorem refDot_lhs_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem refDot_lhs_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem refDot_rhs_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem refDot_rhs_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The reference's product of a [50000,128] array with a [128,128] matrix, at row `r` and column `j`: the sum over
    `k` of the row's entry `k` times the matrix's entry `(k, j)`. -/
theorem refDot_apply (A : FVec Ideal S50000x128 .f32) (W : FVec Ideal S128x128 .f32) (r : Fin 50000) (j : Fin 128) :
    Host.dotGeneral (F := Ideal) dot_S50000x128_S128x128_S50000x128_1_0_0_1_n_n none A W (ix2 r j)
      = ∑ k : Fin 128, A (ix2 r k) * W (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r j) ((ValueIdx.contrEquiv1 dot_S50000x128_S128x128_S50000x128_1_0_0_1_n_n 128 rfl rfl).symm k) = ix2 r k := funext fun a => Fin.ext (by
    match a with
    | ⟨0, _⟩ => exact refDot_lhs_0 _ _
    | ⟨1, _⟩ => exact (refDot_lhs_1 _ _).trans hk)
  have er : dot_S50000x128_S128x128_S50000x128_1_0_0_1_n_n.rhsIdx (ix2 r j) ((ValueIdx.contrEquiv1 dot_S50000x128_S128x128_S50000x128_1_0_0_1_n_n 128 rfl rfl).symm k) = ix2 k j := funext fun a => Fin.ext (by
    match a with
    | ⟨0, _⟩ => exact (refDot_rhs_0 _ _).trans hk
    | ⟨1, _⟩ => exact refDot_rhs_1 _ _)
  rw [el, er]

/-! ### The reference's bias and zero broadcasts read at an index -/

/-- A [128] bias broadcast to [1,128] and then over the 50000 rows reads, at `(r, j)`, the bias at `j`. -/
theorem refBias_apply (b : Vec Ideal S128 .f32) (r : Fin 50000) (j : Fin 128) :
    broadcastInDim S50000x128 ![0, 1] bcast_S1x128_S50000x128_0_1 (broadcastInDim S1x128 ![1] bcast_S128_S1x128_1 b) (ix2 r j)
      = b (ix1 j) := by
  refine (broadcastInDim_apply _ bcast_S1x128_S50000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-- The scalar zero broadcast over the array reads `0` everywhere. -/
theorem refZero_apply (i : S50000x128.Idx) :
    broadcastInDim S50000x128 ![] bcast_S_S50000x128 (constant (F := Ideal) S_ .f32 0x00000000#32) i = (0 : EReal) := by
  refine (broadcastInDim_apply _ bcast_S_S50000x128 _ i (fun a => a.elim0) (fun a => a.elim0)).trans ?_
  rw [constant_apply, Ideal.ofBits_zero_f32]

/-- The reference's layer at row `r`, column `j`, is the row function of the row `r` of `a + x`. -/
theorem refMlp_apply (a x : Vec Ideal S50000x128 .f32) (W1 : Vec Ideal S128x128 .f32) (b1 : Vec Ideal S128 .f32)
    (W2 : Vec Ideal S128x128 .f32) (b2 : Vec Ideal S128 .f32) (r : Fin 50000) (j : Fin 128) :
    refMlp a x W1 b1 W2 b2 (ix2 r j)
      = mlpRow (fun l => a (ix2 r l) + x (ix2 r l)) (fun l k => W1 (ix2 l k)) (fun k => b1 (ix1 k))
          (fun k j' => W2 (ix2 k j')) (fun j' => b2 (ix1 j')) j := by
  unfold refMlp mlpRow
  rw [addf_apply, refDot_apply, refBias_apply]
  refine congrArg (· + b2 (ix1 j)) (Finset.sum_congr rfl fun k _ => ?_)
  rw [maximumf_apply, addf_apply, refDot_apply, refBias_apply, refZero_apply]
  rfl

end Reference

end Cert.Spec

namespace Cert.KernelIdeal.Fr

open Cert.KernelIdeal Cert.KernelIdeal.Gen

/-! ### The kernel's product read at an index -/

theorem tileDot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem tileDot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem tileDot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem tileDot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The kernel's product of a [5000,128] tile with a [128,128] matrix into a zero accumulator, at row `r` and column
    `j`: the sum over `k` of the row's entry `k` times the matrix's entry `(k, j)`. -/
theorem tileDot_apply {φ₁ φ₂ : FTy} (A : FVec Ideal S5000x128 φ₁) (W : FVec Ideal S128x128 φ₂) (r : Fin 5000) (j : Fin 128) :
    matmul (F := Ideal) dot_S5000x128_S128x128_S5000x128_1_0_0_1_n_n none A W (constant (F := Ideal) S5000x128 .f32 0x00000000#32) (ix2 r j)
      = ∑ k : Fin 128, A (ix2 r k) * W (ix2 k j) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact tileDot_lhs_0 _ _
    | ⟨1, _⟩ => exact (tileDot_lhs_1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (tileDot_rhs_0 _ _).trans hk
    | ⟨1, _⟩ => exact tileDot_rhs_1 _ _)
  rw [el, er]

/-! ### The kernel's bias broadcast read at an index -/

/-- A [128] bias viewed [1,128] and broadcast over the 5000 rows reads, at `(r, j)`, the bias at `j`. -/
theorem tileBias_apply (b : FVec Ideal S128 .f32) (r : Fin 5000) (j : Fin 128) :
    broadcastTo S5000x128 (shapeCast S1x128 b shapeCasts_S128_S1x128) broadcasts_S1x128_S5000x128 (ix2 r j) = b (ix1 j) := by
  rw [broadcastTo_1b_ab_apply, shapeCast_a_1a_apply]

/-- Kernel 0's payload at row `r`, column `j`, is the row function of the row `r` of `a + x`. -/
theorem k0_pay1_apply (a x : Vec Ideal S5000x128 .f32) (W1 : Vec Ideal S128x128 .f32) (b1 : Vec Ideal S128 .f32)
    (W2 : Vec Ideal S128x128 .f32) (b2 : Vec Ideal S128 .f32) (r : Fin 5000) (j : Fin 128) :
    k0_pay1 (F := Ideal) a x W1 b1 W2 b2 (ix2 r j)
      = Cert.Spec.mlpRow (fun l => a (ix2 r l) + x (ix2 r l)) (fun l k => W1 (ix2 l k)) (fun k => b1 (ix1 k))
          (fun k j' => W2 (ix2 k j')) (fun j' => b2 (ix1 j')) j := by
  unfold k0_pay1 Cert.Spec.mlpRow
  simp only [shapeCast_self]
  rw [addf_apply, tileDot_apply, tileBias_apply]
  refine congrArg (· + b2 (ix1 j)) (Finset.sum_congr rfl fun k _ => ?_)
  rw [truncf_apply, truncf_apply, maximumf_apply, addf_apply, tileDot_apply, tileBias_apply, broadcast_apply]
  show max ((∑ l : Fin 128, (a (ix2 r l) + x (ix2 r l)) * W1 (ix2 l k)) + b1 (ix1 k)) (Ideal.ofBits .f32 0x00000000#32) * W2 (ix2 k j) = _
  rw [Ideal.ofBits_zero_f32]

/-- Kernel 1's payload at row `r`, column `j`, is the row function of the row `r` of `a + x`. -/
theorem k1_pay1_apply (a x : Vec Ideal S5000x128 .f32) (W1 : Vec Ideal S128x128 .f32) (b1 : Vec Ideal S128 .f32)
    (W2 : Vec Ideal S128x128 .f32) (b2 : Vec Ideal S128 .f32) (r : Fin 5000) (j : Fin 128) :
    k1_pay1 (F := Ideal) a x W1 b1 W2 b2 (ix2 r j)
      = Cert.Spec.mlpRow (fun l => a (ix2 r l) + x (ix2 r l)) (fun l k => W1 (ix2 l k)) (fun k => b1 (ix1 k))
          (fun k j' => W2 (ix2 k j')) (fun j' => b2 (ix1 j')) j := by
  unfold k1_pay1 Cert.Spec.mlpRow
  simp only [shapeCast_self]
  rw [addf_apply, tileDot_apply, tileBias_apply]
  refine congrArg (· + b2 (ix1 j)) (Finset.sum_congr rfl fun k _ => ?_)
  rw [truncf_apply, truncf_apply, maximumf_apply, addf_apply, tileDot_apply, tileBias_apply, broadcast_apply]
  show max ((∑ l : Fin 128, (a (ix2 r l) + x (ix2 r l)) * W1 (ix2 l k)) + b1 (ix1 k)) (Ideal.ofBits .f32 0x00000000#32) * W2 (ix2 k j) = _
  rw [Ideal.ofBits_zero_f32]

/-- Kernel 2's payload at row `r`, column `j`, is the row function of the row `r` of `a + x`. -/
theorem k2_pay1_apply (a x : Vec Ideal S5000x128 .f32) (W1 : Vec Ideal S128x128 .f32) (b1 : Vec Ideal S128 .f32)
    (W2 : Vec Ideal S128x128 .f32) (b2 : Vec Ideal S128 .f32) (r : Fin 5000) (j : Fin 128) :
    k2_pay1 (F := Ideal) a x W1 b1 W2 b2 (ix2 r j)
      = Cert.Spec.mlpRow (fun l => a (ix2 r l) + x (ix2 r l)) (fun l k => W1 (ix2 l k)) (fun k => b1 (ix1 k))
          (fun k j' => W2 (ix2 k j')) (fun j' => b2 (ix1 j')) j := by
  unfold k2_pay1 Cert.Spec.mlpRow
  simp only [shapeCast_self]
  rw [addf_apply, tileDot_apply, tileBias_apply]
  refine congrArg (· + b2 (ix1 j)) (Finset.sum_congr rfl fun k _ => ?_)
  rw [truncf_apply, truncf_apply, maximumf_apply, addf_apply, tileDot_apply, tileBias_apply, broadcast_apply]
  show max ((∑ l : Fin 128, (a (ix2 r l) + x (ix2 r l)) * W1 (ix2 l k)) + b1 (ix1 k)) (Ideal.ofBits .f32 0x00000000#32) * W2 (ix2 k j) = _
  rw [Ideal.ofBits_zero_f32]

end Cert.KernelIdeal.Fr

end
-- ==== Proof.KI.Layer.lean ====
/- Each dense layer's output array, after its region, is the reference's layer of the arrays the region is entered with. -/
import proofs.«430098_j70454643523874_1_alg».proof.Proof.KI.Arr0
import proofs.«430098_j70454643523874_1_alg».proof.Proof.KI.Arr1
import proofs.«430098_j70454643523874_1_alg».proof.Proof.KI.Arr2
import proofs.«430098_j70454643523874_1_alg».proof.Proof.MlpMath

set_option maxRecDepth 16384

noncomputable section

namespace Cert.KernelIdeal.Fr

open Idealize.ShloMosaic Idealize.ShloMosaic.TcCoe
open Idealize.SL Idealize.SL.Sem
open Idealize.ShloMosaic.Pipeline (Dat Cfg Window)
open Cert.KernelIdeal Cert.KernelIdeal.Gen

section
variable (V : (c : Dev nD) → (b : Ref sig .tc) → Buf (Elt Ideal) ((c : Thread nD τ).loc b))

/-- Region 0's output array, after the region, is the reference's layer of the arrays the region is entered with: at row
    `R`, column `j`, both are the row function of row `R` of the sum of the first two arrays — the kernel's on tile
    `R / 5000` at row `R % 5000`, which is row `5000 * (R / 5000) + R % 5000 = R` of the arrays. -/
theorem layer_bridge0 (c : Dev nD) : (dat0 (F := Ideal) V c).arrAt 6 cfg0.N
    = Cert.Spec.refMlp (V c main_v13) (V c main_arg0) (V c main_v15) (V c main_v17) (V c main_v19) (V c main_v21) := by
  rw [arr0]
  funext i
  obtain ⟨R, j, rfl⟩ : ∃ (R : Fin 50000) (j : Fin 128), i = ValueIdx.ix2 R j := ⟨i 0, i 1, ValueIdx.eq_ix2 i⟩
  rw [Cert.Spec.refMlp_apply]
  unfold mlpArr0 out0_6
  refine (k0_pay1_apply _ _ _ _ _ _ _ _).trans ?_
  rw [iblk0_2_eq, iblk0_3_eq, iblk0_4_eq, iblk0_5_eq]
  refine congrArg (fun h => Cert.Spec.mlpRow h _ _ _ _ j) (funext fun l => ?_)
  refine (congrArg₂ (fun a b : EReal => a + b) (iblk0_0_apply V c _ _ l) (iblk0_1_apply V c _ _ l)).trans ?_
  have hR : ∀ h, (⟨5000 * (R.val / 5000) + R.val % 5000, h⟩ : Fin 50000) = R := fun h => Fin.ext (Nat.div_add_mod R.val 5000)
  exact congrArg₂ (fun a b : EReal => a + b)
    (congrArg (fun r => (V c main_v13 : Vec Ideal S50000x128 .f32) (ValueIdx.ix2 r l)) (hR _))
    (congrArg (fun r => (V c main_arg0 : Vec Ideal S50000x128 .f32) (ValueIdx.ix2 r l)) (hR _))

/-- Region 1's output array, after the region, is the reference's layer of the arrays the region is entered with: at row
    `R`, column `j`, both are the row function of row `R` of the sum of the first two arrays — the kernel's on tile
    `R / 5000` at row `R % 5000`, which is row `5000 * (R / 5000) + R % 5000 = R` of the arrays. -/
theorem layer_bridge1 (c : Dev nD) : (dat1 (F := Ideal) V c).arrAt 6 cfg1.N
    = Cert.Spec.refMlp (V c main_v32) (V c main_v22) (V c main_v34) (V c main_v36) (V c main_v38) (V c main_v40) := by
  rw [arr1]
  funext i
  obtain ⟨R, j, rfl⟩ : ∃ (R : Fin 50000) (j : Fin 128), i = ValueIdx.ix2 R j := ⟨i 0, i 1, ValueIdx.eq_ix2 i⟩
  rw [Cert.Spec.refMlp_apply]
  unfold mlpArr1 out1_6
  refine (k1_pay1_apply _ _ _ _ _ _ _ _).trans ?_
  rw [iblk1_2_eq, iblk1_3_eq, iblk1_4_eq, iblk1_5_eq]
  refine congrArg (fun h => Cert.Spec.mlpRow h _ _ _ _ j) (funext fun l => ?_)
  refine (congrArg₂ (fun a b : EReal => a + b) (iblk1_0_apply V c _ _ l) (iblk1_1_apply V c _ _ l)).trans ?_
  have hR : ∀ h, (⟨5000 * (R.val / 5000) + R.val % 5000, h⟩ : Fin 50000) = R := fun h => Fin.ext (Nat.div_add_mod R.val 5000)
  exact congrArg₂ (fun a b : EReal => a + b)
    (congrArg (fun r => (V c main_v32 : Vec Ideal S50000x128 .f32) (ValueIdx.ix2 r l)) (hR _))
    (congrArg (fun r => (V c main_v22 : Vec Ideal S50000x128 .f32) (ValueIdx.ix2 r l)) (hR _))

/-- Region 2's output array, after the region, is the reference's layer of the arrays the region is entered with: at row
    `R`, column `j`, both are the row function of row `R` of the sum of the first two arrays — the kernel's on tile
    `R / 5000` at row `R % 5000`, which is row `5000 * (R / 5000) + R % 5000 = R` of the arrays. -/
theorem layer_bridge2 (c : Dev nD) : (dat2 (F := Ideal) V c).arrAt 6 cfg2.N
    = Cert.Spec.refMlp (V c main_v51) (V c main_v41) (V c main_v53) (V c main_v55) (V c main_v57) (V c main_v59) := by
  rw [arr2]
  funext i
  obtain ⟨R, j, rfl⟩ : ∃ (R : Fin 50000) (j : Fin 128), i = ValueIdx.ix2 R j := ⟨i 0, i 1, ValueIdx.eq_ix2 i⟩
  rw [Cert.Spec.refMlp_apply]
  unfold mlpArr2 out2_6
  refine (k2_pay1_apply _ _ _ _ _ _ _ _).trans ?_
  rw [iblk2_2_eq, iblk2_3_eq, iblk2_4_eq, iblk2_5_eq]
  refine congrArg (fun h => Cert.Spec.mlpRow h _ _ _ _ j) (funext fun l => ?_)
  refine (congrArg₂ (fun a b : EReal => a + b) (iblk2_0_apply V c _ _ l) (iblk2_1_apply V c _ _ l)).trans ?_
  have hR : ∀ h, (⟨5000 * (R.val / 5000) + R.val % 5000, h⟩ : Fin 50000) = R := fun h => Fin.ext (Nat.div_add_mod R.val 5000)
  exact congrArg₂ (fun a b : EReal => a + b)
    (congrArg (fun r => (V c main_v51 : Vec Ideal S50000x128 .f32) (ValueIdx.ix2 r l)) (hR _))
    (congrArg (fun r => (V c main_v41 : Vec Ideal S50000x128 .f32) (ValueIdx.ix2 r l)) (hR _))

end
end Cert.KernelIdeal.Fr

end
-- ==== Proof.KI.Arr3.lean ====
/- Region 3's output array after the region (the one write-back, at the last point, writes the whole array), and its two input blocks
   read off their arrays row by row. -/
import proofs.«430098_j70454643523874_1_alg».proof.Proof.Gen.KernelIdeal.Launch
import proofs.«430098_j70454643523874_1_alg».proof.Proof.Gen.KernelIdeal.Skeleton
import proofs.«430098_j70454643523874_1_alg».proof.Proof.Gen.KernelIdeal.Points
import proofs.«430098_j70454643523874_1_alg».proof.Proof.KI.Pool
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The block indices of region 3's windows, decided over the ten points: the two row-tiled inputs sit at tile `t` of the rows and
    column block 0; the output is one block. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- The last point. -/
theorem nine_lt3 : 9 < cfg3.N := by rw [show cfg3.N = 10 from N_3]; decide

/-- Row `r` of tile `t` is a row of the array. -/
theorem row_lt3 (t : Fin cfg3.N) (r : Fin 5000) : 5000 * t.val + r.val < 50000 := by
  have ht : t.val < 10 := lt_of_lt_of_eq t.isLt N_3; have := r.isLt; omega

section
variable (V : (c : Dev nD) → (b : Ref sig .tc) → Buf (Elt F) ((c : Thread nD τ).loc b))

/-- The one point that writes back is the last, and its block, the whole array, is what the last point left in the output tile. -/
theorem flushed3_2_eq (c : Dev nD) (t : Fin cfg3.N) (hf : (cfg3.win 2).flush t = true) :
    (dat3 V c).flushed 2 t = ((cfg3.win 2).blk t).view.read (Elt F) (outAt3 V c 9 nine_lt3) := by
  have h9 : t.val = 9 := by
    have h := (flush3_2 t).mp hf
    have ht : t.val < 10 := lt_of_lt_of_eq t.isLt N_3
    omega
  obtain rfl : t = ⟨9, nine_lt3⟩ := Fin.ext h9
  show (cfg3.win 2).cut (grid3.coords ⟨9, nine_lt3⟩) ((dat3 V c).after 2 ⟨9, nine_lt3⟩) = _
  rw [after3_2]
  obtain ⟨-, -, -, -, e0, e1⟩ := idx3 ⟨9, nine_lt3⟩
  funext y
  rw [View.read_apply]
  show outAt3 V c 9 nine_lt3 y = outAt3 V c 9 nine_lt3 (((cfg3.win 2).blk ⟨9, nine_lt3⟩).view.emb y)
  congr 1
  funext a
  apply Fin.ext
  match a with
  | ⟨0, _⟩ => show (y 0).val = win3_2.index ⟨9, nine_lt3⟩ (0 : Fin 2) * 128 + 1 * (y 0).val; rw [e0]; omega
  | ⟨1, _⟩ => show (y 1).val = win3_2.index ⟨9, nine_lt3⟩ (1 : Fin 2) * 128 + 1 * (y 1).val; rw [e1]; omega

/-- An index of the array is in point `t`'s block iff each coordinate is in the block's range on its axis. -/
theorem mem_blk3_2 (t : Fin cfg3.N) (i : S128x128.Idx) :
    i ∈ ((cfg3.win 2).blk t).view.set ↔ ∀ a : Fin 2, win3_2.index t a * S128x128.size a ≤ (i a).val ∧ (i a).val < win3_2.index t a * S128x128.size a + S128x128.size a := by
  show i ∈ ((View.whole main_v62).slice (win3_2.rect t)).set ↔ _
  rw [View.set_slice_whole, Rect.mem_set_unit]
  exact Iff.rfl

/-- Every index is in the last point's block. -/
theorem whole_cover3 (i : S128x128.Idx) : ∃ t : Fin cfg3.N, (cfg3.win 2).flush t = true ∧ i ∈ ((cfg3.win 2).blk t).view.set := by
  have hi0 : (i 0).val < 128 := ValueIdx.idx2_lt0 i
  have hi1 : (i 1).val < 128 := ValueIdx.idx2_lt1 i
  refine ⟨⟨9, nine_lt3⟩, (flush3_2 _).mpr rfl, ?_⟩
  rw [mem_blk3_2]
  obtain ⟨-, -, -, -, e0, e1⟩ := idx3 ⟨9, nine_lt3⟩
  intro a
  match a with
  | ⟨0, _⟩ => show win3_2.index ⟨9, nine_lt3⟩ (0 : Fin 2) * 128 ≤ (i 0).val ∧ (i 0).val < win3_2.index ⟨9, nine_lt3⟩ (0 : Fin 2) * 128 + 128; rw [e0]; omega
  | ⟨1, _⟩ => show win3_2.index ⟨9, nine_lt3⟩ (1 : Fin 2) * 128 ≤ (i 1).val ∧ (i 1).val < win3_2.index ⟨9, nine_lt3⟩ (1 : Fin 2) * 128 + 128; rw [e1]; omega

/-- The output array after the region is what the last point left in the output tile. -/
theorem arr3 (c : Dev nD) : (dat3 V c).arrAt 2 cfg3.N = outAt3 V c 9 nine_lt3 :=
  (dat3 V c).arrAt_eq_of_cover 2 (outAt3 V c 9 nine_lt3) (flushed3_2_eq V c) whole_cover3

/-- The feature tile at point `t` is rows `5000 t … 5000 t + 4999` of the feature array. -/
theorem xblk3_apply (c : Dev nD) (t : Fin cfg3.N) (r : Fin 5000) (l : Fin 128) :
    xblk3 V c t (ValueIdx.ix2 r l)
      = (V c main_v60 : Vec F S50000x128 .f32) (ValueIdx.ix2 ⟨5000 * t.val + r.val, row_lt3 t r⟩ l) := by
  obtain ⟨e0, e1, -⟩ := idx3 t
  unfold xblk3 iblk3
  rw [View.read_apply]
  show V c main_v60 _ = V c main_v60 _
  congr 1
  funext a
  apply Fin.ext
  match a with
  | ⟨0, _⟩ => show win3_0.index t (0 : Fin 2) * 5000 + 1 * r.val = 5000 * t.val + r.val; rw [e0]; omega
  | ⟨1, _⟩ => show win3_0.index t (1 : Fin 2) * 128 + 1 * l.val = l.val; rw [e1]; omega

/-- The graph-id tile at point `t` is rows `5000 t … 5000 t + 4999` of the graph-id array. -/
theorem bblk3_apply (c : Dev nD) (t : Fin cfg3.N) (r : Fin 5000) :
    bblk3 V c t (ValueIdx.ix2 r (0 : Fin 1))
      = (V c main_v61 : Vec F S50000x1 .i32) (ValueIdx.ix2 ⟨5000 * t.val + r.val, row_lt3 t r⟩ (0 : Fin 1)) := by
  obtain ⟨-, -, e0, e1, -⟩ := idx3 t
  unfold bblk3 iblk3
  rw [View.read_apply]
  show V c main_v61 _ = V c main_v61 _
  congr 1
  funext a
  apply Fin.ext
  match a with
  | ⟨0, _⟩ => show win3_1.index t (0 : Fin 2) * 5000 + 1 * r.val = 5000 * t.val + r.val; rw [e0]; omega
  | ⟨1, _⟩ => show win3_1.index t (1 : Fin 2) * 1 + 1 * (0 : Fin 1).val = (0 : Fin 1).val; rw [e1]; rfl

end
end Cert.KernelIdeal.Fr

end
-- ==== Proof.LibSegmentSum.lean ====
/-
  A row scatter-add read at an index. A `stablehlo.scatter` with an `add` body whose scatter indices are one column
  `[E, 1]` of row numbers, whose updates are `E` rows of width `D` and whose operand has `M` rows of width `D`
  (what `jax.ops.segment_sum` of a rank-2 array lowers to) adds update row `e` onto operand row `idx e`: the element
  `(r, k)` of the result is the operand's plus the sum, over the update rows `e` whose index is `r`, of the update's
  element `(e, k)`. An index outside `[0, M)` names no row and its update row is dropped. The column `k` plays no part
  in which rows land, so a scatter of a wide update array restricted to some columns is the scatter of those columns.
-/
import Idealize.ShloMosaic.PureOps.Ideal
import Idealize.ShloMosaic.PureOps.Contract
import Idealize.ShloMosaic.Lib.ValueIdx

noncomputable section

open scoped BigOperators

namespace Cert.LibSegmentSum

open Idealize.ShloMosaic Idealize.ShloMosaic.ValueIdx

/-- The dimension numbers of a row scatter: update axis 1 is the window (operand axis 1), operand axis 0 is the
    inserted one and the one the single index component names, the index vector lies along axis 1 of the indices. -/
abbrev rowScatterDims (M D E : Nat)
    (wf : ScatterDims.WF (⟨2, ![M, D]⟩ : Shape) (⟨2, ![E, 1]⟩ : Shape) (⟨2, ![E, D]⟩ : Shape) [1] [0] [0] 1) :
    ScatterDims (⟨2, ![M, D]⟩ : Shape) (⟨2, ![E, 1]⟩ : Shape) (⟨2, ![E, D]⟩ : Shape) where
  updateWindowDims := [1]
  insertedWindowDims := [0]
  scatterDimsToOperandDims := [0]
  indexVectorDim := 1
  wf := wf

/-- On operand axis 0 the window starts at row `e`'s index word, read signed. -/
private theorem start_zero {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) :
    (rowScatterDims M D E wf).start (ix2 e k') idx 0 = (idx (ix2 e (0 : Fin 1))).toInt := by
  unfold ScatterDims.start
  rw [dif_pos (show (0 : Fin 2) ∈ (rowScatterDims M D E wf).scatterDimsToOperandDims from List.mem_singleton.mpr rfl)]
  have hsi : (rowScatterDims M D E wf).siIdx (ix2 e k') ⟨List.idxOf (0 : Fin 2) (rowScatterDims M D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Operand axis 1 is not named by the index vector: the window starts at 0 there. -/
private theorem start_one {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (j : (⟨2, ![E, D]⟩ : Shape).Idx) :
    (rowScatterDims M D E wf).start j idx 1 = 0 := by
  unfold ScatterDims.start
  rw [dif_neg (show ¬ (1 : Fin 2) ∈ (rowScatterDims M D E wf).scatterDimsToOperandDims from (by decide : ¬ (1 : Fin 2) ∈ ([0] : List (Fin 2))))]

/-- Operand axis 0 is inserted: the window coordinate there is 0. -/
private theorem window_zero {M D E : Nat}
    (wf : ScatterDims.WF (⟨2, ![M, D]⟩ : Shape) (⟨2, ![E, 1]⟩ : Shape) (⟨2, ![E, D]⟩ : Shape) [1] [0] [0] 1)
    (j : (⟨2, ![E, D]⟩ : Shape).Idx) :
    (rowScatterDims M D E wf).window j 0 = 0 := by
  unfold ScatterDims.window
  rw [dif_neg (show ¬ (0 : Fin 2) ∈ (rowScatterDims M D E wf).sKept from (by decide : ¬ (0 : Fin 2) ∈ (List.finRange 2).filter (· ∉ [(0 : Fin 2)])))]

/-- On operand axis 1 the window coordinate is the update's column. -/
private theorem window_one {M D E : Nat}
    (wf : ScatterDims.WF (⟨2, ![M, D]⟩ : Shape) (⟨2, ![E, 1]⟩ : Shape) (⟨2, ![E, D]⟩ : Shape) [1] [0] [0] 1)
    (e : Fin E) (k' : Fin D) :
    (rowScatterDims M D E wf).window (ix2 e k') 1 = k'.val := by
  unfold ScatterDims.window
  rw [dif_pos (show (1 : Fin 2) ∈ (rowScatterDims M D E wf).sKept from (by decide : (1 : Fin 2) ∈ (List.finRange 2).filter (· ∉ [(0 : Fin 2)])))]
  rfl

/-- Update element `(e, k')` lands on operand element `(r, k)` exactly when row `e`'s index is `r` and the columns agree. -/
theorem resultIdx?_eq_some_iff {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) (r : Fin M) (k : Fin D) :
    (rowScatterDims M D E wf).resultIdx? (ix2 e k') idx = some (ix2 r k)
      ↔ (idx (ix2 e (0 : Fin 1))).toInt = (r.val : ℤ) ∧ k' = k := by
  have hs0 := start_zero wf idx e k'
  have hs1 := start_one wf idx (ix2 e k')
  have hw0 := window_zero wf (ix2 e k')
  have hw1 := window_one wf e k'
  have hr := r.isLt
  have hk := k.isLt
  have hk' := k'.isLt
  constructor
  · intro hres
    unfold ScatterDims.resultIdx? at hres
    split_ifs at hres with h
    rw [Option.some.injEq] at hres
    have e0 : ((rowScatterDims M D E wf).start (ix2 e k') idx 0 + (rowScatterDims M D E wf).window (ix2 e k') 0).toNat = r.val :=
      congrArg Fin.val (congrFun hres 0)
    have e1 : ((rowScatterDims M D E wf).start (ix2 e k') idx 1 + (rowScatterDims M D E wf).window (ix2 e k') 1).toNat = k.val :=
      congrArg Fin.val (congrFun hres 1)
    have h0 := (h 0).1
    rw [hs0, hw0] at e0 h0
    rw [hs1, hw1] at e1
    exact ⟨by omega, Fin.ext (by omega)⟩
  · rintro ⟨hidx, rfl⟩
    unfold ScatterDims.resultIdx?
    have h : ∀ a, 0 ≤ (rowScatterDims M D E wf).start (ix2 e k') idx a + (rowScatterDims M D E wf).window (ix2 e k') a
        ∧ (rowScatterDims M D E wf).start (ix2 e k') idx a + (rowScatterDims M D E wf).window (ix2 e k') a
          < (⟨2, ![M, D]⟩ : Shape).size a := by
      refine Fin.forall_fin_two.2 ⟨?_, ?_⟩
      · rw [hs0, hw0]
        show 0 ≤ _ ∧ _ < (M : ℤ)
        omega
      · rw [hs1, hw1]
        show 0 ≤ _ ∧ _ < (D : ℤ)
        omega
    rw [dif_pos h, Option.some.injEq]
    funext a
    refine Fin.ext ?_
    revert a
    refine Fin.forall_fin_two.2 ⟨?_, ?_⟩
    · show ((rowScatterDims M D E wf).start (ix2 e k') idx 0 + (rowScatterDims M D E wf).window (ix2 e k') 0).toNat = r.val
      rw [hs0, hw0]; omega
    · show ((rowScatterDims M D E wf).start (ix2 e k') idx 1 + (rowScatterDims M D E wf).window (ix2 e k') 1).toNat = k'.val
      rw [hs1, hw1]; omega

/-- THE ROW SCATTER-ADD AT `(r, k)`: the operand's element plus the update rows whose index is `r`, at column `k`. -/
theorem rowScatterAdd_apply {M D E w : Nat}
    (wf : ScatterDims.WF (⟨2, ![M, D]⟩ : Shape) (⟨2, ![E, 1]⟩ : Shape) (⟨2, ![E, D]⟩ : Shape) [1] [0] [0] 1)
    (x : (⟨2, ![M, D]⟩ : Shape).Idx → EReal) (idx : IVec (⟨2, ![E, 1]⟩ : Shape) w)
    (u : (⟨2, ![E, D]⟩ : Shape).Idx → EReal) (r : Fin M) (k : Fin D) :
    Ideal.hostScatterAdd (rowScatterDims M D E wf) x idx u (ix2 r k)
      = x (ix2 r k) + ∑ e : Fin E, if (idx (ix2 e (0 : Fin 1))).toInt = (r.val : ℤ) then u (ix2 e k) else 0 := by
  unfold Ideal.hostScatterAdd
  congr 1
  rw [Finset.sum_filter, sum_idx2]
  refine Finset.sum_congr rfl fun e _ => ?_
  simp only [resultIdx?_eq_some_iff]
  by_cases hi : (idx (ix2 e (0 : Fin 1))).toInt = (r.val : ℤ)
  · simp only [hi, true_and, if_true]
    rw [Finset.sum_ite_eq']
    simp
  · simp only [hi, false_and, if_false, Finset.sum_const_zero]

end Cert.LibSegmentSum

end
-- ==== Proof.PoolMath.lean ====
/-
  Mean pooling by graph id, as mathematics on the extended reals. A row n of x carries an id b n; the pooled row g is
  the sum of the rows whose id is g, divided by their number floored at one. Two readings of it are brought to that
  form here. The first scatters the rows (and a column of ones) onto the rows their ids name of zero arrays, ids
  outside [0, 128) naming no row. The second goes tile by tile: the one-hot matrix of a tile's ids (entry (n, g) is
  one where b n = g, zero elsewhere) is multiplied, transposed, into the tile's rows and into a column of ones, and
  the products are added to carried sums and counts; a product with a zero-or-one factor is the other factor or zero,
  for an infinite factor too. Ten tiles of 5000 rows make the 50000 rows.
-/
import proofs.«430098_j70454643523874_1_alg».proof.Proof.Gen.KernelIdeal.Skeleton
import proofs.«430098_j70454643523874_1_alg».proof.ReferenceIdeal
import proofs.«430098_j70454643523874_1_alg».proof.Proof.LibSegmentSum
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.StableHlo.Predicate

noncomputable section

open scoped BigOperators

namespace Cert.Spec

open Idealize.ShloMosaic Idealize.ShloMosaic.ValueIdx

/-- rows of x whose id is g, summed, at column d; ids read signed -/
def segSum {N : Nat} (x : Fin N → Fin 128 → EReal) (b : Fin N → BitVec 32) (g d : Fin 128) : EReal :=
  ∑ n : Fin N, if (b n).toInt = (g.val : ℤ) then x n d else 0

/-- the number of rows whose id is g; ids read signed -/
def segCnt {N : Nat} (b : Fin N → BitVec 32) (g : Fin 128) : EReal :=
  ∑ n : Fin N, if (b n).toInt = (g.val : ℤ) then 1 else 0

/-- the quotient both sides end with -/
def poolQ (s c : EReal) : EReal := Ideal.div s (max c 1)

section Ref
variable [Cert.ReferenceIdeal.Facts₀]
open Cert.ReferenceIdeal Cert.ReferenceIdeal.Facts₀

/-- the reference's pooling as host operations: the rows scattered onto their ids' rows of a zero array, over the
    ones scattered likewise, floored at one and spread along the row -/
def refPool (x : Vec Ideal Cert.ReferenceIdeal.S50000x128 .f32) (bcol : IVec Cert.ReferenceIdeal.S50000x1 32) :
    Vec Ideal Cert.ReferenceIdeal.S128x128 .f32 :=
  Host.divf (F := Ideal)
    (Host.scatterAdd (F := Ideal) scatter_S128x128_S50000x1_S50000x128_1_0_0_1
      (broadcastInDim S128x128 ![] bcast_S_S128x128 (constant (F := Ideal) S_ .f32 0x00000000#32)) bcol x)
    (broadcastInDim S128x128 ![0, 1] bcast_S128x1_S128x128_0_1
      (maximumf (F := Ideal)
        (Host.scatterAdd (F := Ideal) scatter_S128x1_S50000x1_S50000x1_1_0_0_1
          (broadcastInDim S128x1 ![] bcast_S_S128x1 (constant (F := Ideal) S_ .f32 0x00000000#32)) bcol
          (broadcastInDim S50000x1 ![] bcast_S_S50000x1 (constant (F := Ideal) S_ .f32 0x3F800000#32)))
        (broadcastInDim S128x1 ![] bcast_S_S128x1 (constant (F := Ideal) S_ .f32 0x3F800000#32))))

/-- the rows scattered onto a zero array, at (g, d): the rows whose id is g, summed at column d -/
theorem refSums_apply (x : Vec Ideal Cert.ReferenceIdeal.S50000x128 .f32) (bcol : IVec Cert.ReferenceIdeal.S50000x1 32) (g d : Fin 128) :
    Host.scatterAdd (F := Ideal) scatter_S128x128_S50000x1_S50000x128_1_0_0_1
      (broadcastInDim S128x128 ![] bcast_S_S128x128 (constant (F := Ideal) S_ .f32 0x00000000#32)) bcol x (ix2 g d)
      = segSum (fun n d' => x (ix2 n d')) (fun n => bcol (ix2 n (0 : Fin 1))) g d := by
  unfold Host.scatterAdd
  rw [Ideal.hostScatterAdd_def]
  have hrec : scatter_S128x128_S50000x1_S50000x128_1_0_0_1 = Cert.LibSegmentSum.rowScatterDims 128 128 50000 scatter_S128x128_S50000x1_S50000x128_1_0_0_1_wf := rfl
  rw [hrec, Cert.LibSegmentSum.rowScatterAdd_apply, broadcastInDim_scalar_apply, constant_apply, Ideal.ofBits_zero_f32, zero_add]
  rfl

/-- the ones scattered onto a zero column, at (g, 0): the number of rows whose id is g -/
theorem refCnts_apply (bcol : IVec Cert.ReferenceIdeal.S50000x1 32) (g : Fin 128) :
    Host.scatterAdd (F := Ideal) scatter_S128x1_S50000x1_S50000x1_1_0_0_1
      (broadcastInDim S128x1 ![] bcast_S_S128x1 (constant (F := Ideal) S_ .f32 0x00000000#32)) bcol
      (broadcastInDim S50000x1 ![] bcast_S_S50000x1 (constant (F := Ideal) S_ .f32 0x3F800000#32)) (ix2 g (0 : Fin 1))
      = segCnt (fun n => bcol (ix2 n (0 : Fin 1))) g := by
  unfold Host.scatterAdd
  rw [Ideal.hostScatterAdd_def]
  have hrec : scatter_S128x1_S50000x1_S50000x1_1_0_0_1 = Cert.LibSegmentSum.rowScatterDims 128 1 50000 scatter_S128x1_S50000x1_S50000x1_1_0_0_1_wf := rfl
  rw [hrec, Cert.LibSegmentSum.rowScatterAdd_apply, broadcastInDim_scalar_apply, constant_apply, Ideal.ofBits_zero_f32, zero_add]
  unfold segCnt
  refine Finset.sum_congr rfl fun e _ => ?_
  rw [broadcastInDim_scalar_apply, constant_apply, Ideal.ofBits_one_f32]

/-- a column spread along the rows reads the column's entry of the row -/
theorem spreadCol_apply (y : FVec Ideal Cert.ReferenceIdeal.S128x1 .f32) (g d : Fin 128) :
    broadcastInDim S128x128 ![0, 1] bcast_S128x1_S128x128_0_1 y (ix2 g d) = y (ix2 g (0 : Fin 1)) := by
  refine broadcastInDim_apply _ bcast_S128x1_S128x128_0_1 y (ix2 g d) (ix2 g (0 : Fin 1)) (fun a => ?_)
  match a with
  | ⟨0, _⟩ => show g.val = if (128 : Nat) = 1 then 0 else g.val; rw [if_neg (by decide)]
  | ⟨1, _⟩ => show 0 = if (1 : Nat) = 1 then 0 else d.val; rw [if_pos rfl]

/-- THE REFERENCE'S POOLING AT (g, d): the segment's sum over the segment's count floored at one -/
theorem refPool_apply (x : Vec Ideal Cert.ReferenceIdeal.S50000x128 .f32) (bcol : IVec Cert.ReferenceIdeal.S50000x1 32) (g d : Fin 128) :
    refPool x bcol (ix2 g d)
      = poolQ (segSum (fun n d' => x (ix2 n d')) (fun n => bcol (ix2 n (0 : Fin 1))) g d)
          (segCnt (fun n => bcol (ix2 n (0 : Fin 1))) g) := by
  unfold refPool
  rw [hostDivf_apply, refSums_apply, spreadCol_apply, maximumf_apply, refCnts_apply, broadcastInDim_scalar_apply,
    constant_apply, Ideal.ofBits_one_f32]
  rfl

end Ref

/-- a sum over 50000 rows is the sum over ten tiles of the sums over their 5000 rows -/
theorem sum_tiles {M : Type} [AddCommMonoid M] (f : Fin 50000 → M) :
    ∑ n : Fin 50000, f n = ∑ t : Fin 10, ∑ n : Fin 5000, f ⟨5000 * t.val + n.val, by omega⟩ := by
  rw [← Equiv.sum_comp (finProdFinEquiv : Fin 10 × Fin 5000 ≃ Fin 50000) f, Fintype.sum_prod_type]
  refine Finset.sum_congr rfl fun t _ => Finset.sum_congr rfl fun n _ => ?_
  congr 1
  apply Fin.ext
  show n.val + 5000 * t.val = 5000 * t.val + n.val
  omega

/-- ten tiles make the whole: a sum over 50000 rows is the sum over the tiles of the sums over their 5000 rows -/
theorem segSum_tiles (x : Fin 50000 → Fin 128 → EReal) (b : Fin 50000 → BitVec 32) (g d : Fin 128) :
    segSum x b g d = ∑ t : Fin 10, segSum (fun (n : Fin 5000) d' => x ⟨5000 * t.val + n.val, by omega⟩ d')
      (fun n => b ⟨5000 * t.val + n.val, by omega⟩) g d := by
  unfold segSum
  exact sum_tiles (fun n => if (b n).toInt = (g.val : ℤ) then x n d else 0)

/-- the same for the counts -/
theorem segCnt_tiles (b : Fin 50000 → BitVec 32) (g : Fin 128) :
    segCnt b g = ∑ t : Fin 10, segCnt (fun (n : Fin 5000) => b ⟨5000 * t.val + n.val, by omega⟩) g := by
  unfold segCnt
  exact sum_tiles (fun n => if (b n).toInt = (g.val : ℤ) then (1 : EReal) else 0)

end Cert.Spec

namespace Cert.KernelIdeal.Fr
open Idealize.ShloMosaic Idealize.ShloMosaic.ValueIdx
open Cert.KernelIdeal Cert.KernelIdeal.Gen

/-- the zero accumulator of the sums -/
theorem k3_pay1_apply (g d : Fin 128) : k3_pay1 (F := Ideal) (ix2 g d) = 0 := by
  unfold k3_pay1
  rw [shapeCast_self]
  exact Ideal.ofBits_zero_f32

/-- the zero accumulator of the counts -/
theorem k3_pay2_apply (g : Fin 128) : k3_pay2 (F := Ideal) (ix2 g (0 : Fin 1)) = 0 := by
  unfold k3_pay2
  rw [shapeCast_self]
  exact Ideal.ofBits_zero_f32

/-- a column broadcast along the rows' width reads the column's entry of the row -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- a word is the word of a small number exactly when it reads, signed, as that number -/
theorem word_eq_ofNat_iff (w : BitVec 32) (g : Fin 128) : w = BitVec.ofNat 32 g.val ↔ w.toInt = (g.val : ℤ) := by
  have hg : (BitVec.ofNat 32 g.val).toInt = (g.val : ℤ) := by
    have := g.isLt
    rw [BitVec.toInt_eq_toNat_of_lt (by rw [BitVec.toNat_ofNat]; omega), BitVec.toNat_ofNat]
    omega
  constructor
  · rintro rfl; exact hg
  · intro h; exact BitVec.eq_of_toInt_eq (by rw [h, hg])

/-- the one-hot entry: one where the word is the column's number, zero elsewhere -/
theorem onehot_entry (w : BitVec 32) (g : Fin 128) :
    ((((IntOp.cmpi .eq w (BitVec.ofNat 32 g.val)).setWidth 32).toInt : ℝ) : EReal) = if w.toInt = (g.val : ℤ) then 1 else 0 := by
  by_cases h : w = BitVec.ofNat 32 g.val
  · rw [StableHlo.Predicate.cmpi_eq_iff.mpr h, if_pos ((word_eq_ofNat_iff w g).mp h)]
    norm_num
  · rw [eq_zero_of_ne_one (fun h1 => h (StableHlo.Predicate.cmpi_eq_iff.mp h1)), if_neg (fun h1 => h ((word_eq_ofNat_iff w g).mpr h1))]
    norm_num

/-- the one-hot matrix of a tile's ids -/
theorem k3_pay3_apply (bb : Vec Ideal S5000x1 .i32) (n : Fin 5000) (g : Fin 128) :
    k3_pay3 (F := Ideal) bb (ix2 n g) = if (bb (ix2 n (0 : Fin 1))).toInt = (g.val : ℤ) then 1 else 0 := by
  unfold k3_pay3
  rw [truncf_apply, sitofp_apply, extui_apply]
  show ((((IntOp.cmpi .eq (broadcastTo S5000x128 (shapeCast S5000x1 bb shapeCasts_S5000x1_S5000x1) broadcasts_S5000x1_S5000x128 (ix2 n g))
    (iota .tc S5000x128 32 [1] iota_S5000x128_d1_w32 (ix2 n g))).setWidth 32).toInt : ℝ) : EReal) = _
  rw [iota_single_apply, broadcastTo_a1_ab_apply, shapeCast_self]
  exact onehot_entry _ g

/-! the two products that contract the rows -/

theorem lhs_sums_0 (i : S128x128.Idx) (q : dot_S5000x128_S5000x128_S128x128_0_0_1_1_n_n.contr.Idx) :
    (dot_S5000x128_S5000x128_S128x128_0_0_1_1_n_n.lhsIdx i q 0).val = (q ⟨0, by decide⟩).val :=
  dot_S5000x128_S5000x128_S128x128_0_0_1_1_n_n.lhsIdx_val_of_single rfl i q
theorem lhs_sums_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl
theorem rhs_sums_0 (i : S128x128.Idx) (q : dot_S5000x128_S5000x128_S128x128_0_0_1_1_n_n.contr.Idx) :
    (dot_S5000x128_S5000x128_S128x128_0_0_1_1_n_n.rhsIdx i q 0).val = (q ⟨0, by decide⟩).val :=
  dot_S5000x128_S5000x128_S128x128_0_0_1_1_n_n.rhsIdx_val_of_single rfl i q
theorem rhs_sums_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

/-- the product of the transposed left operand with the right one, into zero: entry (g, d) sums over the rows -/
theorem matmul_sums_apply (L R : FVec Ideal S5000x128 .bf16) (g d : Fin 128) :
    matmul dot_S5000x128_S5000x128_S128x128_0_0_1_1_n_n none L R (constant (F := Ideal) S128x128 .f32 0x00000000#32) (ix2 g d)
      = ∑ n : Fin 5000, L (ix2 n g) * R (ix2 n d) := by
  simp only [matmul]
  rw [Ideal.matmul_constant_zero_apply, ← Equiv.sum_comp (contrEquiv1 dot_S5000x128_S5000x128_S128x128_0_0_1_1_n_n 5000 rfl rfl).symm]
  refine Finset.sum_congr rfl fun k _ => ?_
  have hk := contrEquiv1_symm_val dot_S5000x128_S5000x128_S128x128_0_0_1_1_n_n 5000 rfl rfl k
  have el : dot_S5000x128_S5000x128_S128x128_0_0_1_1_n_n.lhsIdx (ix2 g d) ((contrEquiv1 dot_S5000x128_S5000x128_S128x128_0_0_1_1_n_n 5000 rfl rfl).symm k) = ix2 k g := funext fun a => Fin.ext (by
    match a with
    | ⟨0, _⟩ => exact (lhs_sums_0 _ _).trans hk
    | ⟨1, _⟩ => exact lhs_sums_1 _ _)
  have er : dot_S5000x128_S5000x128_S128x128_0_0_1_1_n_n.rhsIdx (ix2 g d) ((contrEquiv1 dot_S5000x128_S5000x128_S128x128_0_0_1_1_n_n 5000 rfl rfl).symm k) = ix2 k d := funext fun a => Fin.ext (by
    match a with
    | ⟨0, _⟩ => exact (rhs_sums_0 _ _).trans hk
    | ⟨1, _⟩ => exact rhs_sums_1 _ _)
  rw [el, er]

theorem lhs_cnts_0 (i : S128x1.Idx) (q : dot_S5000x128_S5000x1_S128x1_0_0_1_1_n_n.contr.Idx) :
    (dot_S5000x128_S5000x1_S128x1_0_0_1_1_n_n.lhsIdx i q 0).val = (q ⟨0, by decide⟩).val :=
  dot_S5000x128_S5000x1_S128x1_0_0_1_1_n_n.lhsIdx_val_of_single rfl i q
theorem lhs_cnts_1 (i : S128x1.Idx) (q : dot_S5000x128_S5000x1_S128x1_0_0_1_1_n_n.contr.Idx) :
    (dot_S5000x128_S5000x1_S128x1_0_0_1_1_n_n.lhsIdx i q 1).val = (i 0).val := by
  unfold DotDims.lhsIdx
  rw [dif_neg (show ¬(1 : Fin S5000x128.rank) ∈ dot_S5000x128_S5000x1_S128x1_0_0_1_1_n_n.lhsBatch by decide), dif_pos (show (1 : Fin S5000x128.rank) ∈ dot_S5000x128_S5000x1_S128x1_0_0_1_1_n_n.lhsNonContracting by decide)]
  rfl
theorem rhs_cnts_0 (i : S128x1.Idx) (q : dot_S5000x128_S5000x1_S128x1_0_0_1_1_n_n.contr.Idx) :
    (dot_S5000x128_S5000x1_S128x1_0_0_1_1_n_n.rhsIdx i q 0).val = (q ⟨0, by decide⟩).val :=
  dot_S5000x128_S5000x1_S128x1_0_0_1_1_n_n.rhsIdx_val_of_single rfl i q
theorem rhs_cnts_1 (i : S128x1.Idx) (q : dot_S5000x128_S5000x1_S128x1_0_0_1_1_n_n.contr.Idx) :
    (dot_S5000x128_S5000x1_S128x1_0_0_1_1_n_n.rhsIdx i q 1).val = (i 1).val := by
  unfold DotDims.rhsIdx
  rw [dif_neg (show ¬(1 : Fin S5000x1.rank) ∈ dot_S5000x128_S5000x1_S128x1_0_0_1_1_n_n.rhsBatch by decide), dif_pos (show (1 : Fin S5000x1.rank) ∈ dot_S5000x128_S5000x1_S128x1_0_0_1_1_n_n.rhsNonContracting by decide)]
  rfl

/-- the product of the transposed left operand with a column, into zero: entry (g, 0) sums over the rows -/
theorem matmul_cnts_apply (L : FVec Ideal S5000x128 .bf16) (R : FVec Ideal S5000x1 .bf16) (g : Fin 128) :
    matmul dot_S5000x128_S5000x1_S128x1_0_0_1_1_n_n none L R (constant (F := Ideal) S128x1 .f32 0x00000000#32) (ix2 g (0 : Fin 1))
      = ∑ n : Fin 5000, L (ix2 n g) * R (ix2 n (0 : Fin 1)) := by
  simp only [matmul]
  rw [Ideal.matmul_constant_zero_apply, ← Equiv.sum_comp (contrEquiv1 dot_S5000x128_S5000x1_S128x1_0_0_1_1_n_n 5000 rfl rfl).symm]
  refine Finset.sum_congr rfl fun k _ => ?_
  have hk := contrEquiv1_symm_val dot_S5000x128_S5000x1_S128x1_0_0_1_1_n_n 5000 rfl rfl k
  have el : dot_S5000x128_S5000x1_S128x1_0_0_1_1_n_n.lhsIdx (ix2 g (0 : Fin 1)) ((contrEquiv1 dot_S5000x128_S5000x1_S128x1_0_0_1_1_n_n 5000 rfl rfl).symm k) = ix2 k g := funext fun a => Fin.ext (by
    match a with
    | ⟨0, _⟩ => exact (lhs_cnts_0 _ _).trans hk
    | ⟨1, _⟩ => exact lhs_cnts_1 _ _)
  have er : dot_S5000x128_S5000x1_S128x1_0_0_1_1_n_n.rhsIdx (ix2 g (0 : Fin 1)) ((contrEquiv1 dot_S5000x128_S5000x1_S128x1_0_0_1_1_n_n 5000 rfl rfl).symm k) = ix2 k (0 : Fin 1) := funext fun a => Fin.ext (by
    match a with
    | ⟨0, _⟩ => exact (rhs_cnts_0 _ _).trans hk
    | ⟨1, _⟩ => exact rhs_cnts_1 _ _)
  rw [el, er]

/-- one tile's step of the sums -/
theorem k3_pay4_apply (bb : Vec Ideal S5000x1 .i32) (xb : Vec Ideal S5000x128 .f32) (s : Vec Ideal S128x128 .f32) (g d : Fin 128) :
    k3_pay4 (F := Ideal) bb xb s (ix2 g d)
      = s (ix2 g d) + Cert.Spec.segSum (fun n d' => xb (ix2 n d')) (fun n => bb (ix2 n (0 : Fin 1))) g d := by
  unfold k3_pay4
  rw [shapeCast_self, addf_apply, matmul_sums_apply]
  congr 1
  unfold Cert.Spec.segSum
  refine Finset.sum_congr rfl fun n _ => ?_
  rw [k3_pay3_apply, truncf_apply, shapeCast_self, ite_mul, one_mul, zero_mul]

/-- one tile's step of the counts -/
theorem k3_pay5_apply (bb : Vec Ideal S5000x1 .i32) (s : Vec Ideal S128x1 .f32) (g : Fin 128) :
    k3_pay5 (F := Ideal) bb s (ix2 g (0 : Fin 1))
      = s (ix2 g (0 : Fin 1)) + Cert.Spec.segCnt (fun n => bb (ix2 n (0 : Fin 1))) g := by
  unfold k3_pay5
  rw [shapeCast_self, addf_apply, matmul_cnts_apply]
  rw [Cert.Spec.segCnt]
  refine congrArg (s (ix2 g (0 : Fin 1)) + ·) (Finset.sum_congr rfl fun n _ => ?_)
  rw [k3_pay3_apply, broadcast_apply]
  show _ * Ideal.ofBits .bf16 0x3F80#16 = _
  rw [Ideal.ofBits_one_bf16, mul_one]

/-- the closing quotient -/
theorem k3_pay6_apply (cnt : Vec Ideal S128x1 .f32) (s : Vec Ideal S128x128 .f32) (g d : Fin 128) :
    k3_pay6 (F := Ideal) cnt s (ix2 g d) = Cert.Spec.poolQ (s (ix2 g d)) (cnt (ix2 g (0 : Fin 1))) := by
  unfold k3_pay6
  rw [divf_apply, broadcastTo_a1_ab_apply, maximumf_apply, broadcast_apply]
  show Ideal.div _ (max _ (Ideal.ofBits .f32 0x3F800000#32)) = _
  rw [Ideal.ofBits_one_f32]
  rfl

end Cert.KernelIdeal.Fr

end
-- ==== Proof.KI.PoolVal.lean ====
/- The pooling region's result array is the reference's mean pooling of the two arrays the region is entered with. The carried sums
   and counts after a point are the sums, over the tiles up to that point, of the tiles' segment sums and segment counts: each point
   adds its tile's to what the point before left, the first to zero. Ten tiles of 5000 rows make the 50000 rows, so after the last
   point the carried arrays hold the whole segment sums and counts, and the closing quotient is the reference's. Addition of extended
   reals is only used as a commutative monoid: nothing here needs a value to be finite. -/
import proofs.«430098_j70454643523874_1_alg».proof.Proof.KI.Pool
import proofs.«430098_j70454643523874_1_alg».proof.Proof.KI.Arr3
import proofs.«430098_j70454643523874_1_alg».proof.Proof.PoolMath

set_option maxRecDepth 16384

noncomputable section

open scoped BigOperators

namespace Cert.KernelIdeal.Fr

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-! ## One tile's contribution -/

/-- Tile `t`'s segment sum at `(g, d)`: the rows of the tile whose id is `g`, summed at column `d` (zero past the last tile). -/
def tileSum (c : Dev nD) (g d : Fin 128) (t : ℕ) : EReal :=
  if h : t < cfg3.N then
    Cert.Spec.segSum (fun (r : Fin 5000) (l : Fin 128) => xblk3 V c ⟨t, h⟩ (ix2 r l)) (fun (r : Fin 5000) => bblk3 V c ⟨t, h⟩ (ix2 r (0 : Fin 1))) g d
  else 0

/-- Tile `t`'s segment count at `g`: the number of rows of the tile whose id is `g` (zero past the last tile). -/
def tileCnt (c : Dev nD) (g : Fin 128) (t : ℕ) : EReal :=
  if h : t < cfg3.N then Cert.Spec.segCnt (fun (r : Fin 5000) => bblk3 V c ⟨t, h⟩ (ix2 r (0 : Fin 1))) g else 0

/-! ## The carried arrays, point by point -/

/-- The carried sums after point `n`, at `(g, d)`: the tiles' segment sums up to `n`, added up. -/
theorem acc3_fst_eq (c : Dev nD) (g d : Fin 128) : ∀ (n : ℕ) (hn : n < cfg3.N),
    (acc3 V c n hn).1 (ix2 g d) = ∑ t ∈ Finset.range (n + 1), tileSum V c g d t
  | 0, hn => by
    rw [Finset.sum_range_succ, Finset.sum_range_zero, zero_add, tileSum, dif_pos hn]
    show k3_pay4 (F := Ideal) (bblk3 V c ⟨0, hn⟩) (xblk3 V c ⟨0, hn⟩) (k3_pay1 (F := Ideal)) (ix2 g d) = _
    refine (k3_pay4_apply _ _ _ g d).trans ?_
    rw [k3_pay1_apply, zero_add]
  | n + 1, hn => by
    rw [Finset.sum_range_succ, ← acc3_fst_eq c g d n (Nat.lt_of_succ_lt hn), tileSum, dif_pos hn]
    show k3_pay4 (F := Ideal) (bblk3 V c ⟨n + 1, hn⟩) (xblk3 V c ⟨n + 1, hn⟩) (acc3 V c n (Nat.lt_of_succ_lt hn)).1 (ix2 g d) = _
    exact k3_pay4_apply _ _ _ g d

/-- The carried counts after point `n`, at `g`: the tiles' segment counts up to `n`, added up. -/
theorem acc3_snd_eq (c : Dev nD) (g : Fin 128) : ∀ (n : ℕ) (hn : n < cfg3.N),
    (acc3 V c n hn).2 (ix2 g (0 : Fin 1)) = ∑ t ∈ Finset.range (n + 1), tileCnt V c g t
  | 0, hn => by
    rw [Finset.sum_range_succ, Finset.sum_range_zero, zero_add, tileCnt, dif_pos hn]
    show k3_pay5 (F := Ideal) (bblk3 V c ⟨0, hn⟩) (k3_pay2 (F := Ideal)) (ix2 g (0 : Fin 1)) = _
    refine (k3_pay5_apply _ _ g).trans ?_
    rw [k3_pay2_apply, zero_add]
  | n + 1, hn => by
    rw [Finset.sum_range_succ, ← acc3_snd_eq c g n (Nat.lt_of_succ_lt hn), tileCnt, dif_pos hn]
    show k3_pay5 (F := Ideal) (bblk3 V c ⟨n + 1, hn⟩) (acc3 V c n (Nat.lt_of_succ_lt hn)).2 (ix2 g (0 : Fin 1)) = _
    exact k3_pay5_apply _ _ g

/-! ## Ten tiles make the whole -/

/-- A tile number is a point of the grid. -/
theorem tile_lt3 (t : Fin 10) : t.val < cfg3.N := by rw [show cfg3.N = 10 from N_3]; exact t.isLt

/-- The ten tiles' segment sums add up to the segment sum over all the rows of the feature array, by the ids of the id array. -/
theorem tiles_sum (c : Dev nD) (g d : Fin 128) :
    ∑ t ∈ Finset.range 10, tileSum V c g d t
      = Cert.Spec.segSum (fun (n : Fin 50000) (l : Fin 128) => (V c main_v60 : Vec Ideal S50000x128 .f32) (ix2 n l))
          (fun (n : Fin 50000) => (V c main_v61 : Vec Ideal S50000x1 .i32) (ix2 n (0 : Fin 1))) g d := by
  rw [Cert.Spec.segSum_tiles, Finset.sum_range]
  refine Finset.sum_congr rfl fun t _ => ?_
  rw [tileSum, dif_pos (tile_lt3 t)]
  exact congrArg₂ (fun A B => Cert.Spec.segSum A B g d)
    (funext fun r => funext fun l => xblk3_apply V c ⟨t.val, tile_lt3 t⟩ r l)
    (funext fun r => bblk3_apply V c ⟨t.val, tile_lt3 t⟩ r)

/-- The ten tiles' segment counts add up to the segment count over all the rows of the id array. -/
theorem tiles_cnt (c : Dev nD) (g : Fin 128) :
    ∑ t ∈ Finset.range 10, tileCnt V c g t
      = Cert.Spec.segCnt (fun (n : Fin 50000) => (V c main_v61 : Vec Ideal S50000x1 .i32) (ix2 n (0 : Fin 1))) g := by
  rw [Cert.Spec.segCnt_tiles, Finset.sum_range]
  refine Finset.sum_congr rfl fun t _ => ?_
  rw [tileCnt, dif_pos (tile_lt3 t)]
  exact congrArg (fun B => Cert.Spec.segCnt B g) (funext fun r => bblk3_apply V c ⟨t.val, tile_lt3 t⟩ r)

/-! ## The bridge -/

variable [Cert.ReferenceIdeal.Facts₀]

/-- THE POOLING REGION'S VALUE: the result array after the region is the reference's mean pooling of the feature array by the id
    array, both as the region is entered with them. -/
theorem pool_bridge (c : Dev nD) :
    (dat3 (F := Ideal) V c).arrAt 2 cfg3.N = Cert.Spec.refPool (V c main_v60) (V c main_v61) := by
  refine (arr3 V c).trans ?_
  funext i
  obtain ⟨g, d, rfl⟩ : ∃ (g d : Fin 128), i = ix2 g d := ⟨i 0, i 1, ValueIdx.eq_ix2 i⟩
  refine Eq.trans ?_ (Cert.Spec.refPool_apply _ _ g d).symm
  unfold outAt3
  refine (k3_pay6_apply _ _ g d).trans ?_
  exact congrArg₂ Cert.Spec.poolQ
    ((acc3_fst_eq V c g d 9 nine_lt3).trans (tiles_sum V c g d))
    ((acc3_snd_eq V c g 9 nine_lt3).trans (tiles_cnt V c g))

end Cert.KernelIdeal.Fr

end
-- ==== Proof.KI.Value.lean ====
/- The layered program's result as one function of its arguments, at the exact reals: each region's output array is the layer
   applied to what the stretch before it prepared (the neighbour aggregate of the current features, the features, the layer's
   parameters), and the last region's is the mean pooling of the third layer's features by the graph-id column. -/
import proofs.«430098_j70454643523874_1_alg».proof.Proof.KI.Run
import proofs.«430098_j70454643523874_1_alg».proof.Proof.KI.Host
import proofs.«430098_j70454643523874_1_alg».proof.Proof.KI.Layer
import proofs.«430098_j70454643523874_1_alg».proof.Proof.KI.PoolVal

noncomputable section

namespace Cert.KernelIdeal.Fr

open Idealize.ShloMosaic Idealize.ShloMosaic.TcCoe Idealize.SL.Sem Idealize.ShloMosaic.StableHlo
open Cert.KernelIdeal Cert.KernelIdeal.Gen

/-- The layer and the pooling are functions of their operands. -/
theorem refMlp_congr {a a' x x' : Vec Ideal Cert.ReferenceIdeal.S50000x128 .f32} {W1 W1' : Vec Ideal Cert.ReferenceIdeal.S128x128 .f32}
    {b1 b1' : Vec Ideal Cert.ReferenceIdeal.S128 .f32} {W2 W2' : Vec Ideal Cert.ReferenceIdeal.S128x128 .f32}
    {b2 b2' : Vec Ideal Cert.ReferenceIdeal.S128 .f32}
    (ha : a = a') (hx : x = x') (hW1 : W1 = W1') (hb1 : b1 = b1') (hW2 : W2 = W2') (hb2 : b2 = b2') :
    Cert.Spec.refMlp a x W1 b1 W2 b2 = Cert.Spec.refMlp a' x' W1' b1' W2' b2' := by
  subst ha hx hW1 hb1 hW2 hb2; rfl

/-! ## The function, on argument arrays -/

section Fn

variable (x0 : (⟨S50000x128, .f32⟩ : BufTy).Contents (Elt Ideal)) (x1 : (⟨S3x128x128, .f32⟩ : BufTy).Contents (Elt Ideal))
  (x2 : (⟨S3x128, .f32⟩ : BufTy).Contents (Elt Ideal)) (x3 : (⟨S3x128x128, .f32⟩ : BufTy).Contents (Elt Ideal))
  (x4 : (⟨S3x128, .f32⟩ : BufTy).Contents (Elt Ideal)) (x5 : (⟨S2x600000, .i32⟩ : BufTy).Contents (Elt Ideal))
  (x6 : (⟨S50000, .i32⟩ : BufTy).Contents (Elt Ideal))

/-- The features after the first layer. -/
def feat1 : (⟨S50000x128, .f32⟩ : BufTy).Contents (Elt Ideal) :=
  Cert.Spec.refMlp (aggOf (F := Ideal) x0 (edgeRow0 x5) (edgeRow1 x5)) x0
    (shapeCast _ (extractStridedSlice S1x128x128 ![0, 0, 0] x1 slices_S3x128x128_S1x128x128_0_0_0) shapeCasts_S1x128x128_S128x128)
    (shapeCast _ (extractStridedSlice S1x128 ![0, 0] x2 slices_S3x128_S1x128_0_0) shapeCasts_S1x128_S128)
    (shapeCast _ (extractStridedSlice S1x128x128 ![0, 0, 0] x3 slices_S3x128x128_S1x128x128_0_0_0) shapeCasts_S1x128x128_S128x128)
    (shapeCast _ (extractStridedSlice S1x128 ![0, 0] x4 slices_S3x128_S1x128_0_0) shapeCasts_S1x128_S128)

/-- The features after the second layer. -/
def feat2 : (⟨S50000x128, .f32⟩ : BufTy).Contents (Elt Ideal) :=
  Cert.Spec.refMlp (aggOf (F := Ideal) (feat1 x0 x1 x2 x3 x4 x5) (edgeRow0 x5) (edgeRow1 x5)) (feat1 x0 x1 x2 x3 x4 x5)
    (shapeCast _ (extractStridedSlice S1x128x128 ![1, 0, 0] x1 slices_S3x128x128_S1x128x128_1_0_0) shapeCasts_S1x128x128_S128x128)
    (shapeCast _ (extractStridedSlice S1x128 ![1, 0] x2 slices_S3x128_S1x128_1_0) shapeCasts_S1x128_S128)
    (shapeCast _ (extractStridedSlice S1x128x128 ![1, 0, 0] x3 slices_S3x128x128_S1x128x128_1_0_0) shapeCasts_S1x128x128_S128x128)
    (shapeCast _ (extractStridedSlice S1x128 ![1, 0] x4 slices_S3x128_S1x128_1_0) shapeCasts_S1x128_S128)

/-- The features after the third layer. -/
def feat3 : (⟨S50000x128, .f32⟩ : BufTy).Contents (Elt Ideal) :=
  Cert.Spec.refMlp (aggOf (F := Ideal) (feat2 x0 x1 x2 x3 x4 x5) (edgeRow0 x5) (edgeRow1 x5)) (feat2 x0 x1 x2 x3 x4 x5)
    (shapeCast _ (extractStridedSlice S1x128x128 ![2, 0, 0] x1 slices_S3x128x128_S1x128x128_2_0_0) shapeCasts_S1x128x128_S128x128)
    (shapeCast _ (extractStridedSlice S1x128 ![2, 0] x2 slices_S3x128_S1x128_2_0) shapeCasts_S1x128_S128)
    (shapeCast _ (extractStridedSlice S1x128x128 ![2, 0, 0] x3 slices_S3x128x128_S1x128x128_2_0_0) shapeCasts_S1x128x128_S128x128)
    (shapeCast _ (extractStridedSlice S1x128 ![2, 0] x4 slices_S3x128_S1x128_2_0) shapeCasts_S1x128_S128)

/-- The pooled result: the third layer's features averaged over the rows of each graph id. -/
def pooled : (⟨S128x128, .f32⟩ : BufTy).Contents (Elt Ideal) :=
  Cert.Spec.refPool (feat3 x0 x1 x2 x3 x4 x5) (shapeCast _ x6 shapeCasts_S50000_S50000x1)

end Fn

/-! ## The run's buffers, stretch by stretch -/

variable (m : (ℓ : Loc nD τ sig) → Buf (Elt Ideal) ℓ) (ρ : Dev nD → PrngReg)

/-- An argument's buffer is as launched at every boundary (no stretch and no region writes it). -/
theorem W1_arg (c : Dev nD) (b : Ref sig .tc) (h : b ∉ hostOps0_W) : W1 m ρ c (Proc.devRef .tc b) = W0 m ρ c (Proc.devRef .tc b) :=
  StableHlo.after_of_writes_sub hostOps0 _ hostOps0_writes h
theorem W3_keep (c : Dev nD) (b : Ref sig .tc) (h : b ∉ hostOps1_W) : W3 m ρ c (Proc.devRef .tc b) = W2 m ρ c (Proc.devRef .tc b) :=
  StableHlo.after_of_writes_sub hostOps1 _ hostOps1_writes h
theorem W5_keep (c : Dev nD) (b : Ref sig .tc) (h : b ∉ hostOps2_W) : W5 m ρ c (Proc.devRef .tc b) = W4 m ρ c (Proc.devRef .tc b) :=
  StableHlo.after_of_writes_sub hostOps2 _ hostOps2_writes h
theorem W7_keep (c : Dev nD) (b : Ref sig .tc) (h : b ∉ hostOps3_W) : W7 m ρ c (Proc.devRef .tc b) = W6 m ρ c (Proc.devRef .tc b) :=
  StableHlo.after_of_writes_sub hostOps3 _ hostOps3_writes h

/-! ### After the first stretch and the first region -/

theorem W1_v1 (c : Dev nD) : W1 m ρ c (Proc.devRef .tc main_v1) = edgeRow0 (m ((c : Thread nD τ).loc main_arg5)) := host0_v1 (W0 m ρ c)
theorem W1_v3 (c : Dev nD) : W1 m ρ c (Proc.devRef .tc main_v3) = edgeRow1 (m ((c : Thread nD τ).loc main_arg5)) := host0_v3 (W0 m ρ c)

/-- The first region's output array: the features after the first layer. -/
theorem W2_v22 (c : Dev nD) : W2 m ρ c (Proc.devRef .tc main_v22) = feat1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ?_
  refine (layer_bridge0 (V1 m ρ) c).trans ?_
  unfold feat1
  exact refMlp_congr (host0_v13 (W0 m ρ c)) (W1_arg m ρ c main_arg0 (by decide)) (host0_v15 (W0 m ρ c)) (host0_v17 (W0 m ρ c))
    (host0_v19 (W0 m ρ c)) (host0_v21 (W0 m ρ c))

theorem W2_v1 (c : Dev nD) : W2 m ρ c (Proc.devRef .tc main_v1) = edgeRow0 (m ((c : Thread nD τ).loc main_arg5)) :=
  (W2_of_ne m ρ c main_v1 (by decide)).trans (W1_v1 m ρ c)
theorem W2_v3 (c : Dev nD) : W2 m ρ c (Proc.devRef .tc main_v3) = edgeRow1 (m ((c : Thread nD τ).loc main_arg5)) :=
  (W2_of_ne m ρ c main_v3 (by decide)).trans (W1_v3 m ρ c)
theorem W2_arg (c : Dev nD) (b : Ref sig .tc) (hb : ∀ w, Pipeline.arrRef spec0 w ≠ b) (h : b ∉ hostOps0_W) :
    W2 m ρ c (Proc.devRef .tc b) = W0 m ρ c (Proc.devRef .tc b) :=
  (W2_of_ne m ρ c b hb).trans (W1_arg m ρ c b h)

/-! ### After the second stretch and the second region -/

theorem W4_v41 (c : Dev nD) : W4 m ρ c (Proc.devRef .tc main_v41) = feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 6).trans ?_
  refine (layer_bridge1 (V3 m ρ) c).trans ?_
  unfold feat2
  refine refMlp_congr ?_ ?_ ?_ ?_ ?_ ?_
  · refine (host1_v32 (W2 m ρ c)).trans ?_
    rw [W2_v22, W2_v1, W2_v3]
  · exact (W3_keep m ρ c main_v22 (by decide)).trans (W2_v22 m ρ c)
  · refine (host1_v34 (W2 m ρ c)).trans ?_
    rw [W2_arg m ρ c main_arg1 (by decide) (by decide)]
  · refine (host1_v36 (W2 m ρ c)).trans ?_
    rw [W2_arg m ρ c main_arg2 (by decide) (by decide)]
  · refine (host1_v38 (W2 m ρ c)).trans ?_
    rw [W2_arg m ρ c main_arg3 (by decide) (by decide)]
  · refine (host1_v40 (W2 m ρ c)).trans ?_
    rw [W2_arg m ρ c main_arg4 (by decide) (by decide)]

theorem W4_v1 (c : Dev nD) : W4 m ρ c (Proc.devRef .tc main_v1) = edgeRow0 (m ((c : Thread nD τ).loc main_arg5)) :=
  (W4_of_ne m ρ c main_v1 (by decide)).trans ((W3_keep m ρ c main_v1 (by decide)).trans (W2_v1 m ρ c))
theorem W4_v3 (c : Dev nD) : W4 m ρ c (Proc.devRef .tc main_v3) = edgeRow1 (m ((c : Thread nD τ).loc main_arg5)) :=
  (W4_of_ne m ρ c main_v3 (by decide)).trans ((W3_keep m ρ c main_v3 (by decide)).trans (W2_v3 m ρ c))
theorem W4_arg (c : Dev nD) (b : Ref sig .tc) (hb1 : ∀ w, Pipeline.arrRef spec1 w ≠ b) (h1 : b ∉ hostOps1_W)
    (hb : ∀ w, Pipeline.arrRef spec0 w ≠ b) (h : b ∉ hostOps0_W) :
    W4 m ρ c (Proc.devRef .tc b) = W0 m ρ c (Proc.devRef .tc b) :=
  (W4_of_ne m ρ c b hb1).trans ((W3_keep m ρ c b h1).trans (W2_arg m ρ c b hb h))

/-! ### After the third stretch and the third region -/

theorem W6_v60 (c : Dev nD) : W6 m ρ c (Proc.devRef .tc main_v60) = feat3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 6).trans ?_
  refine (layer_bridge2 (V5 m ρ) c).trans ?_
  unfold feat3
  refine refMlp_congr ?_ ?_ ?_ ?_ ?_ ?_
  · refine (host2_v51 (W4 m ρ c)).trans ?_
    rw [W4_v41, W4_v1, W4_v3]
  · exact (W5_keep m ρ c main_v41 (by decide)).trans (W4_v41 m ρ c)
  · refine (host2_v53 (W4 m ρ c)).trans ?_
    rw [W4_arg m ρ c main_arg1 (by decide) (by decide) (by decide) (by decide)]
  · refine (host2_v55 (W4 m ρ c)).trans ?_
    rw [W4_arg m ρ c main_arg2 (by decide) (by decide) (by decide) (by decide)]
  · refine (host2_v57 (W4 m ρ c)).trans ?_
    rw [W4_arg m ρ c main_arg3 (by decide) (by decide) (by decide) (by decide)]
  · refine (host2_v59 (W4 m ρ c)).trans ?_
    rw [W4_arg m ρ c main_arg4 (by decide) (by decide) (by decide) (by decide)]

theorem W6_arg6 (c : Dev nD) : W6 m ρ c (Proc.devRef .tc main_arg6) = m ((c : Thread nD τ).loc main_arg6) :=
  (W6_of_ne m ρ c main_arg6 (by decide)).trans ((W5_keep m ρ c main_arg6 (by decide)).trans
    (W4_arg m ρ c main_arg6 (by decide) (by decide) (by decide) (by decide)))

/-! ### The last stretch and the pooling region -/

/-- THE RESULT: what the last region's write-back leaves in the result array is the pooled function of the arguments. -/
theorem result_eq (c : Dev nD) :
    (dat3 (V7 m ρ) c).arrAt 2 cfg3.N = pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (pool_bridge (V7 m ρ) c).trans ?_
  unfold pooled
  have hx : V7 m ρ c main_v60 = feat3 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) :=
    (W7_keep m ρ c main_v60 (by decide)).trans (W6_v60 m ρ c)
  have hb : V7 m ρ c main_v61 = shapeCast _ (m ((c : Thread nD τ).loc main_arg6)) shapeCasts_S50000_S50000x1 := by
    refine (host3_v61 (W6 m ρ c)).trans ?_
    rw [W6_arg6]
  rw [hx, hb]

end Cert.KernelIdeal.Fr

end
-- ==== Proof.RefStages.lean ====
/- The reference program's result is the same function of the arguments: its stages, read back, are the three layers and the mean
   pooling of the layered program's value (the same host operations on the same operands; the graph-id column is built there by a
   broadcast along the rows, here by a reshape: one column either way). -/
import proofs.«430098_j70454643523874_1_alg».proof.Proof.Gen.ReferenceIdeal.Run
import proofs.«430098_j70454643523874_1_alg».proof.Proof.Gen.ReferenceIdeal.Read
import proofs.«430098_j70454643523874_1_alg».proof.Proof.KI.Value

noncomputable section

namespace Cert.ReferenceIdeal.RefValue

open Idealize.ShloMosaic Idealize.ShloMosaic.TcCoe Idealize.SL.Sem
open Cert.ReferenceIdeal Cert.ReferenceIdeal.Gen Cert.ReferenceIdeal.Read

variable (x0 : (⟨S50000x128, .f32⟩ : BufTy).Contents (Elt Ideal)) (x1 : (⟨S3x128x128, .f32⟩ : BufTy).Contents (Elt Ideal))
  (x2 : (⟨S3x128, .f32⟩ : BufTy).Contents (Elt Ideal)) (x3 : (⟨S3x128x128, .f32⟩ : BufTy).Contents (Elt Ideal))
  (x4 : (⟨S3x128, .f32⟩ : BufTy).Contents (Elt Ideal)) (x5 : (⟨S2x600000, .i32⟩ : BufTy).Contents (Elt Ideal))
  (x6 : (⟨S50000, .i32⟩ : BufTy).Contents (Elt Ideal))

/-- The id column: entry `(n, 0)` is id `n`, whether the column is made by broadcasting along the rows or by reshaping. -/
theorem idcol_eq : val_main_v92 (F := Ideal) x6
    = shapeCast Cert.KernelIdeal.S50000x1 x6 Cert.KernelIdeal.Gen.shapeCasts_S50000_S50000x1 := by
  funext i
  rw [val_main_v92_apply]
  symm
  refine shapeCast_apply x6 _ i (idx_main_v92 i) ?_
  rw [Shape.rowMajor_val_one, Shape.rowMajor_val_two]
  have h1 : (i 1).val = 0 := by have := (i 1).isLt; simp at this; omega
  show (i 0).val = (i 0).val * 1 + (i 1).val
  omega

/-- The first layer's features are the reference's stage `%32`. -/
theorem feat1_eq : val_main_v32 (F := Ideal) x0 x1 x2 x3 x4 x5 = Cert.KernelIdeal.Fr.feat1 x0 x1 x2 x3 x4 x5 := rfl

/-- The second layer's are its stage `%61`. -/
theorem feat2_eq : val_main_v61 (F := Ideal) x0 x1 x2 x3 x4 x5 = Cert.KernelIdeal.Fr.feat2 x0 x1 x2 x3 x4 x5 := by
  unfold Cert.KernelIdeal.Fr.feat2
  rw [← feat1_eq]
  rfl

/-- The third layer's are its stage `%90`. -/
theorem feat3_eq : val_main_v90 (F := Ideal) x0 x1 x2 x3 x4 x5 = Cert.KernelIdeal.Fr.feat3 x0 x1 x2 x3 x4 x5 := by
  unfold Cert.KernelIdeal.Fr.feat3
  rw [← feat2_eq]
  rfl

/-- The reference's result is the pooled function of the arguments. -/
theorem res_eq : val_main_v101 (F := Ideal) x0 x1 x2 x3 x4 x5 x6 = Cert.KernelIdeal.Fr.pooled x0 x1 x2 x3 x4 x5 x6 := by
  unfold Cert.KernelIdeal.Fr.pooled
  rw [← feat3_eq, ← idcol_eq]
  rfl

end Cert.ReferenceIdeal.RefValue

end
-- ==== Proof.lean ====
/- Three message-passing layers and a mean pooling, two ways. Each layer replaces the node features `x` by
   `((agg + x)·W1 + b1)⁺·W2 + b2`, `agg` the sum of the source rows of the edges arriving at each node; the result averages the
   third layer's rows over the nodes of each graph id, a count below one raised to one. One program runs each layer's dense part
   tile by tile (ten tiles of 5000 rows, the matrix products into zero accumulators) and pools by a one-hot matrix product
   accumulated over the tiles in two carried arrays; the other does every step on whole arrays and pools by scattering rows onto
   their graph's row. Over the extended reals the two are one function: a tile's rows depend on that tile's rows only; a product
   with a 0/1 matrix is the sum of the rows it selects (`0·x = 0` and `1·x = x` for every extended real); and a sum over all rows is
   the sum over the tiles of the sums over their rows — commutativity and associativity of addition, nothing else, so the
   finiteness of the inputs is never used. The frames: every region's body runs on the blocks the pipeline hands it and leaves
   each output block, and the two carried arrays, at named contents; no stretch and no region writes an argument. -/
import proofs.«430098_j70454643523874_1_alg».proof.Defs
import proofs.«430098_j70454643523874_1_alg».proof.Proof.Gen.Kernel
import proofs.«430098_j70454643523874_1_alg».proof.Proof.Gen.KernelIdeal
import proofs.«430098_j70454643523874_1_alg».proof.Proof.Gen.ReferenceIdeal
import proofs.«430098_j70454643523874_1_alg».proof.Proof.Gen.Pre_finite_inputs
import proofs.«430098_j70454643523874_1_alg».proof.Proof.K.Run
import proofs.«430098_j70454643523874_1_alg».proof.Proof.KI.Run
import proofs.«430098_j70454643523874_1_alg».proof.Proof.KI.Value
import proofs.«430098_j70454643523874_1_alg».proof.Proof.RefStages
import Idealize.ShloMosaic.Adequacy
import Idealize.ShloMosaic.Init

noncomputable section

namespace Cert.Proof

open Idealize.ShloMosaic Idealize.SL.Sem

/-- The word-level program runs and keeps its arguments. -/
theorem frame_k : Cert.frame_Kernel := fun m ρ _ => Cert.Kernel.Fr.frame (F := Bits) m ρ

/-- So does the program read over the extended reals. -/
theorem frame_ki : Cert.frame_KernelIdeal := fun m ρ _ => Cert.KernelIdeal.Fr.frame (F := Ideal) m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the pooled function of the (agreeing) arguments in their result arrays. -/
theorem algebraic : Cert.algebraic_KernelIdeal_ReferenceIdeal := by
  intro m ρ m' ρ' _ hagree
  refine ⟨fun c => (Cert.KernelIdeal.Fr.dat3 (Cert.KernelIdeal.Fr.V7 m ρ) c).arrAt 2 Cert.KernelIdeal.cfg3.N,
    Cert.KernelIdeal.Fr.run_value (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v101_eq m' c).trans ?_
  rw [(hagree c).1, (hagree c).2.1, (hagree c).2.2.1, (hagree c).2.2.2.1, (hagree c).2.2.2.2.1, (hagree c).2.2.2.2.2.1,
    (hagree c).2.2.2.2.2.2]
  exact (Cert.ReferenceIdeal.RefValue.res_eq _ _ _ _ _ _ _).trans (Cert.KernelIdeal.Fr.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
